-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S8x128 : Shape := ⟨2, ![8, 128]⟩
abbrev S8 : Shape := ⟨1, ![8]⟩
abbrev S32x8 : Shape := ⟨2, ![32, 8]⟩
abbrev S32 : Shape := ⟨1, ![32]⟩
abbrev S32x32 : Shape := ⟨2, ![32, 32]⟩
abbrev S16x32 : Shape := ⟨2, ![16, 32]⟩
abbrev S16 : Shape := ⟨1, ![16]⟩
abbrev S10x16 : Shape := ⟨2, ![10, 16]⟩
abbrev S10 : Shape := ⟨1, ![10]⟩
abbrev S_ : Shape := ⟨0, ![]⟩
abbrev S1x1600000 : Shape := ⟨2, ![1, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S10x16 : S_.BroadcastsInDim S10x16 (![] : Fin 0 → Fin S10x16.rank)
  reducesTo_S10x16_S_d0_1 : S10x16.ReducesTo [0, 1] S_
  bcast_S_S10 : S_.BroadcastsInDim S10 (![] : Fin 0 → Fin S10.rank)
  reducesTo_S10_S_d0 : S10.ReducesTo [0] S_
  slices_S2x1600000_S1x1600000_0_0 : S2x1600000.Slices ![0, 0] S1x1600000
  shapeCasts_S1x1600000_S1600000 : S1x1600000.ShapeCasts S1600000

variable [Facts]

def fn_part5 {F : FTy → Type} [FloatOps F] (main_arg1 : IVec S2x1600000 32) (main_v83 : IVec S_ 1) (main_v85 : IVec S1600000 32) : IVec S_ 1 :=
  let main_c_32 : IVec S_ 32 := constantI S_ 32 0#32
  let main_v86 : IVec S1600000 32 := broadcastInDim S1600000 ![] bcast_S_S1600000 main_c_32
  let main_v87 : IVec S1600000 1 := cmpi .sge main_v85 main_v86
  let main_v88 : IVec S1x1600000 32 := (extractStridedSlice S1x1600000 ![0, 0] · slices_S2x1600000_S1x1600000_0_0) main_arg1
  let main_v89 : IVec S1600000 32 := shapeCast S1600000 main_v88 shapeCasts_S1x1600000_S1600000
  let main_c_33 : IVec S_ 32 := constantI S_ 32 100000#32
  let main_v90 : IVec S1600000 32 := broadcastInDim S1600000 ![] bcast_S_S1600000 main_c_33
  let main_v91 : IVec S1600000 1 := cmpi .slt main_v89 main_v90
  let main_v92 : IVec S1600000 1 := andi main_v87 main_v91
  let main_c_34 : IVec S_ 1 := constantI S_ 1 1#1
  let main_v93 : IVec S_ 1 := (fun x v => Host.reduce IntOp.andi x v reducesTo_S1600000_S_d0 h_S_) main_v92 main_c_34
  let main_v94 : IVec S_ 1 := andi main_v83 main_v93
  main_v94

def fn_part4 {F : FTy → Type} [FloatOps F] (main_arg1 : IVec S2x1600000 32) (main_arg16 : FVec F S16 .f32) (main_arg17 : FVec F S10x16 .f32) (main_arg18 : FVec F S10 .f32) (main_v63 : IVec S_ 1) (main_v67 : IVec S_ 1) : IVec S_ 1 :=
  let main_v68 : IVec S_ 1 := andi main_v63 main_v67
  let main_v69 : FVec F S16 .f32 := Host.absf main_arg16
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S10x16 .f32 := Host.absf main_arg17
  let main_cst_28 : FVec F S_ .f32 := constant S_ .f32 0x7F800000#32
  let main_v75 : FVec F S10x16 .f32 := broadcastInDim S10x16 ![] bcast_S_S10x16 main_cst_28
  let main_v76 : IVec S10x16 1 := cmpf .olt main_v74 main_v75
  let main_c_29 : IVec S_ 1 := constantI S_ 1 1#1
  let main_v77 : IVec S_ 1 := (fun x v => Host.reduce IntOp.andi x v reducesTo_S10x16_S_d0_1 h_S_) main_v76 main_c_29
  let main_v78 : IVec S_ 1 := andi main_v73 main_v77
  let main_v79 : FVec F S10 .f32 := Host.absf main_arg18
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  let main_v84 : IVec S1x1600000 32 := (extractStridedSlice S1x1600000 ![0, 0] · slices_S2x1600000_S1x1600000_0_0) main_arg1
  let main_v85 : IVec S1600000 32 := shapeCast S1600000 main_v84 shapeCasts_S1x1600000_S1600000
  fn_part5 (F := F) main_arg1 main_v83 main_v85

def fn_part3 {F : FTy → Type} [FloatOps F] (main_arg1 : IVec S2x1600000 32) (main_arg13 : FVec F S32 .f32) (main_arg14 : FVec F S32x32 .f32) (main_arg15 : FVec F S16x32 .f32) (main_arg16 : FVec F S16 .f32) (main_arg17 : FVec F S10x16 .f32) (main_arg18 : FVec F S10 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg14
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S16x32 .f32 := Host.absf main_arg15
  let main_cst_24 : FVec F S_ .f32 := constant S_ .f32 0x7F800000#32
  let main_v65 : FVec F S16x32 .f32 := broadcastInDim S16x32 ![] bcast_S_S16x32 main_cst_24
  let main_v66 : IVec S16x32 1 := cmpf .olt main_v64 main_v65
  let main_c_25 : IVec S_ 1 := constantI S_ 1 1#1
  let main_v67 : IVec S_ 1 := (fun x v => Host.reduce IntOp.andi x v reducesTo_S16x32_S_d0_1 h_S_) main_v66 main_c_25
  fn_part4 (F := F) main_arg1 main_arg16 main_arg17 main_arg18 main_v63 main_v67

def fn_part2 {F : FTy → Type} [FloatOps F] (main_arg1 : IVec S2x1600000 32) (main_arg9 : FVec F S32x32 .f32) (main_arg10 : FVec F S32 .f32) (main_arg11 : FVec F S32x32 .f32) (main_arg12 : FVec F S32x32 .f32) (main_arg13 : FVec F S32 .f32) (main_arg14 : FVec F S32x32 .f32) (main_arg15 : FVec F S16x32 .f32) (main_arg16 : FVec F S16 .f32) (main_arg17 : FVec F S10x16 .f32) (main_arg18 : FVec F S10 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32x32 .f32 := Host.absf main_arg12
  let main_cst_18 : FVec F S_ .f32 := constant S_ .f32 0x7F800000#32
  let main_v50 : FVec F S32x32 .f32 := broadcastInDim S32x32 ![] bcast_S_S32x32 main_cst_18
  fn_part3 (F := F) main_arg1 main_arg13 main_arg14 main_arg15 main_arg16 main_arg17 main_arg18 main_v48 main_v49 main_v50

def fn_part1 {F : FTy → Type} [FloatOps F] (main_arg1 : IVec S2x1600000 32) (main_arg6 : FVec F S32x8 .f32) (main_arg7 : FVec F S32 .f32) (main_arg8 : FVec F S32x8 .f32) (main_arg9 : FVec F S32x32 .f32) (main_arg10 : FVec F S32 .f32) (main_arg11 : FVec F S32x32 .f32) (main_arg12 : FVec F S32x32 .f32) (main_arg13 : FVec F S32 .f32) (main_arg14 : FVec F S32x32 .f32) (main_arg15 : FVec F S16x32 .f32) (main_arg16 : FVec F S16 .f32) (main_arg17 : FVec F S10x16 .f32) (main_arg18 : FVec F S10 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S32x8 .f32 := Host.absf main_arg6
  let main_cst_6 : FVec F S_ .f32 := constant S_ .f32 0x7F800000#32
  let main_v20 : FVec F S32x8 .f32 := broadcastInDim S32x8 ![] bcast_S_S32x8 main_cst_6
  let main_v21 : IVec S32x8 1 := cmpf .olt main_v19 main_v20
  let main_c_7 : IVec S_ 1 := constantI S_ 1 1#1
  let main_v22 : IVec S_ 1 := (fun x v => Host.reduce IntOp.andi x v reducesTo_S32x8_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x8 .f32 := Host.absf main_arg8
  let main_cst_10 : FVec F S_ .f32 := constant S_ .f32 0x7F800000#32
  let main_v30 : FVec F S32x8 .f32 := broadcastInDim S32x8 ![] bcast_S_S32x8 main_cst_10
  let main_v31 : IVec S32x8 1 := cmpf .olt main_v29 main_v30
  let main_c_11 : IVec S_ 1 := constantI S_ 1 1#1
  let main_v32 : IVec S_ 1 := (fun x v => Host.reduce IntOp.andi x v reducesTo_S32x8_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_v33

def fn {F : FTy → Type} [FloatOps F] (main_arg0 : FVec F S100000x128 .f32) (main_arg1 : IVec S2x1600000 32) (main_arg2 : FVec F S1600000 .f32) (main_arg3 : IVec S100000 32) (main_arg4 : FVec F S8x128 .f32) (main_arg5 : FVec F S8 .f32) (main_arg6 : FVec F S32x8 .f32) (main_arg7 : FVec F S32 .f32) (main_arg8 : FVec F S32x8 .f32) (main_arg9 : FVec F S32x32 .f32) (main_arg10 : FVec F S32 .f32) (main_arg11 : FVec F S32x32 .f32) (main_arg12 : FVec F S32x32 .f32) (main_arg13 : FVec F S32 .f32) (main_arg14 : FVec F S32x32 .f32) (main_arg15 : FVec F S16x32 .f32) (main_arg16 : FVec F S16 .f32) (main_arg17 : FVec F S10x16 .f32) (main_arg18 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S8x128 .f32 := Host.absf main_arg4
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S8 .f32 := Host.absf main_arg5
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg1 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S8x128 : Shape := ⟨2, ![8, 128]⟩
abbrev S8 : Shape := ⟨1, ![8]⟩
abbrev S32x8 : Shape := ⟨2, ![32, 8]⟩
abbrev S32 : Shape := ⟨1, ![32]⟩
abbrev S32x32 : Shape := ⟨2, ![32, 32]⟩
abbrev S16x32 : Shape := ⟨2, ![16, 32]⟩
abbrev S16 : Shape := ⟨1, ![16]⟩
abbrev S10x16 : Shape := ⟨2, ![10, 16]⟩
abbrev S10 : Shape := ⟨1, ![10]⟩
abbrev S1x1600000 : Shape := ⟨2, ![1, 1600000]⟩
abbrev S_ : Shape := ⟨0, ![]⟩
abbrev S1600000x1 : Shape := ⟨2, ![1600000, 1]⟩
abbrev S100000x8 : Shape := ⟨2, ![100000, 8]⟩
abbrev S10000x128 : Shape := ⟨2, ![10000, 128]⟩
abbrev S10000x8 : Shape := ⟨2, ![10000, 8]⟩
abbrev S128x8 : Shape := ⟨2, ![128, 8]⟩
abbrev S1x8 : Shape := ⟨2, ![1, 8]⟩
abbrev S1 : Shape := ⟨1, ![1]⟩
abbrev S1x1 : Shape := ⟨2, ![1, 1]⟩
abbrev S1600000x8 : Shape := ⟨2, ![1600000, 8]⟩
abbrev S100000x32 : Shape := ⟨2, ![100000, 32]⟩
abbrev S10000x32 : Shape := ⟨2, ![10000, 32]⟩
abbrev S8x32 : Shape := ⟨2, ![8, 32]⟩
abbrev S1x32 : Shape := ⟨2, ![1, 32]⟩
abbrev S1600000x32 : Shape := ⟨2, ![1600000, 32]⟩
abbrev S1000x32 : Shape := ⟨2, ![1000, 32]⟩
abbrev S100000x1 : Shape := ⟨2, ![100000, 1]⟩
abbrev S1000 : Shape := ⟨1, ![1000]⟩
abbrev S1000x1 : Shape := ⟨2, ![1000, 1]⟩
abbrev S1000x10 : Shape := ⟨2, ![1000, 10]⟩
abbrev S32x16 : Shape := ⟨2, ![32, 16]⟩
abbrev S1000x16 : Shape := ⟨2, ![1000, 16]⟩
abbrev S1x16 : Shape := ⟨2, ![1, 16]⟩
abbrev S16x10 : Shape := ⟨2, ![16, 10]⟩
abbrev S1x10 : Shape := ⟨2, ![1, 10]⟩

abbrev nBuf : Space → Nat
  | .hbm => 164
  | .vmem => 39
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S8x128, .f32⟩
  | 5 => ⟨S8, .f32⟩
  | 6 => ⟨S32x8, .f32⟩
  | 7 => ⟨S32, .f32⟩
  | 8 => ⟨S32x8, .f32⟩
  | 9 => ⟨S32x32, .f32⟩
  | 10 => ⟨S32, .f32⟩
  | 11 => ⟨S32x32, .f32⟩
  | 12 => ⟨S32x32, .f32⟩
  | 13 => ⟨S32, .f32⟩
  | 14 => ⟨S32x32, .f32⟩
  | 15 => ⟨S16x32, .f32⟩
  | 16 => ⟨S16, .f32⟩
  | 17 => ⟨S10x16, .f32⟩
  | 18 => ⟨S10, .f32⟩
  | 19 => ⟨S1x1600000, .i32⟩
  | 20 => ⟨S1600000, .i32⟩
  | 21 => ⟨S1x1600000, .i32⟩
  | 22 => ⟨S1600000, .i32⟩
  | 23 => ⟨S1600000, .i32⟩
  | 24 => ⟨S1600000, .i32⟩
  | 25 => ⟨S1600000, .i32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .i32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .i32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S100000x8, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1, .i32⟩
  | 63 => ⟨S_, .i32⟩
  | 64 => ⟨S1600000x1, .i32⟩
  | 65 => ⟨S1600000x1, .i1⟩
  | 66 => ⟨S1x1, .i32⟩
  | 67 => ⟨S1600000x1, .i32⟩
  | 68 => ⟨S1600000x1, .i1⟩
  | 69 => ⟨S1600000x1, .i1⟩
  | 70 => ⟨S_, .i1⟩
  | 71 => ⟨S1600000, .i1⟩
  | 72 => ⟨S1600000x8, .f32⟩
  | 73 => ⟨S1600000x8, .i1⟩
  | 74 => ⟨S_, .f32⟩
  | 75 => ⟨S1600000x8, .f32⟩
  | 76 => ⟨S1600000x8, .f32⟩
  | 77 => ⟨S1600000x1, .f32⟩
  | 78 => ⟨S1600000x8, .f32⟩
  | 79 => ⟨S1600000x8, .f32⟩
  | 80 => ⟨S_, .f32⟩
  | 81 => ⟨S100000x8, .f32⟩
  | 82 => ⟨S1600000x1, .i32⟩
  | 83 => ⟨S100000x8, .f32⟩
  | 84 => ⟨S100000x32, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1, .i32⟩
  | 94 => ⟨S_, .i32⟩
  | 95 => ⟨S1600000x1, .i32⟩
  | 96 => ⟨S1600000x1, .i1⟩
  | 97 => ⟨S1x1, .i32⟩
  | 98 => ⟨S1600000x1, .i32⟩
  | 99 => ⟨S1600000x1, .i1⟩
  | 100 => ⟨S1600000x1, .i1⟩
  | 101 => ⟨S_, .i1⟩
  | 102 => ⟨S1600000, .i1⟩
  | 103 => ⟨S1600000x32, .f32⟩
  | 104 => ⟨S1600000x32, .i1⟩
  | 105 => ⟨S_, .f32⟩
  | 106 => ⟨S1600000x32, .f32⟩
  | 107 => ⟨S1600000x32, .f32⟩
  | 108 => ⟨S1600000x1, .f32⟩
  | 109 => ⟨S1600000x32, .f32⟩
  | 110 => ⟨S1600000x32, .f32⟩
  | 111 => ⟨S_, .f32⟩
  | 112 => ⟨S100000x32, .f32⟩
  | 113 => ⟨S1600000x1, .i32⟩
  | 114 => ⟨S100000x32, .f32⟩
  | 115 => ⟨S100000x32, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1, .i32⟩
  | 125 => ⟨S_, .i32⟩
  | 126 => ⟨S1600000x1, .i32⟩
  | 127 => ⟨S1600000x1, .i1⟩
  | _ => ⟨S100000x128, .f32⟩

abbrev hbmTy0_1 (i : Nat) : BufTy := match i % 128 with
  | 0 => ⟨S1x1, .i32⟩
  | 1 => ⟨S1600000x1, .i32⟩
  | 2 => ⟨S1600000x1, .i1⟩
  | 3 => ⟨S1600000x1, .i1⟩
  | 4 => ⟨S_, .i1⟩
  | 5 => ⟨S1600000, .i1⟩
  | 6 => ⟨S1600000x32, .f32⟩
  | 7 => ⟨S1600000x32, .i1⟩
  | 8 => ⟨S_, .f32⟩
  | 9 => ⟨S1600000x32, .f32⟩
  | 10 => ⟨S1600000x32, .f32⟩
  | 11 => ⟨S1600000x1, .f32⟩
  | 12 => ⟨S1600000x32, .f32⟩
  | 13 => ⟨S1600000x32, .f32⟩
  | 14 => ⟨S_, .f32⟩
  | 15 => ⟨S100000x32, .f32⟩
  | 16 => ⟨S1600000x1, .i32⟩
  | 17 => ⟨S100000x32, .f32⟩
  | 18 => ⟨S100000x32, .f32⟩
  | 19 => ⟨S_, .f32⟩
  | 20 => ⟨S1000x32, .f32⟩
  | 21 => ⟨S100000x1, .i32⟩
  | 22 => ⟨S1000x32, .f32⟩
  | 23 => ⟨S_, .f32⟩
  | 24 => ⟨S100000, .f32⟩
  | 25 => ⟨S_, .f32⟩
  | 26 => ⟨S1000, .f32⟩
  | 27 => ⟨S100000x1, .i32⟩
  | 28 => ⟨S1000, .f32⟩
  | 29 => ⟨S_, .f32⟩
  | 30 => ⟨S1000, .f32⟩
  | 31 => ⟨S1000, .f32⟩
  | 32 => ⟨S1000x1, .f32⟩
  | 33 => ⟨S1000x32, .f32⟩
  | 34 => ⟨S1000x32, .f32⟩
  | 35 => ⟨S1000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S8x128, .f32⟩
  | .local _ .vmem, ⟨3, _⟩ => ⟨S8, .f32⟩
  | .local _ .vmem, ⟨4, _⟩ => ⟨S10000x8, .f32⟩
  | .local _ .vmem, ⟨5, _⟩ => ⟨S10000x8, .f32⟩
  | .local _ .vmem, ⟨6, _⟩ => ⟨S10000x8, .f32⟩
  | .local _ .vmem, ⟨7, _⟩ => ⟨S10000x8, .f32⟩
  | .local _ .vmem, ⟨8, _⟩ => ⟨S10000x8, .f32⟩
  | .local _ .vmem, ⟨9, _⟩ => ⟨S10000x8, .f32⟩
  | .local _ .vmem, ⟨10, _⟩ => ⟨S32x8, .f32⟩
  | .local _ .vmem, ⟨11, _⟩ => ⟨S32, .f32⟩
  | .local _ .vmem, ⟨12, _⟩ => ⟨S32x8, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S32x32, .f32⟩
  | .local _ .vmem, ⟨20, _⟩ => ⟨S32, .f32⟩
  | .local _ .vmem, ⟨21, _⟩ => ⟨S32x32, .f32⟩
  | .local _ .vmem, ⟨22, _⟩ => ⟨S10000x32, .f32⟩
  | .local _ .vmem, ⟨23, _⟩ => ⟨S10000x32, .f32⟩
  | .local _ .vmem, ⟨24, _⟩ => ⟨S10000x32, .f32⟩
  | .local _ .vmem, ⟨25, _⟩ => ⟨S10000x32, .f32⟩
  | .local _ .vmem, ⟨26, _⟩ => ⟨S10000x32, .f32⟩
  | .local _ .vmem, ⟨27, _⟩ => ⟨S10000x32, .f32⟩
  | .local _ .vmem, ⟨28, _⟩ => ⟨S32x32, .f32⟩
  | .local _ .vmem, ⟨29, _⟩ => ⟨S32, .f32⟩
  | .local _ .vmem, ⟨30, _⟩ => ⟨S32x32, .f32⟩
  | .local _ .vmem, ⟨31, _⟩ => ⟨S10000x32, .f32⟩
  | .local _ .vmem, ⟨32, _⟩ => ⟨S10000x32, .f32⟩
  | .local _ .vmem, ⟨33, _⟩ => ⟨S1000x32, .f32⟩
  | .local _ .vmem, ⟨34, _⟩ => ⟨S16x32, .f32⟩
  | .local _ .vmem, ⟨35, _⟩ => ⟨S16, .f32⟩
  | .local _ .vmem, ⟨36, _⟩ => ⟨S10x16, .f32⟩
  | .local _ .vmem, ⟨37, _⟩ => ⟨S10, .f32⟩
  | .local _ .vmem, ⟨38, _⟩ => ⟨S1000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_v0 : Ref sig .tc := ⟨.hbm, 23, rfl⟩
abbrev main_call0_v1_0 : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_1 : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_3 : Ref sig .tc := ⟨.hbm, 44, rfl⟩
abbrev main_v19 : Ref sig .tc := ⟨.hbm, 45, rfl⟩
abbrev main_v20 : Ref sig .tc := ⟨.hbm, 46, rfl⟩
abbrev main_c_4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_cst : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_call2_c : Ref sig .tc := ⟨.hbm, 85, rfl⟩
abbrev main_call2_v0 : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_c_1 : Ref sig .tc := ⟨.hbm, 93, rfl⟩
abbrev main_call2_c_2 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_3 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_call2_cst : Ref sig .tc := ⟨.hbm, 105, rfl⟩
abbrev main_call2_v15 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_cst_5 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_call3_c : Ref sig .tc := ⟨.hbm, 116, rfl⟩
abbrev main_call3_v0 : Ref sig .tc := ⟨.hbm, 117, rfl⟩
abbrev main_call3_v1 : Ref sig .tc := ⟨.hbm, 118, rfl⟩
abbrev main_call3_c_0 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_c_1 : Ref sig .tc := ⟨.hbm, 124, rfl⟩
abbrev main_call3_c_2 : Ref sig .tc := ⟨.hbm, 125, rfl⟩
abbrev main_call3_v6 : Ref sig .tc := ⟨.hbm, 126, rfl⟩
abbrev main_call3_v7 : Ref sig .tc := ⟨.hbm, 127, rfl⟩
abbrev main_call3_v8 : Ref sig .tc := ⟨.hbm, 128, rfl⟩
abbrev main_call3_v9 : Ref sig .tc := ⟨.hbm, 129, rfl⟩
abbrev main_call3_v10 : Ref sig .tc := ⟨.hbm, 130, rfl⟩
abbrev main_call3_v11 : Ref sig .tc := ⟨.hbm, 131, rfl⟩
abbrev main_call3_c_3 : Ref sig .tc := ⟨.hbm, 132, rfl⟩
abbrev main_call3_v12 : Ref sig .tc := ⟨.hbm, 133, rfl⟩
abbrev main_call3_v13 : Ref sig .tc := ⟨.hbm, 134, rfl⟩
abbrev main_call3_v14 : Ref sig .tc := ⟨.hbm, 135, rfl⟩
abbrev main_call3_cst : Ref sig .tc := ⟨.hbm, 136, rfl⟩
abbrev main_call3_v15 : Ref sig .tc := ⟨.hbm, 137, rfl⟩
abbrev main_v43 : Ref sig .tc := ⟨.hbm, 138, rfl⟩
abbrev main_v44 : Ref sig .tc := ⟨.hbm, 139, rfl⟩
abbrev main_v45 : Ref sig .tc := ⟨.hbm, 140, rfl⟩
abbrev main_v46 : Ref sig .tc := ⟨.hbm, 141, rfl⟩
abbrev main_cst_6 : Ref sig .tc := ⟨.hbm, 142, rfl⟩
abbrev main_v47 : Ref sig .tc := ⟨.hbm, 143, rfl⟩
abbrev main_v48 : Ref sig .tc := ⟨.hbm, 144, rfl⟩
abbrev main_v49 : Ref sig .tc := ⟨.hbm, 145, rfl⟩
abbrev main_v50 : Ref sig .tc := ⟨.hbm, 146, rfl⟩
abbrev main_cst_7 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_cst_8 : Ref sig .tc := ⟨.hbm, 151, rfl⟩
abbrev main_v54 : Ref sig .tc := ⟨.hbm, 152, rfl⟩
abbrev main_cst_9 : Ref sig .tc := ⟨.hbm, 153, rfl⟩
abbrev main_v55 : Ref sig .tc := ⟨.hbm, 154, rfl⟩
abbrev main_v56 : Ref sig .tc := ⟨.hbm, 155, rfl⟩
abbrev main_v57 : Ref sig .tc := ⟨.hbm, 156, rfl⟩
abbrev main_cst_10 : Ref sig .tc := ⟨.hbm, 157, rfl⟩
abbrev main_v58 : Ref sig .tc := ⟨.hbm, 158, rfl⟩
abbrev main_v59 : Ref sig .tc := ⟨.hbm, 159, rfl⟩
abbrev main_v60 : Ref sig .tc := ⟨.hbm, 160, rfl⟩
abbrev main_v61 : Ref sig .tc := ⟨.hbm, 161, rfl⟩
abbrev main_v62 : Ref sig .tc := ⟨.hbm, 162, rfl⟩
abbrev main_v63 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1000x32 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S16x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S10x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1000x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  transposes_S8x128_p1_0_S128x8 : S8x128.Transposes [1, 0] S128x8
  inb_S8_S8_0 : ∀ a, (![0] : Fin 1 → Nat) a + S8.size a ≤ S8.size a
  h_S8 : 0 < S8.numel
  shapeCasts_S8_S1x8 : S8.ShapeCasts S1x8
  broadcasts_S1x8_S10000x8 : S1x8.Broadcasts S10000x8
  inb_S10000x8_S10000x8_0_0 : ∀ a, (![0, 0] : Fin 2 → Nat) a + S10000x8.size a ≤ S10000x8.size a
  h_S10000x8 : 0 < S10000x8.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x8_0 : S1600000.BroadcastsInDim S1600000x8 (![0] : Fin 1 → Fin S1600000x8.rank)
  bcast_S_S1600000x8 : S_.BroadcastsInDim S1600000x8 (![] : Fin 0 → Fin S1600000x8.rank)
  bcast_S1600000x1_S1600000x8_0_1 : S1600000x1.BroadcastsInDim S1600000x8 (![0, 1] : Fin 2 → Fin S1600000x8.rank)
  bcast_S_S100000x8 : S_.BroadcastsInDim S100000x8 (![] : Fin 0 → Fin S100000x8.rank)
  shapeCasts_S10000x8_S10000x8 : S10000x8.ShapeCasts S10000x8
  inb_S32x8_S32x8_0_0 : ∀ a, (![0, 0] : Fin 2 → Nat) a + S32x8.size a ≤ S32x8.size a
  h_S32x8 : 0 < S32x8.numel
  transposes_S32x8_p1_0_S8x32 : S32x8.Transposes [1, 0] S8x32
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  bcast_S_S1000x32 : S_.BroadcastsInDim S1000x32 (![] : Fin 0 → Fin S1000x32.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x32_0_1 : S1000x1.BroadcastsInDim S1000x32 (![0, 1] : Fin 2 → Fin S1000x32.rank)
  inb_S1000x32_S1000x32_0_0 : ∀ a, (![0, 0] : Fin 2 → Nat) a + S1000x32.size a ≤ S1000x32.size a
  h_S1000x32 : 0 < S1000x32.numel
  shapeCasts_S1000x32_S1000x32 : S1000x32.ShapeCasts S1000x32
  inb_S16x32_S16x32_0_0 : ∀ a, (![0, 0] : Fin 2 → Nat) a + S16x32.size a ≤ S16x32.size a
  h_S16x32 : 0 < S16x32.numel
  transposes_S16x32_p1_0_S32x16 : S16x32.Transposes [1, 0] S32x16
  inb_S16_S16_0 : ∀ a, (![0] : Fin 1 → Nat) a + S16.size a ≤ S16.size a
  h_S16 : 0 < S16.numel
  shapeCasts_S16_S1x16 : S16.ShapeCasts S1x16
  broadcasts_S1x16_S1000x16 : S1x16.Broadcasts S1000x16
  inb_S10x16_S10x16_0_0 : ∀ a, (![0, 0] : Fin 2 → Nat) a + S10x16.size a ≤ S10x16.size a
  h_S10x16 : 0 < S10x16.numel
  transposes_S10x16_p1_0_S16x10 : S10x16.Transposes [1, 0] S16x10
  inb_S10_S10_0 : ∀ a, (![0] : Fin 1 → Nat) a + S10.size a ≤ S10.size a
  h_S10 : 0 < S10.numel
  shapeCasts_S10_S1x10 : S10.ShapeCasts S1x10
  broadcasts_S1x10_S1000x10 : S1x10.Broadcasts S1000x10
  inb_S1000x10_S1000x10_0_0 : ∀ a, (![0, 0] : Fin 2 → Nat) a + S1000x10.size a ≤ S1000x10.size a
  h_S1000x10 : 0 < S1000x10.numel
  gather_S1600000_S1600000x1_S1600000_n_0_n_n_0_1_1_wf : GatherDims.WF S1600000 S1600000x1 S1600000 [] [0] [] [0] [] 1 ![1]
  dot_S10000x128_S128x8_S10000x8_1_0_0_1_n_n_wf : DotDims.WF S10000x128 S128x8 S10000x8 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  dot_S10000x8_S8x32_S10000x32_1_0_0_1_n_n_wf : DotDims.WF S10000x8 S8x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x32_S10000x32_1_0_0_1_n_n_wf : DotDims.WF S10000x32 S32x32 S10000x32 [1] [0] [0] [1] [] []
  scatter_S1000x32_S100000x1_S100000x32_1_0_0_1_wf : ScatterDims.WF S1000x32 S100000x1 S100000x32 [1] [0] [0] 1
  scatter_S1000_S100000x1_S100000_n_0_0_1_wf : ScatterDims.WF S1000 S100000x1 S100000 [] [0] [0] 1
  dot_S1000x32_S32x16_S1000x16_1_0_0_1_n_n_wf : DotDims.WF S1000x32 S32x16 S1000x16 [1] [0] [0] [1] [] []
  dot_S1000x16_S16x10_S1000x10_1_0_0_1_n_n_wf : DotDims.WF S1000x16 S16x10 S1000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x8.size a ≤ S100000x8.size a
  hwx0_3 : ∀ i : grid0.Coords, EltTy.bits .f32 = 32 ∨ (Rect.block (s := S100000x8) S10000x8.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x8.size a ≤ S100000x8.size a
  hwx1_0 : ∀ i : grid1.Coords, EltTy.bits .f32 = 32 ∨ (Rect.block (s := S100000x8) S10000x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x8.size a ≤ S100000x8.size a
  hwx1_1 : ∀ i : grid1.Coords, EltTy.bits .f32 = 32 ∨ (Rect.block (s := S100000x8) S10000x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x8.size a ≤ S32x8.size a
  hwx1_2 : ∀ i : grid1.Coords, EltTy.bits .f32 = 32 ∨ (Rect.block (s := S32x8) S32x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x8.size a ≤ S32x8.size a
  hwx1_4 : ∀ i : grid1.Coords, EltTy.bits .f32 = 32 ∨ (Rect.block (s := S32x8) S32x8.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S100000x32.size a
  hwx2_1 : ∀ i : grid2.Coords, EltTy.bits .f32 = 32 ∨ (Rect.block (s := S100000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32.size a ≤ S32.size a
  hwx2_3 : ∀ i : grid2.Coords, EltTy.bits .f32 = 32 ∨ (Rect.block (s := S32) S32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x32.size a ≤ S100000x32.size a
  hwx2_5 : ∀ i : grid2.Coords, EltTy.bits .f32 = 32 ∨ (Rect.block (s := S100000x32) S10000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S100000x32.size a
  hwx3_1 : ∀ i : grid3.Coords, EltTy.bits .f32 = 32 ∨ (Rect.block (s := S100000x32) S10000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x32.size a ≤ S32x32.size a
  hwx3_2 : ∀ i : grid3.Coords, EltTy.bits .f32 = 32 ∨ (Rect.block (s := S32x32) S32x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32.size a ≤ S32.size a
  hwx3_3 : ∀ i : grid3.Coords, EltTy.bits .f32 = 32 ∨ (Rect.block (s := S32) S32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x32.size a ≤ S32x32.size a
  hwx3_4 : ∀ i : grid3.Coords, EltTy.bits .f32 = 32 ∨ (Rect.block (s := S32x32) S32x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x32.size a ≤ S100000x32.size a
  hwx3_5 : ∀ i : grid3.Coords, EltTy.bits .f32 = 32 ∨ (Rect.block (s := S100000x32) S10000x32.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1000x32.size a ≤ S1000x32.size a
  hwx4_0 : ∀ i : grid4.Coords, EltTy.bits .f32 = 32 ∨ (Rect.block (s := S1000x32) S1000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x32.size a ≤ S16x32.size a
  hwx4_1 : ∀ i : grid4.Coords, EltTy.bits .f32 = 32 ∨ (Rect.block (s := S16x32) S16x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16.size a ≤ S16.size a
  hwx4_2 : ∀ i : grid4.Coords, EltTy.bits .f32 = 32 ∨ (Rect.block (s := S16) S16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S10x16.size a ≤ S10x16.size a
  hwx4_3 : ∀ i : grid4.Coords, EltTy.bits .f32 = 32 ∨ (Rect.block (s := S10x16) S10x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S10.size a ≤ S10.size a
  hwx4_4 : ∀ i : grid4.Coords, EltTy.bits .f32 = 32 ∨ (Rect.block (s := S10) S10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1000x10.size a ≤ S1000x10.size a
  hwx4_5 : ∀ i : grid4.Coords, EltTy.bits .f32 = 32 ∨ (Rect.block (s := S1000x10) S1000x10.size (cc4_transform_5 i) (hinb4_5 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S1600000_S1600000x1_S1600000_n_0_n_n_0_1_1 : GatherDims S1600000 S1600000x1 S1600000 where
  offsetDims := []
  collapsedSliceDims := [0]
  operandBatchingDims := []
  startIndicesBatchingDims := []
  startIndexMap := [0]
  indexVectorDim := 1
  sliceSizes := ![1]
  wf := gather_S1600000_S1600000x1_S1600000_n_0_n_n_0_1_1_wf
def dot_S10000x128_S128x8_S10000x8_1_0_0_1_n_n : DotDims S10000x128 S128x8 S10000x8 where
  lhsContracting := [1]
  rhsContracting := [0]
  lhsNonContracting := [0]
  rhsNonContracting := [1]
  lhsBatch := []
  rhsBatch := []
  wf := dot_S10000x128_S128x8_S10000x8_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def dot_S10000x8_S8x32_S10000x32_1_0_0_1_n_n : DotDims S10000x8 S8x32 S10000x32 where
  lhsContracting := [1]
  rhsContracting := [0]
  lhsNonContracting := [0]
  rhsNonContracting := [1]
  lhsBatch := []
  rhsBatch := []
  wf := dot_S10000x8_S8x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def scatter_S1000x32_S100000x1_S100000x32_1_0_0_1 : ScatterDims S1000x32 S100000x1 S100000x32 where
  updateWindowDims := [1]
  insertedWindowDims := [0]
  scatterDimsToOperandDims := [0]
  indexVectorDim := 1
  wf := scatter_S1000x32_S100000x1_S100000x32_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x32_S32x16_S1000x16_1_0_0_1_n_n : DotDims S1000x32 S32x16 S1000x16 where
  lhsContracting := [1]
  rhsContracting := [0]
  lhsNonContracting := [0]
  rhsNonContracting := [1]
  lhsBatch := []
  rhsBatch := []
  wf := dot_S1000x32_S32x16_S1000x16_1_0_0_1_n_n_wf
def dot_S1000x16_S16x10_S1000x10_1_0_0_1_n_n : DotDims S1000x16 S16x10 S1000x10 where
  lhsContracting := [1]
  rhsContracting := [0]
  lhsNonContracting := [0]
  rhsNonContracting := [1]
  lhsBatch := []
  rhsBatch := []
  wf := dot_S1000x16_S16x10_S1000x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S10000x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S10000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S32x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S10000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v49) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S32x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S32x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S10000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v62) S1000x32.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S16x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg16) S16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg17) S10x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg18) S10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v63) S1000x10.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S8x128 : Shape := ⟨2, ![8, 128]⟩
abbrev S8 : Shape := ⟨1, ![8]⟩
abbrev S32x8 : Shape := ⟨2, ![32, 8]⟩
abbrev S32 : Shape := ⟨1, ![32]⟩
abbrev S32x32 : Shape := ⟨2, ![32, 32]⟩
abbrev S16x32 : Shape := ⟨2, ![16, 32]⟩
abbrev S16 : Shape := ⟨1, ![16]⟩
abbrev S10x16 : Shape := ⟨2, ![10, 16]⟩
abbrev S10 : Shape := ⟨1, ![10]⟩
abbrev S1x1600000 : Shape := ⟨2, ![1, 1600000]⟩
abbrev S128x8 : Shape := ⟨2, ![128, 8]⟩
abbrev S100000x8 : Shape := ⟨2, ![100000, 8]⟩
abbrev S1x8 : Shape := ⟨2, ![1, 8]⟩
abbrev S_ : Shape := ⟨0, ![]⟩
abbrev S1600000x1 : Shape := ⟨2, ![1600000, 1]⟩
abbrev S1600000x8 : Shape := ⟨2, ![1600000, 8]⟩
abbrev S8x32 : Shape := ⟨2, ![8, 32]⟩
abbrev S100000x32 : Shape := ⟨2, ![100000, 32]⟩
abbrev S1x32 : Shape := ⟨2, ![1, 32]⟩
abbrev S1600000x32 : Shape := ⟨2, ![1600000, 32]⟩
abbrev S1000x32 : Shape := ⟨2, ![1000, 32]⟩
abbrev S100000x1 : Shape := ⟨2, ![100000, 1]⟩
abbrev S1000 : Shape := ⟨1, ![1000]⟩
abbrev S1000x1 : Shape := ⟨2, ![1000, 1]⟩
abbrev S32x16 : Shape := ⟨2, ![32, 16]⟩
abbrev S1000x16 : Shape := ⟨2, ![1000, 16]⟩
abbrev S1x16 : Shape := ⟨2, ![1, 16]⟩
abbrev S16x10 : Shape := ⟨2, ![16, 10]⟩
abbrev S1000x10 : Shape := ⟨2, ![1000, 10]⟩
abbrev S1x10 : Shape := ⟨2, ![1, 10]⟩

abbrev nBuf : Space → Nat
  | .hbm => 138
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S8x128, .f32⟩
  | 5 => ⟨S8, .f32⟩
  | 6 => ⟨S32x8, .f32⟩
  | 7 => ⟨S32, .f32⟩
  | 8 => ⟨S32x8, .f32⟩
  | 9 => ⟨S32x32, .f32⟩
  | 10 => ⟨S32, .f32⟩
  | 11 => ⟨S32x32, .f32⟩
  | 12 => ⟨S32x32, .f32⟩
  | 13 => ⟨S32, .f32⟩
  | 14 => ⟨S32x32, .f32⟩
  | 15 => ⟨S16x32, .f32⟩
  | 16 => ⟨S16, .f32⟩
  | 17 => ⟨S10x16, .f32⟩
  | 18 => ⟨S10, .f32⟩
  | 19 => ⟨S1x1600000, .i32⟩
  | 20 => ⟨S1600000, .i32⟩
  | 21 => ⟨S1x1600000, .i32⟩
  | 22 => ⟨S1600000, .i32⟩
  | 23 => ⟨S128x8, .f32⟩
  | 24 => ⟨S100000x8, .f32⟩
  | 25 => ⟨S1x8, .f32⟩
  | 26 => ⟨S100000x8, .f32⟩
  | 27 => ⟨S100000x8, .f32⟩
  | 28 => ⟨S_, .f32⟩
  | 29 => ⟨S100000x8, .f32⟩
  | 30 => ⟨S100000x8, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x8, .f32⟩
  | 40 => ⟨S1600000x1, .f32⟩
  | 41 => ⟨S1600000x8, .f32⟩
  | 42 => ⟨S1600000x8, .f32⟩
  | 43 => ⟨S_, .f32⟩
  | 44 => ⟨S100000x8, .f32⟩
  | 45 => ⟨S1600000x1, .i32⟩
  | 46 => ⟨S100000x8, .f32⟩
  | 47 => ⟨S8x32, .f32⟩
  | 48 => ⟨S100000x32, .f32⟩
  | 49 => ⟨S1x32, .f32⟩
  | 50 => ⟨S100000x32, .f32⟩
  | 51 => ⟨S100000x32, .f32⟩
  | 52 => ⟨S8x32, .f32⟩
  | 53 => ⟨S100000x32, .f32⟩
  | 54 => ⟨S100000x32, .f32⟩
  | 55 => ⟨S_, .f32⟩
  | 56 => ⟨S100000x32, .f32⟩
  | 57 => ⟨S100000x32, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x32, .f32⟩
  | 67 => ⟨S1600000x1, .f32⟩
  | 68 => ⟨S1600000x32, .f32⟩
  | 69 => ⟨S1600000x32, .f32⟩
  | 70 => ⟨S_, .f32⟩
  | 71 => ⟨S100000x32, .f32⟩
  | 72 => ⟨S1600000x1, .i32⟩
  | 73 => ⟨S100000x32, .f32⟩
  | 74 => ⟨S32x32, .f32⟩
  | 75 => ⟨S100000x32, .f32⟩
  | 76 => ⟨S1x32, .f32⟩
  | 77 => ⟨S100000x32, .f32⟩
  | 78 => ⟨S100000x32, .f32⟩
  | 79 => ⟨S32x32, .f32⟩
  | 80 => ⟨S100000x32, .f32⟩
  | 81 => ⟨S100000x32, .f32⟩
  | 82 => ⟨S_, .f32⟩
  | 83 => ⟨S100000x32, .f32⟩
  | 84 => ⟨S100000x32, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x32, .f32⟩
  | 94 => ⟨S1600000x1, .f32⟩
  | 95 => ⟨S1600000x32, .f32⟩
  | 96 => ⟨S1600000x32, .f32⟩
  | 97 => ⟨S_, .f32⟩
  | 98 => ⟨S100000x32, .f32⟩
  | 99 => ⟨S1600000x1, .i32⟩
  | 100 => ⟨S100000x32, .f32⟩
  | 101 => ⟨S32x32, .f32⟩
  | 102 => ⟨S100000x32, .f32⟩
  | 103 => ⟨S1x32, .f32⟩
  | 104 => ⟨S100000x32, .f32⟩
  | 105 => ⟨S100000x32, .f32⟩
  | 106 => ⟨S32x32, .f32⟩
  | 107 => ⟨S100000x32, .f32⟩
  | 108 => ⟨S100000x32, .f32⟩
  | 109 => ⟨S_, .f32⟩
  | 110 => ⟨S1000x32, .f32⟩
  | 111 => ⟨S100000x1, .i32⟩
  | 112 => ⟨S1000x32, .f32⟩
  | 113 => ⟨S_, .f32⟩
  | 114 => ⟨S100000, .f32⟩
  | 115 => ⟨S_, .f32⟩
  | 116 => ⟨S1000, .f32⟩
  | 117 => ⟨S100000x1, .i32⟩
  | 118 => ⟨S1000, .f32⟩
  | 119 => ⟨S_, .f32⟩
  | 120 => ⟨S1000, .f32⟩
  | 121 => ⟨S1000, .f32⟩
  | 122 => ⟨S1000x1, .f32⟩
  | 123 => ⟨S1000x32, .f32⟩
  | 124 => ⟨S1000x32, .f32⟩
  | 125 => ⟨S32x16, .f32⟩
  | 126 => ⟨S1000x16, .f32⟩
  | 127 => ⟨S1x16, .f32⟩
  | _ => ⟨S100000x128, .f32⟩

abbrev hbmTy0_1 (i : Nat) : BufTy := match i % 128 with
  | 0 => ⟨S1000x16, .f32⟩
  | 1 => ⟨S1000x16, .f32⟩
  | 2 => ⟨S_, .f32⟩
  | 3 => ⟨S1000x16, .f32⟩
  | 4 => ⟨S1000x16, .f32⟩
  | 5 => ⟨S16x10, .f32⟩
  | 6 => ⟨S1000x10, .f32⟩
  | 7 => ⟨S1x10, .f32⟩
  | 8 => ⟨S1000x10, .f32⟩
  | 9 => ⟨S1000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call0_cst : Ref sig .tc := ⟨.hbm, 28, rfl⟩
abbrev main_call0_v0 : Ref sig .tc := ⟨.hbm, 29, rfl⟩
abbrev main_v9 : Ref sig .tc := ⟨.hbm, 30, rfl⟩
abbrev main_c : Ref sig .tc := ⟨.hbm, 31, rfl⟩
abbrev main_v10 : Ref sig .tc := ⟨.hbm, 32, rfl⟩
abbrev main_v11 : Ref sig .tc := ⟨.hbm, 33, rfl⟩
abbrev main_c_0 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_cst : Ref sig .tc := ⟨.hbm, 55, rfl⟩
abbrev main_call1_v0 : Ref sig .tc := ⟨.hbm, 56, rfl⟩
abbrev main_v31 : Ref sig .tc := ⟨.hbm, 57, rfl⟩
abbrev main_c_1 : Ref sig .tc := ⟨.hbm, 58, rfl⟩
abbrev main_v32 : Ref sig .tc := ⟨.hbm, 59, rfl⟩
abbrev main_v33 : Ref sig .tc := ⟨.hbm, 60, rfl⟩
abbrev main_c_2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_3 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call2_cst : Ref sig .tc := ⟨.hbm, 82, rfl⟩
abbrev main_call2_v0 : Ref sig .tc := ⟨.hbm, 83, rfl⟩
abbrev main_v53 : Ref sig .tc := ⟨.hbm, 84, rfl⟩
abbrev main_c_4 : Ref sig .tc := ⟨.hbm, 85, rfl⟩
abbrev main_v54 : Ref sig .tc := ⟨.hbm, 86, rfl⟩
abbrev main_v55 : Ref sig .tc := ⟨.hbm, 87, rfl⟩
abbrev main_c_5 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_6 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_7 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_8 : Ref sig .tc := ⟨.hbm, 113, rfl⟩
abbrev main_v78 : Ref sig .tc := ⟨.hbm, 114, rfl⟩
abbrev main_cst_9 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_10 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_call3_cst : Ref sig .tc := ⟨.hbm, 130, rfl⟩
abbrev main_call3_v0 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S8x128_S128x8_1_0 : S8x128.Transposes [1, 0] S128x8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S100000x8 : S_.BroadcastsInDim S100000x8 (![] : Fin 0 → Fin S100000x8.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x8_0_1 : S1600000x1.BroadcastsInDim S1600000x8 (![0, 1] : Fin 2 → Fin S1600000x8.rank)
  transposes_S32x8_S8x32_1_0 : S32x8.Transposes [1, 0] S8x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1600000x1_S1600000x32_0_1 : S1600000x1.BroadcastsInDim S1600000x32 (![0, 1] : Fin 2 → Fin S1600000x32.rank)
  transposes_S32x32_S32x32_1_0 : S32x32.Transposes [1, 0] S32x32
  bcast_S_S1000x32 : S_.BroadcastsInDim S1000x32 (![] : Fin 0 → Fin S1000x32.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x32_0_1 : S1000x1.BroadcastsInDim S1000x32 (![0, 1] : Fin 2 → Fin S1000x32.rank)
  transposes_S16x32_S32x16_1_0 : S16x32.Transposes [1, 0] S32x16
  bcast_S16_S1x16_1 : S16.BroadcastsInDim S1x16 (![1] : Fin 1 → Fin S1x16.rank)
  bcast_S1x16_S1000x16_0_1 : S1x16.BroadcastsInDim S1000x16 (![0, 1] : Fin 2 → Fin S1000x16.rank)
  bcast_S_S1000x16 : S_.BroadcastsInDim S1000x16 (![] : Fin 0 → Fin S1000x16.rank)
  transposes_S10x16_S16x10_1_0 : S10x16.Transposes [1, 0] S16x10
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  dot_S100000x128_S128x8_S100000x8_1_0_0_1_n_n_wf : DotDims.WF S100000x128 S128x8 S100000x8 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  dot_S100000x8_S8x32_S100000x32_1_0_0_1_n_n_wf : DotDims.WF S100000x8 S8x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  scatter_S1000x32_S100000x1_S100000x32_1_0_0_1_wf : ScatterDims.WF S1000x32 S100000x1 S100000x32 [1] [0] [0] 1
  scatter_S1000_S100000x1_S100000_n_0_0_1_wf : ScatterDims.WF S1000 S100000x1 S100000 [] [0] [0] 1
  dot_S1000x32_S32x16_S1000x16_1_0_0_1_n_n_wf : DotDims.WF S1000x32 S32x16 S1000x16 [1] [0] [0] [1] [] []
  dot_S1000x16_S16x10_S1000x10_1_0_0_1_n_n_wf : DotDims.WF S1000x16 S16x10 S1000x10 [1] [0] [0] [1] [] []

variable [Facts₀]

def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def dot_S100000x8_S8x32_S100000x32_1_0_0_1_n_n : DotDims S100000x8 S8x32 S100000x32 where
  lhsContracting := [1]
  rhsContracting := [0]
  lhsNonContracting := [0]
  rhsNonContracting := [1]
  lhsBatch := []
  rhsBatch := []
  wf := dot_S100000x8_S8x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S1000x32_S100000x1_S100000x32_1_0_0_1 : ScatterDims S1000x32 S100000x1 S100000x32 where
  updateWindowDims := [1]
  insertedWindowDims := [0]
  scatterDimsToOperandDims := [0]
  indexVectorDim := 1
  wf := scatter_S1000x32_S100000x1_S100000x32_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x32_S32x16_S1000x16_1_0_0_1_n_n : DotDims S1000x32 S32x16 S1000x16 where
  lhsContracting := [1]
  rhsContracting := [0]
  lhsNonContracting := [0]
  rhsNonContracting := [1]
  lhsBatch := []
  rhsBatch := []
  wf := dot_S1000x32_S32x16_S1000x16_1_0_0_1_n_n_wf
def dot_S1000x16_S16x10_S1000x10_1_0_0_1_n_n : DotDims S1000x16 S16x10 S1000x10 where
  lhsContracting := [1]
  rhsContracting := [0]
  lhsNonContracting := [0]
  rhsNonContracting := [1]
  lhsBatch := []
  rhsBatch := []
  wf := dot_S1000x16_S16x10_S1000x10_1_0_0_1_n_n_wf

class Facts : Prop extends Facts₀ where

variable [Facts]
-- ==== Proof.KTerms.lean ====
/-
  What the kernel's host code computes around its five pallas_calls, as whole-array functions.
  The kernel first sorts the edges by target node: `order d` is the stable sorting permutation of the target list `d`
  (position k holds the index of the edge that comes k-th), and `permI x o`, `permF x o` read a list of edge data in that
  order (`x[o]`). A row gather `take h s` reads row `s e` of `h` for every edge `e` (a negative `i` standing for `i + 100000`) and
  fills the row with a fixed pattern where the index falls outside the table. `kagg` is the neighbourhood sum over the re-ordered
  edges: gather, scale by the edge weight, scatter-add onto the target rows.
-/
import proofs.«406287_j15865609192043_3_alg».proof.KernelIdeal

noncomputable section

namespace Cert.KTerms

open Idealize.ShloMosaic Cert.KernelIdeal Cert.KernelIdeal.Facts₀ Cert.KernelIdeal.Facts

variable [Cert.KernelIdeal.Facts] {F : FTy → Type} [FloatOps F]

/-- The source node of every edge: row 0 of the edge list. -/
def src (ei : IVec S2x1600000 32) : IVec S1600000 32 :=
  shapeCast S1600000 (extractStridedSlice S1x1600000 ![0, 0] ei slices_S2x1600000_S1x1600000_0_0) shapeCasts_S1x1600000_S1600000

/-- The target node of every edge: row 1 of the edge list. -/
def dst (ei : IVec S2x1600000 32) : IVec S1600000 32 :=
  shapeCast S1600000 (extractStridedSlice S1x1600000 ![1, 0] ei slices_S2x1600000_S1x1600000_1_0) shapeCasts_S1x1600000_S1600000

/-- The stable argsort of `d`: entry `k` is the position of the element that sorts to place `k`. -/
def order (d : IVec S1600000 32) : IVec S1600000 32 :=
  (Host.sort2 S1600000 0 comparator_i32_i32_d0 d (iotaInDim S1600000 32 0)).2

/-- A list of positions as a column of start indices, a negative entry `i` standing for `i + 1600000`. -/
def wrapE (o : IVec S1600000 32) : IVec S1600000x1 32 :=
  broadcastInDim S1600000x1 ![0] bcast_S1600000_S1600000x1_0
    (select (cmpi .slt o (broadcastInDim S1600000 ![] bcast_S_S1600000 (constantI S_ 32 0#32)))
      (addi o (broadcastInDim S1600000 ![] bcast_S_S1600000 (constantI S_ 32 1600000#32))) o)

/-- An integer edge list read in the order `o`. -/
def permI (x : IVec S1600000 32) (o : IVec S1600000 32) : IVec S1600000 32 :=
  Host.gather gather_S1600000_S1600000x1_S1600000_n_0_n_n_0_1_1 x (wrapE o)

/-- A float edge list read in the order `o`. -/
def permF (x : FVec F S1600000 .f32) (o : IVec S1600000 32) : FVec F S1600000 .f32 :=
  Host.gather gather_S1600000_S1600000x1_S1600000_n_0_n_n_0_1_1 x (wrapE o)

/-- A list of node numbers as a column of row numbers, a negative entry `i` standing for `i + 100000`. -/
def wrapN (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Per edge: is the row number inside the table, `0 ≤ i ≤ 99999`? -/
def inRange (i : IVec S1600000x1 32) : IVec S1600000 1 :=
  Host.reduce IntOp.andi
    (andi (cmpi .sge i (broadcastInDim S1600000x1 ![] bcast_S_S1600000x1 (constantI S_ 32 0#32)))
      (cmpi .sle i (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_

/-- Row gather of an 8-channel table: row `s e` for edge `e`, the fill pattern where the index is outside the table. -/
def take8 (h : FVec F S100000x8 .f32) (s : IVec S1600000 32) : FVec F S1600000x8 .f32 :=
  select (broadcastInDim S1600000x8 ![0] bcast_S1600000_S1600000x8_0 (inRange (wrapN s)))
    (Host.gather gather_S100000x8_S1600000x1_S1600000x8_1_0_n_n_0_1_18 h (wrapN s))
    (broadcastInDim S1600000x8 ![] bcast_S_S1600000x8 (constant S_ .f32 0x7FC00000#32))

/-- Row gather of a 32-channel table. -/
def take32 (h : FVec F S100000x32 .f32) (s : IVec S1600000 32) : FVec F S1600000x32 .f32 :=
  select (broadcastInDim S1600000x32 ![0] bcast_S1600000_S1600000x32_0 (inRange (wrapN s)))
    (Host.gather gather_S100000x32_S1600000x1_S1600000x32_1_0_n_n_0_1_132 h (wrapN s))
    (broadcastInDim S1600000x32 ![] bcast_S_S1600000x32 (constant S_ .f32 0x7FC00000#32))

/-- Neighbourhood sums of 8-channel features over edge lists `s`, `d`, `ew` (in whatever order they come). -/
def kagg8 (h : FVec F S100000x8 .f32) (s d : IVec S1600000 32) (ew : FVec F S1600000 .f32) : FVec F S100000x8 .f32 :=
  Host.scatterAdd scatter_S100000x8_S1600000x1_S1600000x8_1_0_0_1
    (broadcastInDim S100000x8 ![] bcast_S_S100000x8 (constant S_ .f32 0x00000000#32))
    (broadcastInDim S1600000x1 ![0] bcast_S1600000_S1600000x1_0 d)
    (mulf (take8 h s)
      (broadcastInDim S1600000x8 ![0, 1] bcast_S1600000x1_S1600000x8_0_1 (broadcastInDim S1600000x1 ![0] bcast_S1600000_S1600000x1_0 ew)))

/-- The same over 32-channel features. -/
def kagg32 (h : FVec F S100000x32 .f32) (s d : IVec S1600000 32) (ew : FVec F S1600000 .f32) : FVec F S100000x32 .f32 :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 d)
    (mulf (take32 h s)
      (broadcastInDim S1600000x32 ![0, 1] bcast_S1600000x1_S1600000x32_0_1 (broadcastInDim S1600000x1 ![0] bcast_S1600000_S1600000x1_0 ew)))

/-- Mean of the node rows over each graph: the per-graph sum divided by `max (node count, 1)`. -/
def kpool (h : FVec F S100000x32 .f32) (batch : IVec S100000 32) : FVec F S1000x32 .f32 :=
  Host.divf
    (Host.scatterAdd scatter_S1000x32_S100000x1_S100000x32_1_0_0_1 (broadcastInDim S1000x32 ![] bcast_S_S1000x32 (constant S_ .f32 0x00000000#32))
      (broadcastInDim S100000x1 ![0] bcast_S100000_S100000x1_0 batch) h)
    (broadcastInDim S1000x32 ![0, 1] bcast_S1000x1_S1000x32_0_1 (broadcastInDim S1000x1 ![0] bcast_S1000_S1000x1_0
      (maximumf
        (Host.scatterAdd scatter_S1000_S100000x1_S100000_n_0_0_1 (broadcastInDim S1000 ![] bcast_S_S1000 (constant S_ .f32 0x00000000#32))
          (broadcastInDim S100000x1 ![0] bcast_S100000_S100000x1_0 batch) (broadcastInDim S100000 ![] bcast_S_S100000 (constant S_ .f32 0x3F800000#32)))
        (broadcastInDim S1000 ![] bcast_S_S1000 (constant S_ .f32 0x3F800000#32)))))

end Cert.KTerms

end
-- ==== Proof.Layers.lean ====
/-
  The network, layer by layer, as whole-array functions: the terms the reference applies, cut at the layer
  boundaries. A graph-convolution stack on N = 100000 nodes and E = 1600000 weighted edges:
    h1 = relu (x · W_lin1ᵀ + b_lin1)                                   (N × 8)
    h(k+1) = [relu] (agg(hk) · W_relᵀ + b_rel + hk · W_rootᵀ)           (N × 32), relu after layers 1 and 2 only,
  where agg(h)[n] = Σ over the edges e with dst e = n of  w e · h[src e]  (a gather, a scaling, a scatter-add),
  then the mean of the rows of h4 over each graph of the batch (sum / max(count, 1)) and a two-layer head.
  `net` composes them; the reference's result is `net` of its arguments.
-/
import proofs.«406287_j15865609192043_3_alg».proof.ReferenceIdeal

noncomputable section

namespace Cert.Layers

open Idealize.ShloMosaic Cert.ReferenceIdeal Cert.ReferenceIdeal.Facts₀ Cert.ReferenceIdeal.Facts

variable [Cert.ReferenceIdeal.Facts] {F : FTy → Type} [FloatOps F]

/-- The source node of every edge: row 0 of the edge list. -/
def src (ei : IVec S2x1600000 32) : IVec S1600000 32 :=
  shapeCast S1600000 (extractStridedSlice S1x1600000 ![0, 0] ei slices_S2x1600000_S1x1600000_0_0) shapeCasts_S1x1600000_S1600000

/-- The target node of every edge: row 1 of the edge list. -/
def dst (ei : IVec S2x1600000 32) : IVec S1600000 32 :=
  shapeCast S1600000 (extractStridedSlice S1x1600000 ![1, 0] ei slices_S2x1600000_S1x1600000_1_0) shapeCasts_S1x1600000_S1600000

/-- An index list as a column of row numbers, a negative entry `i` standing for `i + 100000`. -/
def wrap (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The input layer: `relu (x · Wᵀ + b)`. -/
def lin1 (x : FVec F S100000x128 .f32) (W : FVec F S8x128 .f32) (b : FVec F S8 .f32) : FVec F S100000x8 .f32 :=
  maximumf (addf (Host.dotGeneral dot_S100000x128_S128x8_S100000x8_1_0_0_1_n_n none x (transpose S128x8 [1, 0] W transposes_S8x128_S128x8_1_0))
      (broadcastInDim S100000x8 ![0, 1] bcast_S1x8_S100000x8_0_1 (broadcastInDim S1x8 ![1] bcast_S8_S1x8_1 b)))
    (broadcastInDim S100000x8 ![] bcast_S_S100000x8 (constant S_ .f32 0x00000000#32))

/-- Neighbourhood sums of 8-channel features: row `n` is the sum over the edges into `n` of weight times source row. -/
def agg8 (h : FVec F S100000x8 .f32) (s d : IVec S1600000 32) (ew : FVec F S1600000 .f32) : FVec F S100000x8 .f32 :=
  Host.scatterAdd scatter_S100000x8_S1600000x1_S1600000x8_1_0_0_1
    (broadcastInDim S100000x8 ![] bcast_S_S100000x8 (constant S_ .f32 0x00000000#32))
    (broadcastInDim S1600000x1 ![0] bcast_S1600000_S1600000x1_0 d)
    (mulf (Host.gather gather_S100000x8_S1600000x1_S1600000x8_1_0_n_n_0_1_18 h (wrap s))
      (broadcastInDim S1600000x8 ![0, 1] bcast_S1600000x1_S1600000x8_0_1 (broadcastInDim S1600000x1 ![0] bcast_S1600000_S1600000x1_0 ew)))

/-- The same over 32-channel features. -/
def agg32 (h : FVec F S100000x32 .f32) (s d : IVec S1600000 32) (ew : FVec F S1600000 .f32) : FVec F S100000x32 .f32 :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 d)
    (mulf (Host.gather gather_S100000x32_S1600000x1_S1600000x32_1_0_n_n_0_1_132 h (wrap s))
      (broadcastInDim S1600000x32 ![0, 1] bcast_S1600000x1_S1600000x32_0_1 (broadcastInDim S1600000x1 ![0] bcast_S1600000_S1600000x1_0 ew)))

/-- Graph convolution 8 → 32 with relu: `relu (a · W_relᵀ + b + h · W_rootᵀ)`. -/
def conv1 (a h : FVec F S100000x8 .f32) (Wrel : FVec F S32x8 .f32) (b : FVec F S32 .f32) (Wroot : FVec F S32x8 .f32) : FVec F S100000x32 .f32 :=
  maximumf (addf (addf (Host.dotGeneral dot_S100000x8_S8x32_S100000x32_1_0_0_1_n_n none a (transpose S8x32 [1, 0] Wrel transposes_S32x8_S8x32_1_0))
        (broadcastInDim S100000x32 ![0, 1] bcast_S1x32_S100000x32_0_1 (broadcastInDim S1x32 ![1] bcast_S32_S1x32_1 b)))
      (Host.dotGeneral dot_S100000x8_S8x32_S100000x32_1_0_0_1_n_n none h (transpose S8x32 [1, 0] Wroot transposes_S32x8_S8x32_1_0)))
    (broadcastInDim S100000x32 ![] bcast_S_S100000x32 (constant S_ .f32 0x00000000#32))

/-- Graph convolution 32 → 32 without activation: `a · W_relᵀ + b + h · W_rootᵀ`. -/
def conv3 (a h : FVec F S100000x32 .f32) (Wrel : FVec F S32x32 .f32) (b : FVec F S32 .f32) (Wroot : FVec F S32x32 .f32) : FVec F S100000x32 .f32 :=
  addf (addf (Host.dotGeneral dot_S100000x32_S32x32_S100000x32_1_0_0_1_n_n none a (transpose S32x32 [1, 0] Wrel transposes_S32x32_S32x32_1_0))
      (broadcastInDim S100000x32 ![0, 1] bcast_S1x32_S100000x32_0_1 (broadcastInDim S1x32 ![1] bcast_S32_S1x32_1 b)))
    (Host.dotGeneral dot_S100000x32_S32x32_S100000x32_1_0_0_1_n_n none h (transpose S32x32 [1, 0] Wroot transposes_S32x32_S32x32_1_0))

/-- Graph convolution 32 → 32 with relu. -/
def conv2 (a h : FVec F S100000x32 .f32) (Wrel : FVec F S32x32 .f32) (b : FVec F S32 .f32) (Wroot : FVec F S32x32 .f32) : FVec F S100000x32 .f32 :=
  maximumf (conv3 a h Wrel b Wroot) (broadcastInDim S100000x32 ![] bcast_S_S100000x32 (constant S_ .f32 0x00000000#32))

/-- Mean of the node rows over each graph: the per-graph sum divided by `max (node count, 1)`. -/
def pool (h : FVec F S100000x32 .f32) (batch : IVec S100000 32) : FVec F S1000x32 .f32 :=
  Host.divf
    (Host.scatterAdd scatter_S1000x32_S100000x1_S100000x32_1_0_0_1 (broadcastInDim S1000x32 ![] bcast_S_S1000x32 (constant S_ .f32 0x00000000#32))
      (broadcastInDim S100000x1 ![0] bcast_S100000_S100000x1_0 batch) h)
    (broadcastInDim S1000x32 ![0, 1] bcast_S1000x1_S1000x32_0_1 (broadcastInDim S1000x1 ![0] bcast_S1000_S1000x1_0
      (maximumf
        (Host.scatterAdd scatter_S1000_S100000x1_S100000_n_0_0_1 (broadcastInDim S1000 ![] bcast_S_S1000 (constant S_ .f32 0x00000000#32))
          (broadcastInDim S100000x1 ![0] bcast_S100000_S100000x1_0 batch) (broadcastInDim S100000 ![] bcast_S_S100000 (constant S_ .f32 0x3F800000#32)))
        (broadcastInDim S1000 ![] bcast_S_S1000 (constant S_ .f32 0x3F800000#32)))))

/-- The head: `relu (p · Waᵀ + ba) · Wbᵀ + bb`. -/
def lin2 (p : FVec F S1000x32 .f32) (Wa : FVec F S16x32 .f32) (ba : FVec F S16 .f32) (Wb : FVec F S10x16 .f32) (bb : FVec F S10 .f32) : FVec F S1000x10 .f32 :=
  addf (Host.dotGeneral dot_S1000x16_S16x10_S1000x10_1_0_0_1_n_n none
      (maximumf (addf (Host.dotGeneral dot_S1000x32_S32x16_S1000x16_1_0_0_1_n_n none p (transpose S32x16 [1, 0] Wa transposes_S16x32_S32x16_1_0))
          (broadcastInDim S1000x16 ![0, 1] bcast_S1x16_S1000x16_0_1 (broadcastInDim S1x16 ![1] bcast_S16_S1x16_1 ba)))
        (broadcastInDim S1000x16 ![] bcast_S_S1000x16 (constant S_ .f32 0x00000000#32)))
      (transpose S16x10 [1, 0] Wb transposes_S10x16_S16x10_1_0))
    (broadcastInDim S1000x10 ![0, 1] bcast_S1x10_S1000x10_0_1 (broadcastInDim S1x10 ![1] bcast_S10_S1x10_1 bb))

/-- The whole network. -/
def net (x : FVec F S100000x128 .f32) (ei : IVec S2x1600000 32) (ew : FVec F S1600000 .f32) (batch : IVec S100000 32)
    (Wl : FVec F S8x128 .f32) (bl : FVec F S8 .f32)
    (W1r : FVec F S32x8 .f32) (b1 : FVec F S32 .f32) (W1o : FVec F S32x8 .f32)
    (W2r : FVec F S32x32 .f32) (b2 : FVec F S32 .f32) (W2o : FVec F S32x32 .f32)
    (W3r : FVec F S32x32 .f32) (b3 : FVec F S32 .f32) (W3o : FVec F S32x32 .f32)
    (Wa : FVec F S16x32 .f32) (ba : FVec F S16 .f32) (Wb : FVec F S10x16 .f32) (bb : FVec F S10 .f32) : FVec F S1000x10 .f32 :=
  lin2 (pool (conv3 (agg32 (conv2 (agg32 (conv1 (agg8 (lin1 x Wl bl) (src ei) (dst ei) ew) (lin1 x Wl bl) W1r b1 W1o) (src ei) (dst ei) ew)
      (conv1 (agg8 (lin1 x Wl bl) (src ei) (dst ei) ew) (lin1 x Wl bl) W1r b1 W1o) W2r b2 W2o) (src ei) (dst ei) ew)
      (conv2 (agg32 (conv1 (agg8 (lin1 x Wl bl) (src ei) (dst ei) ew) (lin1 x Wl bl) W1r b1 W1o) (src ei) (dst ei) ew)
      (conv1 (agg8 (lin1 x Wl bl) (src ei) (dst ei) ew) (lin1 x Wl bl) W1r b1 W1o) W2r b2 W2o) W3r b3 W3o) batch) Wa ba Wb bb

end Cert.Layers

end
-- ==== Proof.Region0.lean ====
/-
  Pallas call 0 (ten row blocks of 10000 nodes): the output array, once every block is written back, is the input layer of its three argument arrays.
-/
import proofs.«406287_j15865609192043_3_alg».proof.Proof.Gen.KernelIdeal.Frame
import proofs.«406287_j15865609192043_3_alg».proof.Proof.Gen.ReferenceIdeal
import proofs.«406287_j15865609192043_3_alg».proof.Proof.Gen.ReferenceIdeal.Read
import proofs.«406287_j15865609192043_3_alg».proof.Proof.Layers
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.Region0

open Idealize.ShloMosaic Idealize.ShloMosaic.TcCoe Cert.KernelIdeal Cert.KernelIdeal.Gen
open Idealize.ShloMosaic.ValueIdx
open scoped BigOperators

/-- The input layer at entry (n, j): the larger of zero and the bias b j plus the dot product, over the 128 input
    channels, of row n of x with row j of W. -/
def layer (x : (⟨2, ![100000, 128]⟩ : Shape).Idx → EReal) (W : (⟨2, ![8, 128]⟩ : Shape).Idx → EReal)
    (b : (⟨1, ![8]⟩ : Shape).Idx → EReal) : (⟨2, ![100000, 8]⟩ : Shape).Idx → EReal :=
  fun i => max ((∑ k : Fin 128, x (ix2 (n0 := 100000) (i 0) k) * W (ix2 (n0 := 8) (i 1) k)) + b (ix1 (n := 8) (i 1))) 0

/-- The reference's input layer is that function, entry by entry: its contraction is the sum over the channel, its
    transpose, broadcasts and constant are re-indexings. -/
theorem lin1_eq (x : FVec Ideal Cert.ReferenceIdeal.S100000x128 .f32) (W : FVec Ideal Cert.ReferenceIdeal.S8x128 .f32)
    (b : FVec Ideal Cert.ReferenceIdeal.S8 .f32) : Cert.Layers.lin1 (F := Ideal) x W b = layer x W b := by
  funext i
  show Cert.ReferenceIdeal.Read.val_main_v9 (F := Ideal) x W b i = _
  rw [Cert.ReferenceIdeal.Read.val_main_v9_apply, Cert.ReferenceIdeal.Read.val_main_v8_apply,
    Cert.ReferenceIdeal.Read.val_main_v5_apply, Cert.ReferenceIdeal.Read.val_main_v7_apply,
    Cert.ReferenceIdeal.Read.val_main_v6_apply, Cert.ReferenceIdeal.Read.val_main_call0_v0_apply,
    Cert.ReferenceIdeal.Read.val_main_call0_cst_apply]
  simp only [Cert.ReferenceIdeal.Read.val_main_v4_apply]
  have el : ∀ k : Fin 128, Cert.ReferenceIdeal.Read.lidx_main_v5 i k = ix2 (n0 := 100000) (i 0) k := fun k =>
    funext fun a => by match a with | ⟨0, _⟩ => rfl | ⟨1, _⟩ => rfl
  have er : ∀ k : Fin 128, Cert.ReferenceIdeal.Read.idx_main_v4 (Cert.ReferenceIdeal.Read.ridx_main_v5 i k) = ix2 (n0 := 8) (i 1) k := fun k =>
    funext fun a => by match a with | ⟨0, _⟩ => rfl | ⟨1, _⟩ => rfl
  have eb : Cert.ReferenceIdeal.Read.idx_main_v6 (Cert.ReferenceIdeal.Read.idx_main_v7 i) = ix1 (n := 8) (i 1) :=
    funext fun a => by match a with | ⟨0, _⟩ => rfl
  simp only [el, er, eb]
  show max (_ + _) (Ideal.ofBits .f32 0x00000000#32) = _
  rw [Ideal.ofBits_zero_f32]
  rfl

/-! The kernel's contraction record, axis by axis: an output entry (n, j) and a channel k name entry (n, k) of the left
    operand and entry (k, j) of the right. -/

theorem lhs_axis0 (i : S10000x8.Idx) (q : dot_S10000x128_S128x8_S10000x8_1_0_0_1_n_n.contr.Idx) :
    (dot_S10000x128_S128x8_S10000x8_1_0_0_1_n_n.lhsIdx i q 0).val = (i 0).val := by
  unfold DotDims.lhsIdx
  rw [dif_neg (show ¬(0 : Fin S10000x128.rank) ∈ dot_S10000x128_S128x8_S10000x8_1_0_0_1_n_n.lhsBatch by decide), dif_pos (show (0 : Fin S10000x128.rank) ∈ dot_S10000x128_S128x8_S10000x8_1_0_0_1_n_n.lhsNonContracting by decide)]
  rfl
theorem lhs_axis1 (i : S10000x8.Idx) (q : dot_S10000x128_S128x8_S10000x8_1_0_0_1_n_n.contr.Idx) :
    (dot_S10000x128_S128x8_S10000x8_1_0_0_1_n_n.lhsIdx i q 1).val = (q ⟨0, by decide⟩).val :=
  dot_S10000x128_S128x8_S10000x8_1_0_0_1_n_n.lhsIdx_val_of_single rfl i q
theorem rhs_axis0 (i : S10000x8.Idx) (q : dot_S10000x128_S128x8_S10000x8_1_0_0_1_n_n.contr.Idx) :
    (dot_S10000x128_S128x8_S10000x8_1_0_0_1_n_n.rhsIdx i q 0).val = (q ⟨0, by decide⟩).val :=
  dot_S10000x128_S128x8_S10000x8_1_0_0_1_n_n.rhsIdx_val_of_single rfl i q
theorem rhs_axis1 (i : S10000x8.Idx) (q : dot_S10000x128_S128x8_S10000x8_1_0_0_1_n_n.contr.Idx) :
    (dot_S10000x128_S128x8_S10000x8_1_0_0_1_n_n.rhsIdx i q 1).val = (i 1).val := by
  unfold DotDims.rhsIdx
  rw [dif_neg (show ¬(1 : Fin S128x8.rank) ∈ dot_S10000x128_S128x8_S10000x8_1_0_0_1_n_n.rhsBatch by decide), dif_pos (show (1 : Fin S128x8.rank) ∈ dot_S10000x128_S128x8_S10000x8_1_0_0_1_n_n.rhsNonContracting by decide)]
  rfl

/-- The block product into the zero accumulator, at entry (p, q): the sum over the channel k of a (p, k) · w (k, q). -/
theorem matmul_at (a : FVec Ideal S10000x128 .bf16) (w : FVec Ideal S128x8 .bf16) (p : Fin 10000) (q : Fin 8) :
    matmul dot_S10000x128_S128x8_S10000x8_1_0_0_1_n_n none a w (constant (F := Ideal) S10000x8 .f32 0x00000000#32) (ix2 p q)
      = ∑ k : Fin 128, a (ix2 p k) * w (ix2 k q) := by
  simp only [matmul]
  rw [Ideal.matmul_constant_zero_apply, ← Equiv.sum_comp (ValueIdx.contrEquiv1 dot_S10000x128_S128x8_S10000x8_1_0_0_1_n_n 128 rfl rfl).symm]
  refine Finset.sum_congr rfl fun k _ => ?_
  have hk := ValueIdx.contrEquiv1_symm_val dot_S10000x128_S128x8_S10000x8_1_0_0_1_n_n 128 rfl rfl k
  have el : dot_S10000x128_S128x8_S10000x8_1_0_0_1_n_n.lhsIdx (ix2 p q) ((ValueIdx.contrEquiv1 dot_S10000x128_S128x8_S10000x8_1_0_0_1_n_n 128 rfl rfl).symm k) = ix2 p k := funext fun ax => Fin.ext (by
    match ax with
    | ⟨0, _⟩ => exact lhs_axis0 _ _
    | ⟨1, _⟩ => exact (lhs_axis1 _ _).trans hk)
  have er : dot_S10000x128_S128x8_S10000x8_1_0_0_1_n_n.rhsIdx (ix2 p q) ((ValueIdx.contrEquiv1 dot_S10000x128_S128x8_S10000x8_1_0_0_1_n_n 128 rfl rfl).symm k) = ix2 k q := funext fun ax => Fin.ext (by
    match ax with
    | ⟨0, _⟩ => exact (rhs_axis0 _ _).trans hk
    | ⟨1, _⟩ => exact rhs_axis1 _ _)
  rw [el, er]

/-- The body's arithmetic at entry (p, q) of its output block, from its three loaded blocks: the narrowing to bf16 is the
    identity, the transpose of the weights swaps the coordinates, the bias row is read at q whatever the row p. -/
theorem payload_at (x0 : FVec Ideal S10000x128 .f32) (x1 : FVec Ideal S8x128 .f32) (x2 : FVec Ideal S8 .f32) (p : Fin 10000) (q : Fin 8) :
    k0_pay1 (F := Ideal) x0 x1 x2 (ix2 p q) = max ((∑ k : Fin 128, x0 (ix2 p k) * x1 (ix2 q k)) + x2 (ix1 q)) 0 := by
  unfold k0_pay1
  show max (matmul dot_S10000x128_S128x8_S10000x8_1_0_0_1_n_n none (truncf .bf16 x0 bitsLt_bf16_f32)
        (transpose S128x8 [1, 0] (truncf .bf16 x1 bitsLt_bf16_f32) transposes_S8x128_p1_0_S128x8)
        (constant (F := Ideal) S10000x8 .f32 0x00000000#32) (ix2 p q)
      + broadcastTo S10000x8 (shapeCast S1x8 x2 shapeCasts_S8_S1x8) broadcasts_S1x8_S10000x8 (ix2 p q))
      (Ideal.ofBits .f32 0x00000000#32) = _
  rw [matmul_at, Ideal.ofBits_zero_f32, broadcastTo_1b_ab_apply, shapeCast_a_1a_apply]
  refine congrArg (fun s => max (s + x2 (ix1 q)) 0) (Finset.sum_congr rfl fun k _ => ?_)
  exact congrArg (x0 (ix2 p k) * ·) (transpose_ix2_apply (a := 8) (b := 128) (truncf .bf16 x1 bitsLt_bf16_f32) transposes_S8x128_p1_0_S128x8 k q)

-- membership in a rectangle of these extents recurses once per coordinate of the long axis
set_option maxRecDepth 16384

/-! From the blocks to the array: grid point t holds rows 10000·t … 10000·t + 9999 of x and of the output, and the whole
    of W and b. -/

theorem zeros2 : (![0, 0] : Fin 2 → Nat) = fun _ => 0 := funext fun a => by fin_cases a <;> rfl
theorem zeros1 : (![0] : Fin 1 → Nat) = fun _ => 0 := funext fun a => by fin_cases a <;> rfl

/-- The block index of every window at every grid point: x and the output move down one row block per point, W and b
    stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem point_lt (t : Fin cfg0.N) : t.val < 10 := lt_of_lt_of_eq t.isLt N_0

/-- Row p of block t is row 10000·t + p of the array. -/
def row (t : Fin cfg0.N) (p : Fin 10000) : Fin 100000 :=
  ⟨10000 * t.val + p.val, by have h := point_lt t; have := p.isLt; omega⟩

section Blocks
variable (V : (c : Dev nD) → (b : Ref sig .tc) → Buf (Elt Ideal) ((c : Thread nD τ).loc b))

/-- The block of x at point t, at (p, k): x at (10000·t + p, k). -/
theorem xblk_at (c : Dev nD) (t : Fin cfg0.N) (p : Fin 10000) (k : Fin 128) :
    (iblk0 (F := Ideal) V c 0 t : FVec Ideal S10000x128 .f32) (ix2 p k) = V c main_arg0 (ix2 (row t p) k) := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 10000 + 1 * p.val = 10000 * t.val + p.val; rw [e0]; omega
  | ⟨1, _⟩ => show win0_0.index t (1 : Fin 2) * 128 + 1 * k.val = k.val; rw [e1]; omega

/-- The block of W at any point is W. -/
theorem wblk_at (c : Dev nD) (t : Fin cfg0.N) (q : Fin 8) (k : Fin 128) :
    (iblk0 (F := Ideal) V c 1 t : FVec Ideal S8x128 .f32) (ix2 q k) = V c main_arg4 (ix2 q k) := by
  obtain ⟨-, -, e2, e3, -⟩ := block_indices t
  unfold iblk0
  rw [View.read_apply]
  show V c main_arg4 _ = V c main_arg4 _
  congr 1
  funext a
  apply Fin.ext
  match a with
  | ⟨0, _⟩ => show win0_1.index t (0 : Fin 2) * 8 + 1 * q.val = q.val; rw [e2]; omega
  | ⟨1, _⟩ => show win0_1.index t (1 : Fin 2) * 128 + 1 * k.val = k.val; rw [e3]; omega

/-- The block of b at any point is b. -/
theorem bblk_at (c : Dev nD) (t : Fin cfg0.N) (q : Fin 8) :
    (iblk0 (F := Ideal) V c 2 t : FVec Ideal S8 .f32) (ix1 q) = V c main_arg5 (ix1 q) := by
  obtain ⟨-, -, -, -, e4, -⟩ := block_indices t
  unfold iblk0
  rw [View.read_apply]
  show V c main_arg5 _ = V c main_arg5 _
  congr 1
  funext a
  apply Fin.ext
  match a with
  | ⟨0, _⟩ => show win0_2.index t (0 : Fin 1) * 8 + 1 * q.val = q.val; rw [e4]; omega

/-- What the body leaves at point t: rows 10000·t … of the layer of the three arrays. -/
theorem block_eq (c : Dev nD) (t : Fin cfg0.N) :
    k0_pay1 (F := Ideal) (iblk0 V c 0 t) (iblk0 V c 1 t) (iblk0 V c 2 t)
      = fun j : S10000x8.Idx => layer (V c main_arg0) (V c main_arg4) (V c main_arg5) (ix2 (row t (j 0)) (j 1)) := by
  funext j
  obtain ⟨p, q, rfl⟩ : ∃ (p : Fin 10000) (q : Fin 8), j = ix2 p q := ⟨j 0, j 1, eq_ix2 j⟩
  rw [payload_at]
  simp only [xblk_at, wblk_at, bblk_at]
  rfl

/-- What point t writes back is block t of the layer. -/
theorem flushed_eq (c : Dev nD) (t : Fin cfg0.N) :
    (dat0 (F := Ideal) V c).flushed 3 t
      = ((cfg0.win 3).blk t).view.read (Elt Ideal) (layer (V c main_arg0) (V c main_arg4) (V c main_arg5)) := by
  show (cfg0.win 3).cut (grid0.coords t) ((dat0 V c).after 3 t) = _
  rw [after0_3]
  unfold out0_3
  rw [View.canon_unit_zero zeros2]
  simp only [View.ld_unit_zero (S := S10000x128) zeros2, View.ld_unit_zero (S := S8x128) zeros2, View.ld_unit_zero (S := S8) zeros1]
  rw [block_eq]
  obtain ⟨-, -, -, -, -, e5, e6⟩ := block_indices t
  funext j
  rw [View.read_apply]
  show layer (V c main_arg0) (V c main_arg4) (V c main_arg5) (ix2 (row t (j 0)) (j 1))
    = layer (V c main_arg0) (V c main_arg4) (V c main_arg5) (((cfg0.win 3).blk t).view.emb j)
  congr 1
  funext a
  apply Fin.ext
  match a with
  | ⟨0, _⟩ => show 10000 * t.val + (j 0).val = win0_3.index t (0 : Fin 2) * 10000 + 1 * (j 0).val; rw [e5]; omega
  | ⟨1, _⟩ => show (j 1).val = win0_3.index t (1 : Fin 2) * 8 + 1 * (j 1).val; rw [e6]; omega

/-- An index of the array is in point t's block iff each coordinate is in the block's range on its axis. -/
theorem mem_blk (t : Fin cfg0.N) (i : S100000x8.Idx) :
    i ∈ ((cfg0.win 3).blk t).view.set ↔ ∀ a : Fin 2, win0_3.index t a * S10000x8.size a ≤ (i a).val ∧ (i a).val < win0_3.index t a * S10000x8.size a + S10000x8.size a := by
  show i ∈ ((View.whole main_v26).slice (win0_3.rect t)).set ↔ _
  rw [View.set_slice_whole, Rect.mem_set_unit]
  exact Iff.rfl

/-- Row r lies in the block of point r / 10000. -/
theorem cover (i : S100000x8.Idx) : ∃ t : Fin cfg0.N, (cfg0.win 3).flush t = true ∧ i ∈ ((cfg0.win 3).blk t).view.set := by
  have hi0 : (i 0).val < 100000 := (i 0).isLt
  have hi1 : (i 1).val < 8 := (i 1).isLt
  obtain ⟨t, ht⟩ : ∃ t : Fin cfg0.N, t.val = (i 0).val / 10000 :=
    ⟨⟨(i 0).val / 10000, lt_of_lt_of_eq (show (i 0).val / 10000 < 10 by omega) N_0.symm⟩, rfl⟩
  obtain ⟨-, -, -, -, -, e5, e6⟩ := block_indices t
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; rw [e5, ht]; omega
  | ⟨1, _⟩ => show win0_3.index t (1 : Fin 2) * 8 ≤ (i 1).val ∧ (i 1).val < win0_3.index t (1 : Fin 2) * 8 + 8; rw [e6]; omega

end Blocks

/-- The output array after the ten write-backs is the layer of x, W and b: every block is the layer's block, the blocks
    cover the array, and the reference's input layer is that function. -/
theorem final (V : (c : Dev nD) → (b : Ref sig .tc) → Buf (Elt Ideal) ((c : Thread nD τ).loc b)) (c : Dev nD) :
    (dat0 (F := Ideal) V c).arrAt 3 cfg0.N
      = Cert.Layers.lin1 (F := Ideal) (V c main_arg0) (V c main_arg4) (V c main_arg5) :=
  ((dat0 (F := Ideal) V c).arrAt_eq_of_cover 3 (layer (V c main_arg0) (V c main_arg4) (V c main_arg5))
    (fun t _ => flushed_eq V c t) cover).trans (lin1_eq _ _ _).symm

end Cert.Region0

end
-- ==== Proof.Region1.lean ====
/-
  Pallas call 1 (ten row blocks of 10000 nodes): the output array, once every block is written back, is the first graph convolution of its five argument arrays.
-/
import proofs.«406287_j15865609192043_3_alg».proof.Proof.Gen.KernelIdeal.Frame
import proofs.«406287_j15865609192043_3_alg».proof.Proof.Gen.ReferenceIdeal
import proofs.«406287_j15865609192043_3_alg».proof.Proof.Layers
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.Region1

open Idealize.ShloMosaic Idealize.ShloMosaic.TcCoe Cert.KernelIdeal Cert.KernelIdeal.Gen
open Idealize.ShloMosaic.ValueIdx

/-! ## The block product: entry (p, q) of a [10000, 8] by [8, 32] product is the sum over the 8 shared coordinates -/

theorem mm_lhs_0 (i : S10000x32.Idx) (q : dot_S10000x8_S8x32_S10000x32_1_0_0_1_n_n.contr.Idx) :
    (dot_S10000x8_S8x32_S10000x32_1_0_0_1_n_n.lhsIdx i q 0).val = (i 0).val := by
  unfold DotDims.lhsIdx
  rw [dif_neg (show ¬(0 : Fin S10000x8.rank) ∈ dot_S10000x8_S8x32_S10000x32_1_0_0_1_n_n.lhsBatch by decide), dif_pos (show (0 : Fin S10000x8.rank) ∈ dot_S10000x8_S8x32_S10000x32_1_0_0_1_n_n.lhsNonContracting by decide)]
  rfl
theorem mm_lhs_1 (i : S10000x32.Idx) (q : dot_S10000x8_S8x32_S10000x32_1_0_0_1_n_n.contr.Idx) :
    (dot_S10000x8_S8x32_S10000x32_1_0_0_1_n_n.lhsIdx i q 1).val = (q ⟨0, by decide⟩).val :=
  dot_S10000x8_S8x32_S10000x32_1_0_0_1_n_n.lhsIdx_val_of_single rfl i q
theorem mm_rhs_0 (i : S10000x32.Idx) (q : dot_S10000x8_S8x32_S10000x32_1_0_0_1_n_n.contr.Idx) :
    (dot_S10000x8_S8x32_S10000x32_1_0_0_1_n_n.rhsIdx i q 0).val = (q ⟨0, by decide⟩).val :=
  dot_S10000x8_S8x32_S10000x32_1_0_0_1_n_n.rhsIdx_val_of_single rfl i q
theorem mm_rhs_1 (i : S10000x32.Idx) (q : dot_S10000x8_S8x32_S10000x32_1_0_0_1_n_n.contr.Idx) :
    (dot_S10000x8_S8x32_S10000x32_1_0_0_1_n_n.rhsIdx i q 1).val = (i 1).val := by
  unfold DotDims.rhsIdx
  rw [dif_neg (show ¬(1 : Fin S8x32.rank) ∈ dot_S10000x8_S8x32_S10000x32_1_0_0_1_n_n.rhsBatch by decide), dif_pos (show (1 : Fin S8x32.rank) ∈ dot_S10000x8_S8x32_S10000x32_1_0_0_1_n_n.rhsNonContracting by decide)]
  rfl

/-- The matrix unit's product into the zero block, at entry (p, q): the sum over k of l[p, k] · r[k, q]. -/
theorem mm_apply (l : FVec Ideal S10000x8 .bf16) (r : FVec Ideal S8x32 .bf16) (p : Fin 10000) (q : Fin 32) :
    matmul dot_S10000x8_S8x32_S10000x32_1_0_0_1_n_n none l r (constant S10000x32 .f32 0x00000000#32) (ix2 p q)
      = ∑ k : Fin 8, l (ix2 p k) * r (ix2 k q) := by
  simp only [matmul]
  rw [Ideal.matmul_constant_zero_apply, ← Equiv.sum_comp (contrEquiv1 dot_S10000x8_S8x32_S10000x32_1_0_0_1_n_n 8 rfl rfl).symm]
  refine Finset.sum_congr rfl fun k _ => ?_
  have hk := contrEquiv1_symm_val dot_S10000x8_S8x32_S10000x32_1_0_0_1_n_n 8 rfl rfl k
  have el : dot_S10000x8_S8x32_S10000x32_1_0_0_1_n_n.lhsIdx (ix2 p q) ((contrEquiv1 dot_S10000x8_S8x32_S10000x32_1_0_0_1_n_n 8 rfl rfl).symm k) = ix2 p k := funext fun a => Fin.ext (by
    match a with
    | ⟨0, _⟩ => exact mm_lhs_0 _ _
    | ⟨1, _⟩ => exact (mm_lhs_1 _ _).trans hk)
  have er : dot_S10000x8_S8x32_S10000x32_1_0_0_1_n_n.rhsIdx (ix2 p q) ((contrEquiv1 dot_S10000x8_S8x32_S10000x32_1_0_0_1_n_n 8 rfl rfl).symm k) = ix2 k q := funext fun a => Fin.ext (by
    match a with
    | ⟨0, _⟩ => exact (mm_rhs_0 _ _).trans hk
    | ⟨1, _⟩ => exact mm_rhs_1 _ _)
  rw [el, er]

/-! ## The body's stored value at an entry -/

/-- One product of the body at entry (p, q), the weight block read transposed: Σ_k x[p,k]·w[q,k]. -/
theorem mm_tr_apply (x : FVec Ideal S10000x8 .f32) (w : FVec Ideal S32x8 .f32) (p : Fin 10000) (q : Fin 32) :
    matmul dot_S10000x8_S8x32_S10000x32_1_0_0_1_n_n none (truncf .bf16 x bitsLt_bf16_f32)
        (transpose S8x32 [1, 0] (truncf .bf16 w bitsLt_bf16_f32) transposes_S32x8_p1_0_S8x32)
        (constant (F := Ideal) S10000x32 .f32 0x00000000#32) (ix2 p q)
      = ∑ k : Fin 8, x (ix2 p k) * w (ix2 q k) := by
  refine (mm_apply _ _ p q).trans ?_
  refine Finset.sum_congr rfl fun k _ => ?_
  refine congrArg₂ (· * ·) rfl ?_
  exact transpose_ix2_apply (truncf .bf16 w bitsLt_bf16_f32) transposes_S32x8_p1_0_S8x32 k q

/-- Entry (p, q) of the stored block: relu of  Σ_k agg[p,k]·W_rel[q,k] + b[q] + Σ_k h[p,k]·W_root[q,k]. -/
theorem pay_apply (v0 v3 : Vec Ideal S10000x8 .f32) (v6 v8 : Vec Ideal S32x8 .f32) (v14 : Vec Ideal S32 .f32) (p : Fin 10000) (q : Fin 32) :
    k1_pay1 v0 v3 v6 v8 v14 (ix2 p q)
      = max (((∑ k : Fin 8, v0 (ix2 p k) * v6 (ix2 q k)) + v14 (ix1 q)) + ∑ k : Fin 8, v3 (ix2 p k) * v8 (ix2 q k))
          (Ideal.ofBits .f32 0x00000000#32) := by
  unfold k1_pay1
  simp only [shapeCast_self]
  refine (maximumf_apply _ _ _).trans ?_
  refine congrArg₂ max ?_ rfl
  refine (addf_apply _ _ _).trans ?_
  refine congrArg₂ (· + ·) ?_ (mm_tr_apply v3 v8 p q)
  refine (addf_apply _ _ _).trans ?_
  refine congrArg₂ (· + ·) (mm_tr_apply v0 v6 p q) ?_
  refine (broadcastTo_1b_ab_apply _ broadcasts_S1x32_S10000x32 p q).trans ?_
  exact shapeCast_a_1a_apply v14 shapeCasts_S32_S1x32 0 q

/-! ## The layer at an entry: entry (n, q) of a [100000, 8] by [8, 32] host product, and of the layer -/

theorem dg_lhs_0 (i : Cert.ReferenceIdeal.S100000x32.Idx) (q : Cert.ReferenceIdeal.dot_S100000x8_S8x32_S100000x32_1_0_0_1_n_n.contr.Idx) :
    (Cert.ReferenceIdeal.dot_S100000x8_S8x32_S100000x32_1_0_0_1_n_n.lhsIdx i q 0).val = (i 0).val := by
  unfold DotDims.lhsIdx
  rw [dif_neg (show ¬(0 : Fin Cert.ReferenceIdeal.S100000x8.rank) ∈ Cert.ReferenceIdeal.dot_S100000x8_S8x32_S100000x32_1_0_0_1_n_n.lhsBatch by decide), dif_pos (show (0 : Fin Cert.ReferenceIdeal.S100000x8.rank) ∈ Cert.ReferenceIdeal.dot_S100000x8_S8x32_S100000x32_1_0_0_1_n_n.lhsNonContracting by decide)]
  rfl
theorem dg_lhs_1 (i : Cert.ReferenceIdeal.S100000x32.Idx) (q : Cert.ReferenceIdeal.dot_S100000x8_S8x32_S100000x32_1_0_0_1_n_n.contr.Idx) :
    (Cert.ReferenceIdeal.dot_S100000x8_S8x32_S100000x32_1_0_0_1_n_n.lhsIdx i q 1).val = (q ⟨0, by decide⟩).val :=
  Cert.ReferenceIdeal.dot_S100000x8_S8x32_S100000x32_1_0_0_1_n_n.lhsIdx_val_of_single rfl i q
theorem dg_rhs_0 (i : Cert.ReferenceIdeal.S100000x32.Idx) (q : Cert.ReferenceIdeal.dot_S100000x8_S8x32_S100000x32_1_0_0_1_n_n.contr.Idx) :
    (Cert.ReferenceIdeal.dot_S100000x8_S8x32_S100000x32_1_0_0_1_n_n.rhsIdx i q 0).val = (q ⟨0, by decide⟩).val :=
  Cert.ReferenceIdeal.dot_S100000x8_S8x32_S100000x32_1_0_0_1_n_n.rhsIdx_val_of_single rfl i q
theorem dg_rhs_1 (i : Cert.ReferenceIdeal.S100000x32.Idx) (q : Cert.ReferenceIdeal.dot_S100000x8_S8x32_S100000x32_1_0_0_1_n_n.contr.Idx) :
    (Cert.ReferenceIdeal.dot_S100000x8_S8x32_S100000x32_1_0_0_1_n_n.rhsIdx i q 1).val = (i 1).val := by
  unfold DotDims.rhsIdx
  rw [dif_neg (show ¬(1 : Fin Cert.ReferenceIdeal.S8x32.rank) ∈ Cert.ReferenceIdeal.dot_S100000x8_S8x32_S100000x32_1_0_0_1_n_n.rhsBatch by decide), dif_pos (show (1 : Fin Cert.ReferenceIdeal.S8x32.rank) ∈ Cert.ReferenceIdeal.dot_S100000x8_S8x32_S100000x32_1_0_0_1_n_n.rhsNonContracting by decide)]
  rfl

/-- The host's product at entry (n, q): the sum over k of l[n, k] · r[k, q]. -/
theorem dg_apply (l : FVec Ideal Cert.ReferenceIdeal.S100000x8 .f32) (r : FVec Ideal Cert.ReferenceIdeal.S8x32 .f32) (n : Fin 100000) (q : Fin 32) :
    Host.dotGeneral Cert.ReferenceIdeal.dot_S100000x8_S8x32_S100000x32_1_0_0_1_n_n none l r (ix2 n q)
      = ∑ k : Fin 8, l (ix2 n k) * r (ix2 k q) := by
  simp only [Host.dotGeneral]
  rw [Ideal.dotGeneral_apply, ← Equiv.sum_comp (contrEquiv1 Cert.ReferenceIdeal.dot_S100000x8_S8x32_S100000x32_1_0_0_1_n_n 8 rfl rfl).symm]
  refine Finset.sum_congr rfl fun k _ => ?_
  have hk := contrEquiv1_symm_val Cert.ReferenceIdeal.dot_S100000x8_S8x32_S100000x32_1_0_0_1_n_n 8 rfl rfl k
  have el : Cert.ReferenceIdeal.dot_S100000x8_S8x32_S100000x32_1_0_0_1_n_n.lhsIdx (ix2 n q) ((contrEquiv1 Cert.ReferenceIdeal.dot_S100000x8_S8x32_S100000x32_1_0_0_1_n_n 8 rfl rfl).symm k) = ix2 n k := funext fun a => Fin.ext (by
    match a with
    | ⟨0, _⟩ => exact dg_lhs_0 _ _
    | ⟨1, _⟩ => exact (dg_lhs_1 _ _).trans hk)
  have er : Cert.ReferenceIdeal.dot_S100000x8_S8x32_S100000x32_1_0_0_1_n_n.rhsIdx (ix2 n q) ((contrEquiv1 Cert.ReferenceIdeal.dot_S100000x8_S8x32_S100000x32_1_0_0_1_n_n 8 rfl rfl).symm k) = ix2 k q := funext fun a => Fin.ext (by
    match a with
    | ⟨0, _⟩ => exact (dg_rhs_0 _ _).trans hk
    | ⟨1, _⟩ => exact dg_rhs_1 _ _)
  rw [el, er]

/-- One product of the layer at entry (n, q), the weight read transposed: Σ_k x[n,k]·w[q,k]. -/
theorem dg_tr_apply (x : FVec Ideal Cert.ReferenceIdeal.S100000x8 .f32) (w : FVec Ideal Cert.ReferenceIdeal.S32x8 .f32) (n : Fin 100000) (q : Fin 32) :
    Host.dotGeneral Cert.ReferenceIdeal.dot_S100000x8_S8x32_S100000x32_1_0_0_1_n_n none x
        (transpose Cert.ReferenceIdeal.S8x32 [1, 0] w Cert.ReferenceIdeal.Facts₀.transposes_S32x8_S8x32_1_0) (ix2 n q)
      = ∑ k : Fin 8, x (ix2 n k) * w (ix2 q k) := by
  refine (dg_apply _ _ n q).trans ?_
  refine Finset.sum_congr rfl fun k _ => ?_
  refine congrArg₂ (· * ·) rfl ?_
  exact transpose_ix2_apply w Cert.ReferenceIdeal.Facts₀.transposes_S32x8_S8x32_1_0 k q

/-- The bias row over every node: entry (n, q) is b[q]. -/
theorem bias_apply (b : FVec Ideal Cert.ReferenceIdeal.S32 .f32) (n : Fin 100000) (q : Fin 32) :
    broadcastInDim Cert.ReferenceIdeal.S100000x32 ![0, 1] Cert.ReferenceIdeal.Facts₀.bcast_S1x32_S100000x32_0_1
        (broadcastInDim Cert.ReferenceIdeal.S1x32 ![1] Cert.ReferenceIdeal.Facts₀.bcast_S32_S1x32_1 b) (ix2 n q) = b (ix1 q) := by
  refine (broadcastInDim_apply _ Cert.ReferenceIdeal.Facts₀.bcast_S1x32_S100000x32_0_1 _ (ix2 n q) (ix2 (0 : Fin 1) q) (fun a => match a with
    | ⟨0, _⟩ => by show 0 = if (1 : Nat) = 1 then 0 else n.val; rw [if_pos rfl]
    | ⟨1, _⟩ => by show q.val = if (32 : Nat) = 1 then 0 else q.val; rw [if_neg (by decide)])).trans ?_
  exact broadcastInDim_apply _ Cert.ReferenceIdeal.Facts₀.bcast_S32_S1x32_1 b (ix2 (0 : Fin 1) q) (ix1 q) (fun a => match a with
    | ⟨0, _⟩ => by show q.val = if (32 : Nat) = 1 then 0 else q.val; rw [if_neg (by decide)])

/-- Entry (n, q) of the first graph convolution: relu of  Σ_k a[n,k]·W_rel[q,k] + b[q] + Σ_k h[n,k]·W_root[q,k]. -/
theorem conv1_apply (a h : FVec Ideal Cert.ReferenceIdeal.S100000x8 .f32) (Wrel : FVec Ideal Cert.ReferenceIdeal.S32x8 .f32)
    (b : FVec Ideal Cert.ReferenceIdeal.S32 .f32) (Wroot : FVec Ideal Cert.ReferenceIdeal.S32x8 .f32) (n : Fin 100000) (q : Fin 32) :
    Cert.Layers.conv1 (F := Ideal) a h Wrel b Wroot (ix2 n q)
      = max (((∑ k : Fin 8, a (ix2 n k) * Wrel (ix2 q k)) + b (ix1 q)) + ∑ k : Fin 8, h (ix2 n k) * Wroot (ix2 q k))
          (Ideal.ofBits .f32 0x00000000#32) := by
  unfold Cert.Layers.conv1
  refine (maximumf_apply _ _ _).trans ?_
  refine congrArg₂ max ?_ ?_
  · refine (addf_apply _ _ _).trans ?_
    refine congrArg₂ (· + ·) ?_ (dg_tr_apply h Wroot n q)
    refine (addf_apply _ _ _).trans ?_
    exact congrArg₂ (· + ·) (dg_tr_apply a Wrel n q) (bias_apply b n q)
  · exact broadcastInDim_apply _ Cert.ReferenceIdeal.Facts₀.bcast_S_S100000x32 (constant (F := Ideal) Cert.ReferenceIdeal.S_ .f32 0x00000000#32) (ix2 n q) ix0 (fun a => a.elim0)

/-! ## From the blocks to the array -/

theorem hz2 : (![0, 0] : Fin 2 → Nat) = fun _ => 0 := funext fun a => by fin_cases a <;> rfl
theorem hz1 : (![0] : Fin 1 → Nat) = fun _ => 0 := funext fun a => by fin_cases a <;> rfl

/-- The block index maps over the ten grid points: the two node-feature inputs move with the output along the
    rows (row block t at point t), the weights and the bias sit at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every row block is some point's. -/
theorem idx_onto : ∀ q0 : Fin 10, ∃ t : Fin cfg1.N, t.val = q0.val :=
  (by decide +kernel : ∀ q0 : Fin 10, ∃ t : Fin grid1.N, t.val = q0.val)

/-- One entry of the stored block against the layer: when the five loaded blocks are row block T of the two
    node-feature arrays and the whole weight and bias arrays, the stored block is row block T of the layer. -/
theorem block_entry (A H : FVec Ideal Cert.ReferenceIdeal.S100000x8 .f32) (Wr Wo : FVec Ideal Cert.ReferenceIdeal.S32x8 .f32)
    (b : FVec Ideal Cert.ReferenceIdeal.S32 .f32)
    (x0 x1 : Vec Ideal S10000x8 .f32) (x2 x4 : Vec Ideal S32x8 .f32) (x3 : Vec Ideal S32 .f32) (T : Nat)
    (h0 : ∀ (y : S10000x8.Idx) (i : S100000x8.Idx), (i 0).val = T * 10000 + (y 0).val → (i 1).val = (y 1).val → x0 y = A i)
    (h1 : ∀ (y : S10000x8.Idx) (i : S100000x8.Idx), (i 0).val = T * 10000 + (y 0).val → (i 1).val = (y 1).val → x1 y = H i)
    (h2 : ∀ y : S32x8.Idx, x2 y = Wr y) (h3 : ∀ y : S32.Idx, x3 y = b y) (h4 : ∀ y : S32x8.Idx, x4 y = Wo y)
    (y : S10000x32.Idx) (i : S100000x32.Idx) (e0 : (i 0).val = T * 10000 + (y 0).val) (e1 : (i 1).val = (y 1).val) :
    k1_pay1 x0 x1 x2 x4 x3 y = Cert.Layers.conv1 (F := Ideal) A H Wr b Wo i := by
  obtain ⟨p, q, rfl⟩ : ∃ (p : Fin 10000) (q : Fin 32), y = ix2 p q := ⟨y 0, y 1, eq_ix2 y⟩
  obtain ⟨n, r, rfl⟩ : ∃ (n : Fin 100000) (r : Fin 32), i = ix2 n r := ⟨i 0, i 1, eq_ix2 i⟩
  have e0' : n.val = T * 10000 + p.val := e0
  have e1' : r = q := Fin.ext e1
  subst e1'
  rw [pay_apply, conv1_apply]
  refine congrArg₂ max ?_ rfl
  refine congrArg₂ (· + ·) (congrArg₂ (· + ·) (Finset.sum_congr rfl fun k _ => ?_) (h3 _)) (Finset.sum_congr rfl fun k _ => ?_)
  · rw [h0 (ix2 p k) (ix2 n k) e0' rfl, h2]
  · rw [h1 (ix2 p k) (ix2 n k) e0' rfl, h4]

section Blocks
variable (V : (c : Dev nD) → (b : Ref sig .tc) → Buf (Elt Ideal) ((c : Thread nD τ).loc b)) (c : Dev nD)

set_option maxHeartbeats 400000 in
/-- What point t writes back is row block t of the layer of the region's input arrays. -/
theorem flushed_eq (t : Fin cfg1.N) :
    (dat1 (F := Ideal) V c).flushed 5 t = ((cfg1.win 5).blk t).view.read (Elt Ideal)
      (Cert.Layers.conv1 (F := Ideal) (V c main_v33) (V c main_v26) (V c main_arg6) (V c main_arg7) (V c main_arg8)) := by
  show (cfg1.win 5).cut (grid1.coords t) ((dat1 (F := Ideal) V c).after 5 t) = _
  rw [after1_5]
  unfold out1_5
  rw [View.canon_unit_zero hz2]
  simp only [View.ld_unit_zero (S := S10000x8) hz2, View.ld_unit_zero (S := S32x8) hz2, View.ld_unit_zero (S := S32) hz1]
  obtain ⟨e00, e01, e10, e11, e20, e21, e30, e40, e41, e50, e51⟩ := idx_facts t
  funext j
  show k1_pay1 (iblk1 V c 0 t) (iblk1 V c 1 t) (iblk1 V c 2 t) (iblk1 V c 4 t) (iblk1 V c 3 t) ((win1 5).xinj (grid1.coords t) j)
    = Cert.Layers.conv1 (F := Ideal) (V c main_v33) (V c main_v26) (V c main_arg6) (V c main_arg7) (V c main_arg8) (((cfg1.win 5).blk t).view.emb j)
  refine block_entry (V c main_v33) (V c main_v26) (V c main_arg6) (V c main_arg8) (V c main_arg7)
    (iblk1 V c 0 t) (iblk1 V c 1 t) (iblk1 V c 2 t) (iblk1 V c 4 t) (iblk1 V c 3 t) t.val ?_ ?_ ?_ ?_ ?_
    ((win1 5).xinj (grid1.coords t) j) (((cfg1.win 5).blk t).view.emb j) ?_ ?_
  · intro y i h0 h1
    show V c main_v33 (((cfg1.win 0).blk t).view.emb y) = V c main_v33 i
    refine congrArg (V c main_v33) (funext fun a => Fin.ext ?_)
    match a with
    | ⟨0, _⟩ => show win1_0.index t (0 : Fin 2) * 10000 + 1 * (y 0).val = (i 0).val; omega
    | ⟨1, _⟩ => show win1_0.index t (1 : Fin 2) * 8 + 1 * (y 1).val = (i 1).val; omega
  · intro y i h0 h1
    show V c main_v26 (((cfg1.win 1).blk t).view.emb y) = V c main_v26 i
    refine congrArg (V c main_v26) (funext fun a => Fin.ext ?_)
    match a with
    | ⟨0, _⟩ => show win1_1.index t (0 : Fin 2) * 10000 + 1 * (y 0).val = (i 0).val; omega
    | ⟨1, _⟩ => show win1_1.index t (1 : Fin 2) * 8 + 1 * (y 1).val = (i 1).val; omega
  · intro y
    show V c main_arg6 (((cfg1.win 2).blk t).view.emb y) = V c main_arg6 y
    refine congrArg (V c main_arg6) (funext fun a => Fin.ext ?_)
    match a with
    | ⟨0, _⟩ => show win1_2.index t (0 : Fin 2) * 32 + 1 * (y 0).val = (y 0).val; omega
    | ⟨1, _⟩ => show win1_2.index t (1 : Fin 2) * 8 + 1 * (y 1).val = (y 1).val; omega
  · intro y
    show V c main_arg7 (((cfg1.win 3).blk t).view.emb y) = V c main_arg7 y
    refine congrArg (V c main_arg7) (funext fun a => Fin.ext ?_)
    match a with
    | ⟨0, _⟩ => show win1_3.index t (0 : Fin 1) * 32 + 1 * (y 0).val = (y 0).val; omega
  · intro y
    show V c main_arg8 (((cfg1.win 4).blk t).view.emb y) = V c main_arg8 y
    refine congrArg (V c main_arg8) (funext fun a => Fin.ext ?_)
    match a with
    | ⟨0, _⟩ => show win1_4.index t (0 : Fin 2) * 32 + 1 * (y 0).val = (y 0).val; omega
    | ⟨1, _⟩ => show win1_4.index t (1 : Fin 2) * 8 + 1 * (y 1).val = (y 1).val; omega
  · show win1_5.index t (0 : Fin 2) * 10000 + 1 * (j 0).val = t.val * 10000 + (j 0).val; omega
  · show win1_5.index t (1 : Fin 2) * 32 + 1 * (j 1).val = (j 1).val; omega

end Blocks

/-- An entry of the output array lies in point t's block iff each coordinate lies in the block's range on its axis. -/
theorem mem_blk (t : Fin cfg1.N) (i : S100000x32.Idx) :
    i ∈ ((cfg1.win 5).blk t).view.set ↔ ∀ a : Fin 2, win1_5.index t a * S10000x32.size a ≤ (i a).val ∧ (i a).val < win1_5.index t a * S10000x32.size a + S10000x32.size a := by
  show i ∈ ((View.whole main_v34).slice (win1_5.rect t)).set ↔ _
  rw [View.set_slice_whole, Rect.mem_set_unit]
  exact Iff.rfl

/-- The ten row blocks cover the output array: row r lies in block r / 10000. -/
theorem cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, ht⟩ := idx_onto ⟨(i 0).val / 10000, by omega⟩
  have ht' : t.val = (i 0).val / 10000 := ht
  obtain ⟨e00, e01, e10, e11, e20, e21, e30, e40, e41, e50, e51⟩ := idx_facts t
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 32 ≤ (i 1).val ∧ (i 1).val < win1_5.index t (1 : Fin 2) * 32 + 32; omega

/-- The output array after the ten write-backs is the first graph convolution of the region's five input arrays. -/
theorem final (V : (c : Dev nD) → (b : Ref sig .tc) → Buf (Elt Ideal) ((c : Thread nD τ).loc b)) (c : Dev nD) :
    (dat1 (F := Ideal) V c).arrAt 5 cfg1.N
      = Cert.Layers.conv1 (F := Ideal) (V c main_v33) (V c main_v26) (V c main_arg6) (V c main_arg7) (V c main_arg8) := by
  exact (dat1 (F := Ideal) V c).arrAt_eq_of_cover 5
    (Cert.Layers.conv1 (F := Ideal) (V c main_v33) (V c main_v26) (V c main_arg6) (V c main_arg7) (V c main_arg8))
    (fun t _ => flushed_eq V c t) cover

end Cert.Region1

end
-- ==== Proof.Region2.lean ====
/-
  Pallas call 2 (ten row blocks of 10000 nodes): the output array is the second graph convolution (with relu) of its five argument arrays.

  Entry (n, j) of both sides is  max (Σ_k a[n,k]·W_rel[j,k] + b[j] + Σ_k h[n,k]·W_root[j,k]) 0,  the sums over the 32 input
  channels in the same order: on ideal values the body's rounding of its operands is the identity and a product into the
  zero accumulator is the plain sum. Row n = 10000·t + p is row p of block t.
-/
import proofs.«406287_j15865609192043_3_alg».proof.Proof.Gen.KernelIdeal.Frame
import proofs.«406287_j15865609192043_3_alg».proof.Proof.Gen.ReferenceIdeal
import proofs.«406287_j15865609192043_3_alg».proof.Proof.Layers
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.Region2

open Idealize.ShloMosaic Idealize.ShloMosaic.TcCoe Cert.KernelIdeal Cert.KernelIdeal.Gen
open Idealize.ShloMosaic.ValueIdx

/-! ## The contraction index of the block product: its one coordinate runs over the 32 input channels -/

/-- The left operand of the block product is read at the output's row. -/
theorem blockDot_lhs_0 (i : S10000x32.Idx) (q : dot_S10000x32_S32x32_S10000x32_1_0_0_1_n_n.contr.Idx) :
    (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
/-- and at the contraction index as its column; -/
theorem blockDot_lhs_1 (i : S10000x32.Idx) (q : dot_S10000x32_S32x32_S10000x32_1_0_0_1_n_n.contr.Idx) :
    (dot_S10000x32_S32x32_S10000x32_1_0_0_1_n_n.lhsIdx i q 1).val = (q ⟨0, by decide⟩).val :=
  dot_S10000x32_S32x32_S10000x32_1_0_0_1_n_n.lhsIdx_val_of_single rfl i q
/-- the right operand at the contraction index as its row -/
theorem blockDot_rhs_0 (i : S10000x32.Idx) (q : dot_S10000x32_S32x32_S10000x32_1_0_0_1_n_n.contr.Idx) :
    (dot_S10000x32_S32x32_S10000x32_1_0_0_1_n_n.rhsIdx i q 0).val = (q ⟨0, by decide⟩).val :=
  dot_S10000x32_S32x32_S10000x32_1_0_0_1_n_n.rhsIdx_val_of_single rfl i q
/-- and at the output's column. -/
theorem blockDot_rhs_1 (i : S10000x32.Idx) (q : dot_S10000x32_S32x32_S10000x32_1_0_0_1_n_n.contr.Idx) :
    (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- The block product's sum over its contraction index is the sum over the 32 channels: entry `(p, j)` of `x · w`
    is `Σ_k x[p,k] · w[k,j]`. -/
theorem blockDot_sum {φ₁ φ₂ : FTy} (x : FVec Ideal S10000x32 φ₁) (w : FVec Ideal S32x32 φ₂) (p : Fin 10000) (j : Fin 32) :
    (∑ k : dot_S10000x32_S32x32_S10000x32_1_0_0_1_n_n.contr.Idx,
        x (dot_S10000x32_S32x32_S10000x32_1_0_0_1_n_n.lhsIdx (ix2 p j) k) * w (dot_S10000x32_S32x32_S10000x32_1_0_0_1_n_n.rhsIdx (ix2 p j) k))
      = ∑ k : Fin 32, x (ix2 p k) * w (ix2 k j) := by
  rw [← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have el : dot_S10000x32_S32x32_S10000x32_1_0_0_1_n_n.lhsIdx (ix2 p j) ((contrEquiv1 dot_S10000x32_S32x32_S10000x32_1_0_0_1_n_n 32 rfl rfl).symm k) = ix2 p k := funext fun a => Fin.ext (by
    match a with
    | ⟨0, _⟩ => exact blockDot_lhs_0 _ _
    | ⟨1, _⟩ => exact (blockDot_lhs_1 _ _).trans hk)
  have er : dot_S10000x32_S32x32_S10000x32_1_0_0_1_n_n.rhsIdx (ix2 p j) ((contrEquiv1 dot_S10000x32_S32x32_S10000x32_1_0_0_1_n_n 32 rfl rfl).symm k) = ix2 k j := funext fun a => Fin.ext (by
    match a with
    | ⟨0, _⟩ => exact (blockDot_rhs_0 _ _).trans hk
    | ⟨1, _⟩ => exact blockDot_rhs_1 _ _)
  rw [el, er]

/-! ## The same for the whole-array product of the reference -/

theorem arrayDot_lhs_0 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.lhsIdx i q 0).val = (i 0).val := by
  unfold DotDims.lhsIdx
  rw [dif_neg (show ¬(0 : Fin Cert.ReferenceIdeal.S100000x32.rank) ∈ Cert.ReferenceIdeal.dot_S100000x32_S32x32_S100000x32_1_0_0_1_n_n.lhsBatch by decide), dif_pos (show (0 : Fin Cert.ReferenceIdeal.S100000x32.rank) ∈ Cert.ReferenceIdeal.dot_S100000x32_S32x32_S100000x32_1_0_0_1_n_n.lhsNonContracting by decide)]
  rfl
theorem arrayDot_lhs_1 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.lhsIdx i q 1).val = (q ⟨0, by decide⟩).val :=
  Cert.ReferenceIdeal.dot_S100000x32_S32x32_S100000x32_1_0_0_1_n_n.lhsIdx_val_of_single rfl i q
theorem arrayDot_rhs_0 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.rhsIdx i q 0).val = (q ⟨0, by decide⟩).val :=
  Cert.ReferenceIdeal.dot_S100000x32_S32x32_S100000x32_1_0_0_1_n_n.rhsIdx_val_of_single rfl i q
theorem arrayDot_rhs_1 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.rhsIdx i q 1).val = (i 1).val := by
  unfold DotDims.rhsIdx
  rw [dif_neg (show ¬(1 : Fin Cert.ReferenceIdeal.S32x32.rank) ∈ Cert.ReferenceIdeal.dot_S100000x32_S32x32_S100000x32_1_0_0_1_n_n.rhsBatch by decide), dif_pos (show (1 : Fin Cert.ReferenceIdeal.S32x32.rank) ∈ Cert.ReferenceIdeal.dot_S100000x32_S32x32_S100000x32_1_0_0_1_n_n.rhsNonContracting by decide)]
  rfl

/-- Entry `(n, j)` of the whole-array product `x · w` is `Σ_k x[n,k] · w[k,j]`. -/
theorem arrayDot_sum {φ₁ φ₂ : FTy} (x : FVec Ideal Cert.ReferenceIdeal.S100000x32 φ₁) (w : FVec Ideal Cert.ReferenceIdeal.S32x32 φ₂) (n : Fin 100000) (j : Fin 32) :
    (∑ k : Cert.ReferenceIdeal.dot_S100000x32_S32x32_S100000x32_1_0_0_1_n_n.contr.Idx,
        x (Cert.ReferenceIdeal.dot_S100000x32_S32x32_S100000x32_1_0_0_1_n_n.lhsIdx (ix2 n j) k) * w (Cert.ReferenceIdeal.dot_S100000x32_S32x32_S100000x32_1_0_0_1_n_n.rhsIdx (ix2 n j) k))
      = ∑ k : Fin 32, x (ix2 n k) * w (ix2 k j) := by
  rw [← Equiv.sum_comp (contrEquiv1 Cert.ReferenceIdeal.dot_S100000x32_S32x32_S100000x32_1_0_0_1_n_n 32 rfl rfl).symm]
  refine Finset.sum_congr rfl fun k _ => ?_
  have hk := contrEquiv1_symm_val Cert.ReferenceIdeal.dot_S100000x32_S32x32_S100000x32_1_0_0_1_n_n 32 rfl rfl k
  have el : Cert.ReferenceIdeal.dot_S100000x32_S32x32_S100000x32_1_0_0_1_n_n.lhsIdx (ix2 n j) ((contrEquiv1 Cert.ReferenceIdeal.dot_S100000x32_S32x32_S100000x32_1_0_0_1_n_n 32 rfl rfl).symm k) = ix2 n k := funext fun a => Fin.ext (by
    match a with
    | ⟨0, _⟩ => exact arrayDot_lhs_0 _ _
    | ⟨1, _⟩ => exact (arrayDot_lhs_1 _ _).trans hk)
  have er : Cert.ReferenceIdeal.dot_S100000x32_S32x32_S100000x32_1_0_0_1_n_n.rhsIdx (ix2 n j) ((contrEquiv1 Cert.ReferenceIdeal.dot_S100000x32_S32x32_S100000x32_1_0_0_1_n_n 32 rfl rfl).symm k) = ix2 k j := funext fun a => Fin.ext (by
    match a with
    | ⟨0, _⟩ => exact (arrayDot_rhs_0 _ _).trans hk
    | ⟨1, _⟩ => exact arrayDot_rhs_1 _ _)
  rw [el, er]

/-! ## The body's arithmetic at an entry

On ideal values the rounding to the narrow format is the identity, a product into the zero accumulator is the plain
sum over the 32 input channels, and transposes, casts and broadcasts only move indices. -/

/-- One projection of the body: entry `(p, j)` of `x · wᵀ` is `Σ_k x[p,k] · w[j,k]`. -/
theorem blockProj_apply (x : FVec Ideal S10000x32 .f32) (w : FVec Ideal S32x32 .f32)
    (hc : S10000x32.ShapeCasts S10000x32) (hb : FTy.bits .bf16 < FTy.bits .f32) (ht : S32x32.Transposes [1, 0] S32x32)
    (p : Fin 10000) (j : Fin 32) :
    (matmul dot_S10000x32_S32x32_S10000x32_1_0_0_1_n_n none (truncf .bf16 (shapeCast S10000x32 x hc) hb)
        (transpose S32x32 [1, 0] (truncf .bf16 w hb) ht) (constant S10000x32 .f32 0x00000000#32) : FVec Ideal S10000x32 .f32) (ix2 p j)
      = ∑ k : Fin 32, x (ix2 p k) * w (ix2 j k) := by
  refine (Ideal.matmul_constant_zero_apply dot_S10000x32_S32x32_S10000x32_1_0_0_1_n_n none _ _ (ix2 p j)).trans ?_
  refine (blockDot_sum _ _ p j).trans ?_
  refine Finset.sum_congr rfl fun k _ => ?_
  rw [transpose_ix2_apply, shapeCast_self]
  rfl

/-- The bias row spread over the block: entry `(p, j)` is `b[j]`. -/
theorem blockBias_apply (b : FVec Ideal S32 .f32) (hc : S32.ShapeCasts S1x32) (hb : S1x32.Broadcasts S10000x32)
    (p : Fin 10000) (j : Fin 32) :
    broadcastTo S10000x32 (shapeCast S1x32 b hc) hb (ix2 p j) = b (ix1 j) := by
  rw [broadcastTo_1b_ab_apply, shapeCast_a_1a_apply]

/-- Entry `(p, j)` of what the body stores: `max (Σ_k x0[p,k]·w[j,k] + b[j] + Σ_k x1[p,k]·w'[j,k]) 0`. -/
theorem pay_apply (x0 x1 : FVec Ideal S10000x32 .f32) (w w' : FVec Ideal S32x32 .f32) (b : FVec Ideal S32 .f32)
    (p : Fin 10000) (j : Fin 32) :
    k2_pay1 (F := Ideal) x0 x1 w w' b (ix2 p j)
      = max (((∑ k : Fin 32, x0 (ix2 p k) * w (ix2 j k)) + b (ix1 j)) + ∑ k : Fin 32, x1 (ix2 p k) * w' (ix2 j k))
          (Ideal.ofBits .f32 0x00000000#32) := by
  unfold k2_pay1
  dsimp only
  rw [maximumf_apply, addf_apply, addf_apply, blockProj_apply, blockProj_apply, blockBias_apply]
  rfl

/-! ## The reference layer at an entry -/

/-- One projection of the layer: entry `(n, j)` of `x · wᵀ` is `Σ_k x[n,k] · w[j,k]`. -/
theorem arrayProj_apply (x : FVec Ideal Cert.ReferenceIdeal.S100000x32 .f32) (w : FVec Ideal Cert.ReferenceIdeal.S32x32 .f32)
    (ht : Cert.ReferenceIdeal.S32x32.Transposes [1, 0] Cert.ReferenceIdeal.S32x32) (n : Fin 100000) (j : Fin 32) :
    (Host.dotGeneral Cert.ReferenceIdeal.dot_S100000x32_S32x32_S100000x32_1_0_0_1_n_n none x
        (transpose Cert.ReferenceIdeal.S32x32 [1, 0] w ht) : FVec Ideal Cert.ReferenceIdeal.S100000x32 .f32) (ix2 n j)
      = ∑ k : Fin 32, x (ix2 n k) * w (ix2 j k) := by
  refine (Ideal.dotGeneral_apply Cert.ReferenceIdeal.dot_S100000x32_S32x32_S100000x32_1_0_0_1_n_n none .single _ _ (ix2 n j)).trans ?_
  refine (arrayDot_sum _ _ n j).trans ?_
  refine Finset.sum_congr rfl fun k _ => ?_
  rw [transpose_ix2_apply]

/-- The bias row spread over the array: entry `(n, j)` is `b[j]`. -/
theorem arrayBias_apply (b : FVec Ideal Cert.ReferenceIdeal.S32 .f32)
    (h1 : Cert.ReferenceIdeal.S32.BroadcastsInDim Cert.ReferenceIdeal.S1x32 (![1] : Fin 1 → Fin Cert.ReferenceIdeal.S1x32.rank))
    (h2 : Cert.ReferenceIdeal.S1x32.BroadcastsInDim Cert.ReferenceIdeal.S100000x32 (![0, 1] : Fin 2 → Fin Cert.ReferenceIdeal.S100000x32.rank))
    (n : Fin 100000) (j : Fin 32) :
    broadcastInDim Cert.ReferenceIdeal.S100000x32 ![0, 1] h2 (broadcastInDim Cert.ReferenceIdeal.S1x32 ![1] h1 b) (ix2 n j) = b (ix1 j) := by
  refine (broadcastInDim_apply _ h2 _ (ix2 n j) (ix2 (0 : Fin 1) j) fun a => ?_).trans
    (broadcastInDim_apply _ h1 b (ix2 (0 : Fin 1) j) (ix1 j) fun a => ?_)
  · match a with
    | ⟨0, _⟩ => show 0 = if (1 : Nat) = 1 then 0 else n.val; rw [if_pos rfl]
    | ⟨1, _⟩ => show j.val = if (32 : Nat) = 1 then 0 else j.val; rw [if_neg (by decide)]
  · match a with
    | ⟨0, _⟩ => show j.val = if (32 : Nat) = 1 then 0 else j.val; rw [if_neg (by decide)]

/-- Entry `(n, j)` of the layer without its activation. -/
theorem conv3_apply (A H : FVec Ideal Cert.ReferenceIdeal.S100000x32 .f32) (Wrel : FVec Ideal Cert.ReferenceIdeal.S32x32 .f32)
    (b : FVec Ideal Cert.ReferenceIdeal.S32 .f32) (Wroot : FVec Ideal Cert.ReferenceIdeal.S32x32 .f32) (n : Fin 100000) (j : Fin 32) :
    Cert.Layers.conv3 (F := Ideal) A H Wrel b Wroot (ix2 n j)
      = ((∑ k : Fin 32, A (ix2 n k) * Wrel (ix2 j k)) + b (ix1 j)) + ∑ k : Fin 32, H (ix2 n k) * Wroot (ix2 j k) := by
  unfold Cert.Layers.conv3
  rw [addf_apply, addf_apply, arrayProj_apply, arrayProj_apply, arrayBias_apply]

/-- Entry `(n, j)` of the layer: the same under `max · 0`. -/
theorem conv2_apply (A H : FVec Ideal Cert.ReferenceIdeal.S100000x32 .f32) (Wrel : FVec Ideal Cert.ReferenceIdeal.S32x32 .f32)
    (b : FVec Ideal Cert.ReferenceIdeal.S32 .f32) (Wroot : FVec Ideal Cert.ReferenceIdeal.S32x32 .f32) (n : Fin 100000) (j : Fin 32) :
    Cert.Layers.conv2 (F := Ideal) A H Wrel b Wroot (ix2 n j)
      = max (((∑ k : Fin 32, A (ix2 n k) * Wrel (ix2 j k)) + b (ix1 j)) + ∑ k : Fin 32, H (ix2 n k) * Wroot (ix2 j k))
          (Ideal.ofBits .f32 0x00000000#32) := by
  unfold Cert.Layers.conv2
  rw [maximumf_apply, conv3_apply]
  rfl

/-- A point of the block against a point of the array: where the block's rows are the array's rows `n` and the small
    operands are the whole arrays, the body's entry `(p, j)` is the layer's entry `(n, j)`. -/
theorem point_eq (A H : FVec Ideal Cert.ReferenceIdeal.S100000x32 .f32) (Wrel : FVec Ideal Cert.ReferenceIdeal.S32x32 .f32)
    (b : FVec Ideal Cert.ReferenceIdeal.S32 .f32) (Wroot : FVec Ideal Cert.ReferenceIdeal.S32x32 .f32)
    (x0 x1 : FVec Ideal S10000x32 .f32) (x2 : FVec Ideal S32x32 .f32) (x3 : FVec Ideal S32 .f32) (x4 : FVec Ideal S32x32 .f32)
    (p : Fin 10000) (j : Fin 32) (n : Fin 100000)
    (h0 : ∀ k : Fin 32, x0 (ix2 p k) = A (ix2 n k)) (h1 : ∀ k : Fin 32, x1 (ix2 p k) = H (ix2 n k))
    (h2 : ∀ a k : Fin 32, x2 (ix2 a k) = Wrel (ix2 a k)) (h3 : ∀ a : Fin 32, x3 (ix1 a) = b (ix1 a))
    (h4 : ∀ a k : Fin 32, x4 (ix2 a k) = Wroot (ix2 a k)) :
    k2_pay1 (F := Ideal) x0 x1 x2 x4 x3 (ix2 p j) = Cert.Layers.conv2 (F := Ideal) A H Wrel b Wroot (ix2 n j) := by
  rw [pay_apply, conv2_apply]
  simp only [h0, h1, h2, h3, h4]

/-! ## From the blocks to the array

Ten grid points; point `t` reads rows `10000·t … 10000·t + 9999` of the two node arrays, the three small operands whole,
and writes the same rows of the output. -/

theorem zeros2 : (![0, 0] : Fin 2 → Nat) = fun _ => 0 := funext fun a => by fin_cases a <;> rfl
theorem zeros1 : (![0] : Fin 1 → Nat) = fun _ => 0 := funext fun a => by fin_cases a <;> rfl

/-- The block index maps over the grid: the node arrays and the output at block row `t`, the small operands at block 0. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the layer of the region's input arrays. -/
theorem flushed_eq (V : (c : Dev nD) → (b : Ref sig .tc) → Buf (Elt Ideal) ((c : Thread nD τ).loc b)) (c : Dev nD) (t : Fin cfg2.N) :
    (dat2 (F := Ideal) V c).flushed 5 t
      = ((cfg2.win 5).blk t).view.read (Elt Ideal)
          (Cert.Layers.conv2 (F := Ideal) (V c main_v41) (V c main_v34) (V c main_arg9) (V c main_arg10) (V c main_arg11)) := by
  show (cfg2.win 5).cut (grid2.coords t) ((dat2 V c).after 5 t) = _
  rw [after2_5]
  unfold out2_5
  rw [View.canon_unit_zero zeros2]
  simp only [View.ld_unit_zero (S := S10000x32) zeros2, View.ld_unit_zero (S := S32x32) zeros2, View.ld_unit_zero (S := S32) zeros1]
  obtain ⟨e00, e01, e10, e11, e20, e21, e30, e40, e41, e50, e51⟩ := index_facts t
  have ht : t.val < 10 := lt_of_lt_of_eq t.isLt N_2
  funext y
  obtain ⟨p, j, rfl⟩ : ∃ (p : Fin 10000) (j : Fin 32), y = ix2 p j := ⟨y 0, y 1, eq_ix2 y⟩
  have hn : t.val * 10000 + p.val < 100000 := by have := p.isLt; omega
  show k2_pay1 (F := Ideal) (iblk2 V c 0 t) (iblk2 V c 1 t) (iblk2 V c 2 t) (iblk2 V c 4 t) (iblk2 V c 3 t) (ix2 p j)
      = Cert.Layers.conv2 (F := Ideal) (V c main_v41) (V c main_v34) (V c main_arg9) (V c main_arg10) (V c main_arg11)
          (((cfg2.win 5).blk t).view.emb (ix2 p j))
  have hemb : ((cfg2.win 5).blk t).view.emb (ix2 p j) = ix2 (⟨t.val * 10000 + p.val, hn⟩ : Fin 100000) j := by
    funext a; apply Fin.ext
    match a with
    | ⟨0, _⟩ => show win2_5.index t (0 : Fin 2) * 10000 + 1 * p.val = t.val * 10000 + p.val; omega
    | ⟨1, _⟩ => show win2_5.index t (1 : Fin 2) * 32 + 1 * j.val = j.val; omega
  rw [hemb]
  refine point_eq (V c main_v41) (V c main_v34) (V c main_arg9) (V c main_arg10) (V c main_arg11)
    (iblk2 V c 0 t) (iblk2 V c 1 t) (iblk2 V c 2 t) (iblk2 V c 3 t) (iblk2 V c 4 t) p j ⟨t.val * 10000 + p.val, hn⟩ ?_ ?_ ?_ ?_ ?_
  · intro k
    show V c main_v41 (((cfg2.win 0).blk t).view.emb (ix2 p k)) = V c main_v41 (ix2 (⟨t.val * 10000 + p.val, hn⟩ : Fin 100000) k)
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 32 + 1 * k.val = k.val; omega
  · intro k
    show V c main_v34 (((cfg2.win 1).blk t).view.emb (ix2 p k)) = V c main_v34 (ix2 (⟨t.val * 10000 + p.val, hn⟩ : Fin 100000) k)
    refine congrArg _ (funext fun a => Fin.ext ?_)
    match a with
    | ⟨0, _⟩ => show win2_1.index t (0 : Fin 2) * 10000 + 1 * p.val = t.val * 10000 + p.val; omega
    | ⟨1, _⟩ => show win2_1.index t (1 : Fin 2) * 32 + 1 * k.val = k.val; omega
  · intro a k
    show V c main_arg9 (((cfg2.win 2).blk t).view.emb (ix2 a k)) = V c main_arg9 (ix2 a k)
    refine congrArg _ (funext fun d => Fin.ext ?_)
    match d with
    | ⟨0, _⟩ => show win2_2.index t (0 : Fin 2) * 32 + 1 * a.val = a.val; omega
    | ⟨1, _⟩ => show win2_2.index t (1 : Fin 2) * 32 + 1 * k.val = k.val; omega
  · intro a
    show V c main_arg10 (((cfg2.win 3).blk t).view.emb (ix1 a)) = V c main_arg10 (ix1 a)
    refine congrArg _ (funext fun d => Fin.ext ?_)
    match d with
    | ⟨0, _⟩ => show win2_3.index t (0 : Fin 1) * 32 + 1 * a.val = a.val; omega
  · intro a k
    show V c main_arg11 (((cfg2.win 4).blk t).view.emb (ix2 a k)) = V c main_arg11 (ix2 a k)
    refine congrArg _ (funext fun d => Fin.ext ?_)
    match d with
    | ⟨0, _⟩ => show win2_4.index t (0 : Fin 2) * 32 + 1 * a.val = a.val; omega
    | ⟨1, _⟩ => show win2_4.index t (1 : Fin 2) * 32 + 1 * k.val = k.val; omega

/-- An index of the output array is in point `t`'s block iff each coordinate is in the block's range on its axis. -/
theorem mem_blk (t : Fin cfg2.N) (i : S100000x32.Idx) :
    i ∈ ((cfg2.win 5).blk t).view.set ↔ ∀ a : Fin 2, win2_5.index t a * S10000x32.size a ≤ (i a).val ∧ (i a).val < win2_5.index t a * S10000x32.size a + S10000x32.size a := by
  show i ∈ ((View.whole main_v42).slice (win2_5.rect t)).set ↔ _
  rw [View.set_slice_whole, Rect.mem_set_unit]
  exact Iff.rfl

/-- Row `r` of the output lies in the block of point `r / 10000`: the ten blocks cover the array. -/
theorem cover (i : S100000x32.Idx) :
    ∃ t : Fin cfg2.N, (cfg2.win 5).flush t = true ∧ i ∈ ((cfg2.win 5).blk t).view.set := by
  have hi0 : (i 0).val < 100000 := (i 0).isLt
  have hi1 : (i 1).val < 32 := (i 1).isLt
  have hq : (i 0).val / 10000 < cfg2.N := lt_of_lt_of_eq (show (i 0).val / 10000 < 10 by omega) N_2.symm
  obtain ⟨-, -, -, -, -, -, -, -, -, e50, e51⟩ := index_facts ⟨(i 0).val / 10000, hq⟩
  refine ⟨⟨(i 0).val / 10000, hq⟩, flush2_5 _, ?_⟩
  rw [mem_blk]
  intro a
  match a with
  | ⟨0, _⟩ =>
    show win2_5.index ⟨(i 0).val / 10000, hq⟩ (0 : Fin 2) * 10000 ≤ (i 0).val ∧ (i 0).val < win2_5.index ⟨(i 0).val / 10000, hq⟩ (0 : Fin 2) * 10000 + 10000
    have e : win2_5.index ⟨(i 0).val / 10000, hq⟩ (0 : Fin 2) = (i 0).val / 10000 := e50
    omega
  | ⟨1, _⟩ =>
    show win2_5.index ⟨(i 0).val / 10000, hq⟩ (1 : Fin 2) * 32 ≤ (i 1).val ∧ (i 1).val < win2_5.index ⟨(i 0).val / 10000, hq⟩ (1 : Fin 2) * 32 + 32
    omega

/-- After all ten points have written back, the output array is the layer of the region's input arrays. -/
theorem final (V : (c : Dev nD) → (b : Ref sig .tc) → Buf (Elt Ideal) ((c : Thread nD τ).loc b)) (c : Dev nD) :
    (dat2 (F := Ideal) V c).arrAt 5 cfg2.N
      = Cert.Layers.conv2 (F := Ideal) (V c main_v41) (V c main_v34) (V c main_arg9) (V c main_arg10) (V c main_arg11) :=
  (dat2 (F := Ideal) V c).arrAt_eq_of_cover 5 _ (fun t _ => flushed_eq V c t) cover

end Cert.Region2

end
-- ==== Proof.Region3.lean ====
/-
  Pallas call 3 (ten row blocks of 10000 nodes): the output array is the third graph convolution (no activation) of its five argument arrays.

  Entry (n, j) of both sides is  Σ_k a[n,k]·W_rel[j,k] + b[j] + Σ_k h[n,k]·W_root[j,k],  the sums over the 32 input channels in
  the same order: on ideal values the body's rounding of its operands is the identity and a product into the zero
  accumulator is the plain sum. Row n = 10000·t + p is row p of block t.
-/
import proofs.«406287_j15865609192043_3_alg».proof.Proof.Gen.KernelIdeal.Frame
import proofs.«406287_j15865609192043_3_alg».proof.Proof.Gen.ReferenceIdeal
import proofs.«406287_j15865609192043_3_alg».proof.Proof.Layers
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.Region3

open Idealize.ShloMosaic Idealize.ShloMosaic.TcCoe Cert.KernelIdeal Cert.KernelIdeal.Gen
open Idealize.ShloMosaic.ValueIdx

/-! ## The contraction index of the block product: its one coordinate runs over the 32 input channels -/

/-- The left operand of the block product is read at the output's row -/
theorem blockDot_lhs_0 (i : S10000x32.Idx) (q : dot_S10000x32_S32x32_S10000x32_1_0_0_1_n_n.contr.Idx) :
    (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
/-- and at the contraction index as its column; -/
theorem blockDot_lhs_1 (i : S10000x32.Idx) (q : dot_S10000x32_S32x32_S10000x32_1_0_0_1_n_n.contr.Idx) :
    (dot_S10000x32_S32x32_S10000x32_1_0_0_1_n_n.lhsIdx i q 1).val = (q ⟨0, by decide⟩).val :=
  dot_S10000x32_S32x32_S10000x32_1_0_0_1_n_n.lhsIdx_val_of_single rfl i q
/-- the right operand at the contraction index as its row -/
theorem blockDot_rhs_0 (i : S10000x32.Idx) (q : dot_S10000x32_S32x32_S10000x32_1_0_0_1_n_n.contr.Idx) :
    (dot_S10000x32_S32x32_S10000x32_1_0_0_1_n_n.rhsIdx i q 0).val = (q ⟨0, by decide⟩).val :=
  dot_S10000x32_S32x32_S10000x32_1_0_0_1_n_n.rhsIdx_val_of_single rfl i q
/-- and at the output's column. -/
theorem blockDot_rhs_1 (i : S10000x32.Idx) (q : dot_S10000x32_S32x32_S10000x32_1_0_0_1_n_n.contr.Idx) :
    (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- The block product's sum over its contraction index is the sum over the 32 channels: entry `(p, j)` of `x · w`
    is `Σ_k x[p,k] · w[k,j]`. -/
theorem blockDot_sum {φ₁ φ₂ : FTy} (x : FVec Ideal S10000x32 φ₁) (w : FVec Ideal S32x32 φ₂) (p : Fin 10000) (j : Fin 32) :
    (∑ k : dot_S10000x32_S32x32_S10000x32_1_0_0_1_n_n.contr.Idx,
        x (dot_S10000x32_S32x32_S10000x32_1_0_0_1_n_n.lhsIdx (ix2 p j) k) * w (dot_S10000x32_S32x32_S10000x32_1_0_0_1_n_n.rhsIdx (ix2 p j) k))
      = ∑ k : Fin 32, x (ix2 p k) * w (ix2 k j) := by
  rw [← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have el : dot_S10000x32_S32x32_S10000x32_1_0_0_1_n_n.lhsIdx (ix2 p j) ((contrEquiv1 dot_S10000x32_S32x32_S10000x32_1_0_0_1_n_n 32 rfl rfl).symm k) = ix2 p k := funext fun a => Fin.ext (by
    match a with
    | ⟨0, _⟩ => exact blockDot_lhs_0 _ _
    | ⟨1, _⟩ => exact (blockDot_lhs_1 _ _).trans hk)
  have er : dot_S10000x32_S32x32_S10000x32_1_0_0_1_n_n.rhsIdx (ix2 p j) ((contrEquiv1 dot_S10000x32_S32x32_S10000x32_1_0_0_1_n_n 32 rfl rfl).symm k) = ix2 k j := funext fun a => Fin.ext (by
    match a with
    | ⟨0, _⟩ => exact (blockDot_rhs_0 _ _).trans hk
    | ⟨1, _⟩ => exact blockDot_rhs_1 _ _)
  rw [el, er]

/-! ## The same for the whole-array product of the reference -/

theorem arrayDot_lhs_0 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.lhsIdx i q 0).val = (i 0).val := by
  unfold DotDims.lhsIdx
  rw [dif_neg (show ¬(0 : Fin Cert.ReferenceIdeal.S100000x32.rank) ∈ Cert.ReferenceIdeal.dot_S100000x32_S32x32_S100000x32_1_0_0_1_n_n.lhsBatch by decide), dif_pos (show (0 : Fin Cert.ReferenceIdeal.S100000x32.rank) ∈ Cert.ReferenceIdeal.dot_S100000x32_S32x32_S100000x32_1_0_0_1_n_n.lhsNonContracting by decide)]
  rfl
theorem arrayDot_lhs_1 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.lhsIdx i q 1).val = (q ⟨0, by decide⟩).val :=
  Cert.ReferenceIdeal.dot_S100000x32_S32x32_S100000x32_1_0_0_1_n_n.lhsIdx_val_of_single rfl i q
theorem arrayDot_rhs_0 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.rhsIdx i q 0).val = (q ⟨0, by decide⟩).val :=
  Cert.ReferenceIdeal.dot_S100000x32_S32x32_S100000x32_1_0_0_1_n_n.rhsIdx_val_of_single rfl i q
theorem arrayDot_rhs_1 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.rhsIdx i q 1).val = (i 1).val := by
  unfold DotDims.rhsIdx
  rw [dif_neg (show ¬(1 : Fin Cert.ReferenceIdeal.S32x32.rank) ∈ Cert.ReferenceIdeal.dot_S100000x32_S32x32_S100000x32_1_0_0_1_n_n.rhsBatch by decide), dif_pos (show (1 : Fin Cert.ReferenceIdeal.S32x32.rank) ∈ Cert.ReferenceIdeal.dot_S100000x32_S32x32_S100000x32_1_0_0_1_n_n.rhsNonContracting by decide)]
  rfl

/-- Entry `(n, j)` of the whole-array product `x · w` is `Σ_k x[n,k] · w[k,j]`. -/
theorem arrayDot_sum {φ₁ φ₂ : FTy} (x : FVec Ideal Cert.ReferenceIdeal.S100000x32 φ₁) (w : FVec Ideal Cert.ReferenceIdeal.S32x32 φ₂) (n : Fin 100000) (j : Fin 32) :
    (∑ k : Cert.ReferenceIdeal.dot_S100000x32_S32x32_S100000x32_1_0_0_1_n_n.contr.Idx,
        x (Cert.ReferenceIdeal.dot_S100000x32_S32x32_S100000x32_1_0_0_1_n_n.lhsIdx (ix2 n j) k) * w (Cert.ReferenceIdeal.dot_S100000x32_S32x32_S100000x32_1_0_0_1_n_n.rhsIdx (ix2 n j) k))
      = ∑ k : Fin 32, x (ix2 n k) * w (ix2 k j) := by
  rw [← Equiv.sum_comp (contrEquiv1 Cert.ReferenceIdeal.dot_S100000x32_S32x32_S100000x32_1_0_0_1_n_n 32 rfl rfl).symm]
  refine Finset.sum_congr rfl fun k _ => ?_
  have hk := contrEquiv1_symm_val Cert.ReferenceIdeal.dot_S100000x32_S32x32_S100000x32_1_0_0_1_n_n 32 rfl rfl k
  have el : Cert.ReferenceIdeal.dot_S100000x32_S32x32_S100000x32_1_0_0_1_n_n.lhsIdx (ix2 n j) ((contrEquiv1 Cert.ReferenceIdeal.dot_S100000x32_S32x32_S100000x32_1_0_0_1_n_n 32 rfl rfl).symm k) = ix2 n k := funext fun a => Fin.ext (by
    match a with
    | ⟨0, _⟩ => exact arrayDot_lhs_0 _ _
    | ⟨1, _⟩ => exact (arrayDot_lhs_1 _ _).trans hk)
  have er : Cert.ReferenceIdeal.dot_S100000x32_S32x32_S100000x32_1_0_0_1_n_n.rhsIdx (ix2 n j) ((contrEquiv1 Cert.ReferenceIdeal.dot_S100000x32_S32x32_S100000x32_1_0_0_1_n_n 32 rfl rfl).symm k) = ix2 k j := funext fun a => Fin.ext (by
    match a with
    | ⟨0, _⟩ => exact (arrayDot_rhs_0 _ _).trans hk
    | ⟨1, _⟩ => exact arrayDot_rhs_1 _ _)
  rw [el, er]

/-! ## The body's arithmetic at an entry

On ideal values the rounding to the narrow format is the identity, a product into the zero accumulator is the plain
sum over the 32 input channels, and transposes, casts and broadcasts only move indices. -/

/-- One projection of the body: entry `(p, j)` of `x · wᵀ` is `Σ_k x[p,k] · w[j,k]`. -/
theorem blockProj_apply (x : FVec Ideal S10000x32 .f32) (w : FVec Ideal S32x32 .f32)
    (hc : S10000x32.ShapeCasts S10000x32) (hb : FTy.bits .bf16 < FTy.bits .f32) (ht : S32x32.Transposes [1, 0] S32x32)
    (p : Fin 10000) (j : Fin 32) :
    (matmul dot_S10000x32_S32x32_S10000x32_1_0_0_1_n_n none (truncf .bf16 (shapeCast S10000x32 x hc) hb)
        (transpose S32x32 [1, 0] (truncf .bf16 w hb) ht) (constant S10000x32 .f32 0x00000000#32) : FVec Ideal S10000x32 .f32) (ix2 p j)
      = ∑ k : Fin 32, x (ix2 p k) * w (ix2 j k) := by
  refine (Ideal.matmul_constant_zero_apply dot_S10000x32_S32x32_S10000x32_1_0_0_1_n_n none _ _ (ix2 p j)).trans ?_
  refine (blockDot_sum _ _ p j).trans ?_
  refine Finset.sum_congr rfl fun k _ => ?_
  rw [transpose_ix2_apply, shapeCast_self]
  rfl

/-- The bias row spread over the block: entry `(p, j)` is `b[j]`. -/
theorem blockBias_apply (b : FVec Ideal S32 .f32) (hc : S32.ShapeCasts S1x32) (hb : S1x32.Broadcasts S10000x32)
    (p : Fin 10000) (j : Fin 32) :
    broadcastTo S10000x32 (shapeCast S1x32 b hc) hb (ix2 p j) = b (ix1 j) := by
  rw [broadcastTo_1b_ab_apply, shapeCast_a_1a_apply]

/-- Entry `(p, j)` of what the body stores: `Σ_k x0[p,k]·w[j,k] + b[j] + Σ_k x1[p,k]·w'[j,k]`, with no activation. -/
theorem pay_apply (x0 x1 : FVec Ideal S10000x32 .f32) (w w' : FVec Ideal S32x32 .f32) (b : FVec Ideal S32 .f32)
    (p : Fin 10000) (j : Fin 32) :
    k3_pay1 (F := Ideal) x0 x1 w w' b (ix2 p j)
      = ((∑ k : Fin 32, x0 (ix2 p k) * w (ix2 j k)) + b (ix1 j)) + ∑ k : Fin 32, x1 (ix2 p k) * w' (ix2 j k) := by
  unfold k3_pay1
  dsimp only
  rw [addf_apply, addf_apply, blockProj_apply, blockProj_apply, blockBias_apply]

/-! ## The reference layer at an entry -/

/-- One projection of the layer: entry `(n, j)` of `x · wᵀ` is `Σ_k x[n,k] · w[j,k]`. -/
theorem arrayProj_apply (x : FVec Ideal Cert.ReferenceIdeal.S100000x32 .f32) (w : FVec Ideal Cert.ReferenceIdeal.S32x32 .f32)
    (ht : Cert.ReferenceIdeal.S32x32.Transposes [1, 0] Cert.ReferenceIdeal.S32x32) (n : Fin 100000) (j : Fin 32) :
    (Host.dotGeneral Cert.ReferenceIdeal.dot_S100000x32_S32x32_S100000x32_1_0_0_1_n_n none x
        (transpose Cert.ReferenceIdeal.S32x32 [1, 0] w ht) : FVec Ideal Cert.ReferenceIdeal.S100000x32 .f32) (ix2 n j)
      = ∑ k : Fin 32, x (ix2 n k) * w (ix2 j k) := by
  refine (Ideal.dotGeneral_apply Cert.ReferenceIdeal.dot_S100000x32_S32x32_S100000x32_1_0_0_1_n_n none .single _ _ (ix2 n j)).trans ?_
  refine (arrayDot_sum _ _ n j).trans ?_
  refine Finset.sum_congr rfl fun k _ => ?_
  rw [transpose_ix2_apply]

/-- The bias row spread over the array: entry `(n, j)` is `b[j]`. -/
theorem arrayBias_apply (b : FVec Ideal Cert.ReferenceIdeal.S32 .f32)
    (h1 : Cert.ReferenceIdeal.S32.BroadcastsInDim Cert.ReferenceIdeal.S1x32 (![1] : Fin 1 → Fin Cert.ReferenceIdeal.S1x32.rank))
    (h2 : Cert.ReferenceIdeal.S1x32.BroadcastsInDim Cert.ReferenceIdeal.S100000x32 (![0, 1] : Fin 2 → Fin Cert.ReferenceIdeal.S100000x32.rank))
    (n : Fin 100000) (j : Fin 32) :
    broadcastInDim Cert.ReferenceIdeal.S100000x32 ![0, 1] h2 (broadcastInDim Cert.ReferenceIdeal.S1x32 ![1] h1 b) (ix2 n j) = b (ix1 j) := by
  refine (broadcastInDim_apply _ h2 _ (ix2 n j) (ix2 (0 : Fin 1) j) fun a => ?_).trans
    (broadcastInDim_apply _ h1 b (ix2 (0 : Fin 1) j) (ix1 j) fun a => ?_)
  · match a with
    | ⟨0, _⟩ => show 0 = if (1 : Nat) = 1 then 0 else n.val; rw [if_pos rfl]
    | ⟨1, _⟩ => show j.val = if (32 : Nat) = 1 then 0 else j.val; rw [if_neg (by decide)]
  · match a with
    | ⟨0, _⟩ => show j.val = if (32 : Nat) = 1 then 0 else j.val; rw [if_neg (by decide)]

/-- Entry `(n, j)` of the layer. -/
theorem conv3_apply (A H : FVec Ideal Cert.ReferenceIdeal.S100000x32 .f32) (Wrel : FVec Ideal Cert.ReferenceIdeal.S32x32 .f32)
    (b : FVec Ideal Cert.ReferenceIdeal.S32 .f32) (Wroot : FVec Ideal Cert.ReferenceIdeal.S32x32 .f32) (n : Fin 100000) (j : Fin 32) :
    Cert.Layers.conv3 (F := Ideal) A H Wrel b Wroot (ix2 n j)
      = ((∑ k : Fin 32, A (ix2 n k) * Wrel (ix2 j k)) + b (ix1 j)) + ∑ k : Fin 32, H (ix2 n k) * Wroot (ix2 j k) := by
  unfold Cert.Layers.conv3
  rw [addf_apply, addf_apply, arrayProj_apply, arrayProj_apply, arrayBias_apply]

/-- A point of the block against a point of the array: where the block's rows are the array's rows `n` and the small
    operands are the whole arrays, the body's entry `(p, j)` is the layer's entry `(n, j)`. -/
theorem point_eq (A H : FVec Ideal Cert.ReferenceIdeal.S100000x32 .f32) (Wrel : FVec Ideal Cert.ReferenceIdeal.S32x32 .f32)
    (b : FVec Ideal Cert.ReferenceIdeal.S32 .f32) (Wroot : FVec Ideal Cert.ReferenceIdeal.S32x32 .f32)
    (x0 x1 : FVec Ideal S10000x32 .f32) (x2 : FVec Ideal S32x32 .f32) (x3 : FVec Ideal S32 .f32) (x4 : FVec Ideal S32x32 .f32)
    (p : Fin 10000) (j : Fin 32) (n : Fin 100000)
    (h0 : ∀ k : Fin 32, x0 (ix2 p k) = A (ix2 n k)) (h1 : ∀ k : Fin 32, x1 (ix2 p k) = H (ix2 n k))
    (h2 : ∀ a k : Fin 32, x2 (ix2 a k) = Wrel (ix2 a k)) (h3 : ∀ a : Fin 32, x3 (ix1 a) = b (ix1 a))
    (h4 : ∀ a k : Fin 32, x4 (ix2 a k) = Wroot (ix2 a k)) :
    k3_pay1 (F := Ideal) x0 x1 x2 x4 x3 (ix2 p j) = Cert.Layers.conv3 (F := Ideal) A H Wrel b Wroot (ix2 n j) := by
  rw [pay_apply, conv3_apply]
  simp only [h0, h1, h2, h3, h4]

/-! ## From the blocks to the array

Ten grid points; point `t` reads rows `10000·t … 10000·t + 9999` of the two node arrays, the three small operands whole,
and writes the same rows of the output. -/

theorem zeros2 : (![0, 0] : Fin 2 → Nat) = fun _ => 0 := funext fun a => by fin_cases a <;> rfl
theorem zeros1 : (![0] : Fin 1 → Nat) = fun _ => 0 := funext fun a => by fin_cases a <;> rfl

/-- The block index maps over the grid: the node arrays and the output at block row `t`, the small operands at block 0. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is block `t` of the layer of the region's input arrays. -/
theorem flushed_eq (V : (c : Dev nD) → (b : Ref sig .tc) → Buf (Elt Ideal) ((c : Thread nD τ).loc b)) (c : Dev nD) (t : Fin cfg3.N) :
    (dat3 (F := Ideal) V c).flushed 5 t
      = ((cfg3.win 5).blk t).view.read (Elt Ideal)
          (Cert.Layers.conv3 (F := Ideal) (V c main_v49) (V c main_v42) (V c main_arg12) (V c main_arg13) (V c main_arg14)) := by
  show (cfg3.win 5).cut (grid3.coords t) ((dat3 V c).after 5 t) = _
  rw [after3_5]
  unfold out3_5
  rw [View.canon_unit_zero zeros2]
  simp only [View.ld_unit_zero (S := S10000x32) zeros2, View.ld_unit_zero (S := S32x32) zeros2, View.ld_unit_zero (S := S32) zeros1]
  obtain ⟨e00, e01, e10, e11, e20, e21, e30, e40, e41, e50, e51⟩ := index_facts t
  have ht : t.val < 10 := lt_of_lt_of_eq t.isLt N_3
  funext y
  obtain ⟨p, j, rfl⟩ : ∃ (p : Fin 10000) (j : Fin 32), y = ix2 p j := ⟨y 0, y 1, eq_ix2 y⟩
  have hn : t.val * 10000 + p.val < 100000 := by have := p.isLt; omega
  show k3_pay1 (F := Ideal) (iblk3 V c 0 t) (iblk3 V c 1 t) (iblk3 V c 2 t) (iblk3 V c 4 t) (iblk3 V c 3 t) (ix2 p j)
      = Cert.Layers.conv3 (F := Ideal) (V c main_v49) (V c main_v42) (V c main_arg12) (V c main_arg13) (V c main_arg14)
          (((cfg3.win 5).blk t).view.emb (ix2 p j))
  have hemb : ((cfg3.win 5).blk t).view.emb (ix2 p j) = ix2 (⟨t.val * 10000 + p.val, hn⟩ : Fin 100000) j := by
    funext a; apply Fin.ext
    match a with
    | ⟨0, _⟩ => show win3_5.index t (0 : Fin 2) * 10000 + 1 * p.val = t.val * 10000 + p.val; omega
    | ⟨1, _⟩ => show win3_5.index t (1 : Fin 2) * 32 + 1 * j.val = j.val; omega
  rw [hemb]
  refine point_eq (V c main_v49) (V c main_v42) (V c main_arg12) (V c main_arg13) (V c main_arg14)
    (iblk3 V c 0 t) (iblk3 V c 1 t) (iblk3 V c 2 t) (iblk3 V c 3 t) (iblk3 V c 4 t) p j ⟨t.val * 10000 + p.val, hn⟩ ?_ ?_ ?_ ?_ ?_
  · intro k
    show V c main_v49 (((cfg3.win 0).blk t).view.emb (ix2 p k)) = V c main_v49 (ix2 (⟨t.val * 10000 + p.val, hn⟩ : Fin 100000) k)
    refine congrArg _ (funext fun a => Fin.ext ?_)
    match a with
    | ⟨0, _⟩ => show win3_0.index t (0 : Fin 2) * 10000 + 1 * p.val = t.val * 10000 + p.val; omega
    | ⟨1, _⟩ => show win3_0.index t (1 : Fin 2) * 32 + 1 * k.val = k.val; omega
  · intro k
    show V c main_v42 (((cfg3.win 1).blk t).view.emb (ix2 p k)) = V c main_v42 (ix2 (⟨t.val * 10000 + p.val, hn⟩ : Fin 100000) k)
    refine congrArg _ (funext fun a => Fin.ext ?_)
    match a with
    | ⟨0, _⟩ => show win3_1.index t (0 : Fin 2) * 10000 + 1 * p.val = t.val * 10000 + p.val; omega
    | ⟨1, _⟩ => show win3_1.index t (1 : Fin 2) * 32 + 1 * k.val = k.val; omega
  · intro a k
    show V c main_arg12 (((cfg3.win 2).blk t).view.emb (ix2 a k)) = V c main_arg12 (ix2 a k)
    refine congrArg _ (funext fun d => Fin.ext ?_)
    match d with
    | ⟨0, _⟩ => show win3_2.index t (0 : Fin 2) * 32 + 1 * a.val = a.val; omega
    | ⟨1, _⟩ => show win3_2.index t (1 : Fin 2) * 32 + 1 * k.val = k.val; omega
  · intro a
    show V c main_arg13 (((cfg3.win 3).blk t).view.emb (ix1 a)) = V c main_arg13 (ix1 a)
    refine congrArg _ (funext fun d => Fin.ext ?_)
    match d with
    | ⟨0, _⟩ => show win3_3.index t (0 : Fin 1) * 32 + 1 * a.val = a.val; omega
  · intro a k
    show V c main_arg14 (((cfg3.win 4).blk t).view.emb (ix2 a k)) = V c main_arg14 (ix2 a k)
    refine congrArg _ (funext fun d => Fin.ext ?_)
    match d with
    | ⟨0, _⟩ => show win3_4.index t (0 : Fin 2) * 32 + 1 * a.val = a.val; omega
    | ⟨1, _⟩ => show win3_4.index t (1 : Fin 2) * 32 + 1 * k.val = k.val; omega

/-- An index of the output array is in point `t`'s block iff each coordinate is in the block's range on its axis. -/
theorem mem_blk (t : Fin cfg3.N) (i : S100000x32.Idx) :
    i ∈ ((cfg3.win 5).blk t).view.set ↔ ∀ a : Fin 2, win3_5.index t a * S10000x32.size a ≤ (i a).val ∧ (i a).val < win3_5.index t a * S10000x32.size a + S10000x32.size a := by
  show i ∈ ((View.whole main_v50).slice (win3_5.rect t)).set ↔ _
  rw [View.set_slice_whole, Rect.mem_set_unit]
  exact Iff.rfl

/-- Row `r` of the output lies in the block of point `r / 10000`: the ten blocks cover the array. -/
theorem cover (i : S100000x32.Idx) :
    ∃ t : Fin cfg3.N, (cfg3.win 5).flush t = true ∧ i ∈ ((cfg3.win 5).blk t).view.set := by
  have hi0 : (i 0).val < 100000 := (i 0).isLt
  have hi1 : (i 1).val < 32 := (i 1).isLt
  have hq : (i 0).val / 10000 < cfg3.N := lt_of_lt_of_eq (show (i 0).val / 10000 < 10 by omega) N_3.symm
  obtain ⟨-, -, -, -, -, -, -, -, -, e50, e51⟩ := index_facts ⟨(i 0).val / 10000, hq⟩
  refine ⟨⟨(i 0).val / 10000, hq⟩, flush3_5 _, ?_⟩
  rw [mem_blk]
  intro a
  match a with
  | ⟨0, _⟩ =>
    show win3_5.index ⟨(i 0).val / 10000, hq⟩ (0 : Fin 2) * 10000 ≤ (i 0).val ∧ (i 0).val < win3_5.index ⟨(i 0).val / 10000, hq⟩ (0 : Fin 2) * 10000 + 10000
    have e : win3_5.index ⟨(i 0).val / 10000, hq⟩ (0 : Fin 2) = (i 0).val / 10000 := e50
    omega
  | ⟨1, _⟩ =>
    show win3_5.index ⟨(i 0).val / 10000, hq⟩ (1 : Fin 2) * 32 ≤ (i 1).val ∧ (i 1).val < win3_5.index ⟨(i 0).val / 10000, hq⟩ (1 : Fin 2) * 32 + 32
    omega

/-- After all ten points have written back, the output array is the layer of the region's input arrays. -/
theorem final (V : (c : Dev nD) → (b : Ref sig .tc) → Buf (Elt Ideal) ((c : Thread nD τ).loc b)) (c : Dev nD) :
    (dat3 (F := Ideal) V c).arrAt 5 cfg3.N
      = Cert.Layers.conv3 (F := Ideal) (V c main_v49) (V c main_v42) (V c main_arg12) (V c main_arg13) (V c main_arg14) :=
  (dat3 (F := Ideal) V c).arrAt_eq_of_cover 5 _ (fun t _ => flushed_eq V c t) cover

end Cert.Region3

end
-- ==== Proof.Region4.lean ====
/-
  Pallas call 4 (one grid point, whole arrays): the output array is the two-layer head of its five argument arrays.
-/
import proofs.«406287_j15865609192043_3_alg».proof.Proof.Gen.KernelIdeal.Frame
import proofs.«406287_j15865609192043_3_alg».proof.Proof.Gen.ReferenceIdeal
import proofs.«406287_j15865609192043_3_alg».proof.Proof.Layers
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.Region4

open Idealize.ShloMosaic Idealize.ShloMosaic.TcCoe Cert.KernelIdeal Cert.KernelIdeal.Gen
open Idealize.ShloMosaic.ValueIdx

/-- A product accumulated into the zero array is the plain product: both read, at an index, the sum over the
    contraction index of the operands' products. -/
theorem matmul_zero_eq_dot {sl sr so : Shape} {φ₁ φ₂ : FTy} (d : DotDims sl sr so) (prec : Option ContractPrecision)
    (l : FVec Ideal sl φ₁) (r : FVec Ideal sr φ₂) :
    matmul (F := Ideal) d prec l r (constant so .f32 0x00000000#32) = Host.dotGeneral (F := Ideal) d prec l r := by
  funext j
  simp only [matmul, Host.dotGeneral]
  rw [Ideal.matmul_constant_zero_apply, Ideal.dotGeneral_apply]

/-- A vector of length b laid out as one row and repeated down a rows reads, at (p, q), its entry q: the two
    spellings of that repeat (a shape cast then a broadcast; two broadcasts along named axes) are the same array. -/
theorem rowBias_eq {a b : ℕ} {α : Type} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (g1 : (⟨1, ![b]⟩ : Shape).BroadcastsInDim ⟨2, ![1, b]⟩ ![1])
    (g2 : (⟨2, ![1, b]⟩ : Shape).BroadcastsInDim ⟨2, ![a, b]⟩ ![0, 1]) :
    broadcastTo ⟨2, ![a, b]⟩ (shapeCast ⟨2, ![1, b]⟩ x h1) h2
      = broadcastInDim ⟨2, ![a, b]⟩ ![0, 1] g2 (broadcastInDim ⟨2, ![1, b]⟩ ![1] g1 x) := by
  funext j
  obtain ⟨p, q, rfl⟩ : ∃ (p : Fin a) (q : Fin b), j = ix2 p q := ⟨j 0, j 1, eq_ix2 j⟩
  rw [broadcastTo_1b_ab_apply, shapeCast_a_1a_apply]
  rw [broadcastInDim_apply ![0, 1] g2 _ (ix2 p q) (ix2 (0 : Fin 1) q) (fun ax => by
    match ax with
    | ⟨0, _⟩ => show 0 = if (1 : ℕ) = 1 then 0 else p.val; rw [if_pos rfl]
    | ⟨1, _⟩ =>
      show q.val = if b = 1 then 0 else q.val
      split
      · have := q.isLt; omega
      · rfl)]
  rw [broadcastInDim_apply ![1] g1 x (ix2 (0 : Fin 1) q) (ix1 q) (fun ax => by
    match ax with
    | ⟨0, _⟩ =>
      show q.val = if b = 1 then 0 else q.val
      split
      · have := q.isLt; omega
      · rfl)]

set_option maxHeartbeats 400000 in
/-- The body's arithmetic is the head: the hidden layer relu (p · Waᵀ + ba), then · Wbᵀ + bb. -/
theorem head_eq (x0 : Vec Ideal S1000x32 .f32) (x1 : Vec Ideal S16x32 .f32) (x2 : Vec Ideal S16 .f32) (x3 : Vec Ideal S10x16 .f32) (x4 : Vec Ideal S10 .f32) :
    k4_pay1 (F := Ideal) x0 x1 x2 x3 x4 = Cert.Layers.lin2 (F := Ideal) x0 x1 x2 x3 x4 := by
  unfold k4_pay1 Cert.Layers.lin2
  dsimp only
  rw [shapeCast_self, matmul_zero_eq_dot, matmul_zero_eq_dot]
  rw [rowBias_eq x2 shapeCasts_S16_S1x16 broadcasts_S1x16_S1000x16 Cert.ReferenceIdeal.Facts₀.bcast_S16_S1x16_1 Cert.ReferenceIdeal.Facts₀.bcast_S1x16_S1000x16_0_1]
  rw [rowBias_eq x4 shapeCasts_S10_S1x10 broadcasts_S1x10_S1000x10 Cert.ReferenceIdeal.Facts₀.bcast_S10_S1x10_1 Cert.ReferenceIdeal.Facts₀.bcast_S1x10_S1000x10_0_1]
  rfl

section Blocks

variable (V : (c : Dev nD) → (b : Ref sig .tc) → Buf (Elt Ideal) ((c : Thread nD τ).loc b))

theorem zeros2 : (![0, 0] : Fin 2 → Nat) = fun _ => 0 := funext fun a => match a with | ⟨0, _⟩ => rfl | ⟨1, _⟩ => rfl
theorem zeros1 : (![0] : Fin 1 → Nat) = fun _ => 0 := funext fun a => match a with | ⟨0, _⟩ => rfl

/-- The one grid point's block index is zero on every axis of every window: each block is its whole array. -/
theorem index_zero : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0 :=
  (by decide +kernel : ∀ t : Fin grid4.N, _)

/-- The pooled features' block is the whole (1000, 32) array. -/
theorem pooled_blk (c : Dev nD) (t : Fin cfg4.N) : (iblk4 V c 0 t : Vec Ideal S1000x32 .f32) = V c main_v62 := by
  obtain ⟨e0, e1, -⟩ := index_zero t
  funext y
  show V c main_v62 (((cfg4.win 0).blk t).view.emb y) = V c main_v62 y
  refine congrArg (V c main_v62) (funext fun a => Fin.ext ?_)
  match a with
  | ⟨0, _⟩ => show win4_0.index t (0 : Fin 2) * 1000 + 1 * (y 0).val = (y 0).val; omega
  | ⟨1, _⟩ => show win4_0.index t (1 : Fin 2) * 32 + 1 * (y 1).val = (y 1).val; omega

/-- The first weight's block is the whole (16, 32) array. -/
theorem Wa_blk (c : Dev nD) (t : Fin cfg4.N) : (iblk4 V c 1 t : Vec Ideal S16x32 .f32) = V c main_arg15 := by
  obtain ⟨-, -, e0, e1, -⟩ := index_zero t
  funext y
  show V c main_arg15 (((cfg4.win 1).blk t).view.emb y) = V c main_arg15 y
  refine congrArg (V c main_arg15) (funext fun a => Fin.ext ?_)
  match a with
  | ⟨0, _⟩ => show win4_1.index t (0 : Fin 2) * 16 + 1 * (y 0).val = (y 0).val; omega
  | ⟨1, _⟩ => show win4_1.index t (1 : Fin 2) * 32 + 1 * (y 1).val = (y 1).val; omega

/-- The first bias's block is the whole (16) array. -/
theorem ba_blk (c : Dev nD) (t : Fin cfg4.N) : (iblk4 V c 2 t : Vec Ideal S16 .f32) = V c main_arg16 := by
  obtain ⟨-, -, -, -, e0, -⟩ := index_zero t
  funext y
  show V c main_arg16 (((cfg4.win 2).blk t).view.emb y) = V c main_arg16 y
  refine congrArg (V c main_arg16) (funext fun a => Fin.ext ?_)
  match a with
  | ⟨0, _⟩ => show win4_2.index t (0 : Fin 1) * 16 + 1 * (y 0).val = (y 0).val; omega

/-- The second weight's block is the whole (10, 16) array. -/
theorem Wb_blk (c : Dev nD) (t : Fin cfg4.N) : (iblk4 V c 3 t : Vec Ideal S10x16 .f32) = V c main_arg17 := by
  obtain ⟨-, -, -, -, -, e0, e1, -⟩ := index_zero t
  funext y
  show V c main_arg17 (((cfg4.win 3).blk t).view.emb y) = V c main_arg17 y
  refine congrArg (V c main_arg17) (funext fun a => Fin.ext ?_)
  match a with
  | ⟨0, _⟩ => show win4_3.index t (0 : Fin 2) * 10 + 1 * (y 0).val = (y 0).val; omega
  | ⟨1, _⟩ => show win4_3.index t (1 : Fin 2) * 16 + 1 * (y 1).val = (y 1).val; omega

/-- The second bias's block is the whole (10) array. -/
theorem bb_blk (c : Dev nD) (t : Fin cfg4.N) : (iblk4 V c 4 t : Vec Ideal S10 .f32) = V c main_arg18 := by
  obtain ⟨-, -, -, -, -, -, -, e0, -⟩ := index_zero t
  funext y
  show V c main_arg18 (((cfg4.win 4).blk t).view.emb y) = V c main_arg18 y
  refine congrArg (V c main_arg18) (funext fun a => Fin.ext ?_)
  match a with
  | ⟨0, _⟩ => show win4_4.index t (0 : Fin 1) * 10 + 1 * (y 0).val = (y 0).val; omega

set_option maxHeartbeats 400000 in
/-- What the one grid point writes back is the (whole) block of the head of the five argument arrays. -/
theorem flushed_eq (c : Dev nD) (t : Fin cfg4.N) :
    (dat4 V c).flushed 5 t = ((cfg4.win 5).blk t).view.read (Elt Ideal)
      (Cert.Layers.lin2 (F := Ideal) (V c main_v62) (V c main_arg15) (V c main_arg16) (V c main_arg17) (V c main_arg18)) := by
  show (cfg4.win 5).cut (grid4.coords t) ((dat4 V c).after 5 t) = _
  rw [after4_5]
  unfold out4_5
  rw [View.canon_unit_zero zeros2]
  simp only [View.ld_unit_zero (S := S1000x32) zeros2, View.ld_unit_zero (S := S16x32) zeros2, View.ld_unit_zero (S := S16) zeros1,
    View.ld_unit_zero (S := S10x16) zeros2, View.ld_unit_zero (S := S10) zeros1]
  rw [pooled_blk V c t, Wa_blk V c t, ba_blk V c t, Wb_blk V c t, bb_blk V c t, head_eq]
  obtain ⟨-, -, -, -, -, -, -, -, e0, e1⟩ := index_zero t
  generalize Cert.Layers.lin2 (F := Ideal) (V c main_v62) (V c main_arg15) (V c main_arg16) (V c main_arg17) (V c main_arg18) = G
  funext j
  show G j = G (((cfg4.win 5).blk t).view.emb j)
  refine congrArg G (funext fun a => Fin.ext ?_)
  match a with
  | ⟨0, _⟩ => show (j 0).val = win4_5.index t (0 : Fin 2) * 1000 + 1 * (j 0).val; omega
  | ⟨1, _⟩ => show (j 1).val = win4_5.index t (1 : Fin 2) * 10 + 1 * (j 1).val; omega

/-- An index of the output array is in the point's block iff each coordinate is in the block's range on its axis. -/
theorem mem_blk (t : Fin cfg4.N) (i : S1000x10.Idx) :
    i ∈ ((cfg4.win 5).blk t).view.set ↔ ∀ a : Fin 2, win4_5.index t a * S1000x10.size a ≤ (i a).val ∧ (i a).val < win4_5.index t a * S1000x10.size a + S1000x10.size a := by
  show i ∈ ((View.whole main_v63).slice (win4_5.rect t)).set ↔ _
  rw [View.set_slice_whole, Rect.mem_set_unit]
  exact Iff.rfl

/-- The one block covers the whole (1000, 10) output array. -/
theorem covered (i : S1000x10.Idx) :
    ∃ t : Fin cfg4.N, (cfg4.win 5).flush t = true ∧ i ∈ ((cfg4.win 5).blk t).view.set := by
  refine ⟨t4_0, flush4_5 t4_0, ?_⟩
  rw [mem_blk]
  obtain ⟨-, -, -, -, -, -, -, -, e0, e1⟩ := index_zero t4_0
  have h0 : (i 0).val < 1000 := (i 0).isLt
  have h1 : (i 1).val < 10 := (i 1).isLt
  intro a
  match a with
  | ⟨0, _⟩ => show win4_5.index t4_0 (0 : Fin 2) * 1000 ≤ (i 0).val ∧ (i 0).val < win4_5.index t4_0 (0 : Fin 2) * 1000 + 1000; omega
  | ⟨1, _⟩ => show win4_5.index t4_0 (1 : Fin 2) * 10 ≤ (i 1).val ∧ (i 1).val < win4_5.index t4_0 (1 : Fin 2) * 10 + 10; omega

end Blocks

theorem final (V : (c : Dev nD) → (b : Ref sig .tc) → Buf (Elt Ideal) ((c : Thread nD τ).loc b)) (c : Dev nD) :
    (dat4 (F := Ideal) V c).arrAt 5 cfg4.N
      = Cert.Layers.lin2 (F := Ideal) (V c main_v62) (V c main_arg15) (V c main_arg16) (V c main_arg17) (V c main_arg18) := by
  exact (dat4 V c).arrAt_eq_of_cover 5 _ (fun t _ => flushed_eq V c t) covered

end Cert.Region4

end
-- ==== Proof.SortPerm.lean ====
/-
  The kernel's edge order is a permutation of the edge positions: reading an edge list through the stable argsort of the
  target list reads it through a bijection of the positions, one and the same for every list.
-/
import proofs.«406287_j15865609192043_3_alg».proof.Proof.Gen.KernelIdeal
import proofs.«406287_j15865609192043_3_alg».proof.Proof.KTerms
import Idealize.ShloMosaic.PureOps.Ideal
import Idealize.ShloMosaic.Lib.SortFacts
import Idealize.ShloMosaic.Lib.StableHlo.Predicate
import Idealize.ShloMosaic.Lib.ValueIdx

noncomputable section

namespace Cert.SortPerm

open Idealize.ShloMosaic Cert.KernelIdeal

/-! ## A self-map of the positions as a self-map of the rank-1 indices -/

/-- A rank-1 index is determined by its one coordinate. -/
theorem ofFin_injective {n : Nat} : Function.Injective (Shape.Idx.ofFin (n := n)) := by
  intro a b h
  have h0 := congrFun h (0 : Fin 1)
  rw [Shape.Idx.ofFin_zero, Shape.Idx.ofFin_zero] at h0
  exact h0

/-- The bijection of the rank-1 indices that a bijection of the positions induces. -/
def idxPerm {n : Nat} (f : Fin n → Fin n) (hf : Function.Bijective f) : Equiv.Perm (⟨1, ![n]⟩ : Shape).Idx :=
  Equiv.ofBijective (fun e => Shape.Idx.ofFin (f (e 0)))
    ⟨fun a b h => by
        have h0 : a 0 = b 0 := hf.1 (ofFin_injective h)
        rw [Shape.Idx.eq_ofFin a, Shape.Idx.eq_ofFin b, h0],
     fun b => by
        obtain ⟨k, hk⟩ := hf.2 (b 0)
        refine ⟨Shape.Idx.ofFin k, ?_⟩
        show Shape.Idx.ofFin (f (Shape.Idx.ofFin k 0)) = b
        rw [Shape.Idx.ofFin_zero, hk]
        exact (Shape.Idx.eq_ofFin b).symm⟩

/-! ## The second operand of a two-operand sort of a vector -/

/-- Sorting a vector together with a second one reads the second through the sorting permutation of the positions. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-! ## Reading a vector at a column of small non-negative positions -/

/-- A word that is a position below 2³¹ is not negative, so the wrap-around of negative entries keeps it; and the gather's clamp
    into the table keeps a position inside the table: the take reads the table at that position. -/
theorem gather_wrap {n : Nat} (hn0 : 0 < n) (hn : n < 2 ^ 31) {α : Type}
    (dg : GatherDims ⟨1, ![n]⟩ ⟨2, ![n, 1]⟩ ⟨1, ![n]⟩)
    (hcoll : dg.collapsedSliceDims = [0]) (hob : dg.operandBatchingDims = [])
    (hsim : dg.startIndexMap = [0]) (hivd : dg.indexVectorDim = 1)
    (hb0 : (⟨0, ![]⟩ : Shape).BroadcastsInDim ⟨1, ![n]⟩ ![])
    (hb1 : (⟨1, ![n]⟩ : Shape).BroadcastsInDim ⟨2, ![n, 1]⟩ ![0])
    (c : BitVec 32) (f : Fin n → Fin n) (o : IVec ⟨1, ![n]⟩ 32)
    (ho : ∀ j, o j = BitVec.ofNat 32 (f (j 0)).val)
    (x : (⟨1, ![n]⟩ : Shape).Idx → α) (e : (⟨1, ![n]⟩ : Shape).Idx) :
    Host.gather dg x
      (broadcastInDim ⟨2, ![n, 1]⟩ ![0] hb1
        (select (cmpi .slt o (broadcastInDim ⟨1, ![n]⟩ ![] hb0 (constantI ⟨0, ![]⟩ 32 0#32)))
          (addi o (broadcastInDim ⟨1, ![n]⟩ ![] hb0 (constantI ⟨0, ![]⟩ 32 c))) o)) e
      = x (Shape.Idx.ofFin (f (e 0))) := by
  obtain ⟨p, rfl⟩ : ∃ p, e = Shape.Idx.ofFin p := ⟨e 0, Shape.Idx.eq_ofFin e⟩
  rw [Shape.Idx.ofFin_zero, StableHlo.Predicate.gather_take dg hcoll hob hsim hivd x _ p hn0]
  refine congrArg x (congrArg Shape.Idx.ofFin (Fin.ext ?_))
  show min _ (n - 1) = (f p).val
  rw [StableHlo.Predicate.bcast_col1 hb1 _ p]
  show min (Scalar.select (IntOp.cmpi .slt (o (Shape.Idx.ofFin p)) 0#32) (IntOp.addi (o (Shape.Idx.ofFin p)) c)
    (o (Shape.Idx.ofFin p))).toInt.toNat (n - 1) = (f p).val
  rw [ho, Shape.Idx.ofFin_zero]
  have hp := (f p).isLt
  have hlt : (f p).val < 2 ^ 31 := by omega
  have hc : IntOp.cmpi .slt (BitVec.ofNat 32 (f p).val) 0#32 = 0#1 := by
    refine ValueIdx.eq_zero_of_ne_one fun h => ?_
    have h' := (StableHlo.Predicate.slt_ofNat_iff (f p).val 0 hlt (by omega)).mp h
    omega
  rw [hc, ValueIdx.select_zero, StableHlo.Predicate.toInt_ofNat_small _ hlt, Int.toNat_natCast]
  omega

/-! ## The sorting permutation, read off the sort's carried positions -/

/-- Over any extent below 2³¹: the positions carried through a stable sort of `d` list a bijection of the positions, and a take
    through that list (negative entries wrapped, the start index clamped) reads every table through that one bijection. -/
theorem exists_perm_of_sort {n : Nat} (hn0 : 0 < n) (hn : n < 2 ^ 31)
    (cmp : BitVec 32 × BitVec 32 → BitVec 32 × BitVec 32 → BitVec 1)
    (dg : GatherDims ⟨1, ![n]⟩ ⟨2, ![n, 1]⟩ ⟨1, ![n]⟩)
    (hcoll : dg.collapsedSliceDims = [0]) (hob : dg.operandBatchingDims = [])
    (hsim : dg.startIndexMap = [0]) (hivd : dg.indexVectorDim = 1)
    (hb0 : (⟨0, ![]⟩ : Shape).BroadcastsInDim ⟨1, ![n]⟩ ![])
    (hb1 : (⟨1, ![n]⟩ : Shape).BroadcastsInDim ⟨2, ![n, 1]⟩ ![0])
    (c : BitVec 32) (d : IVec ⟨1, ![n]⟩ 32) :
    ∃ π : Equiv.Perm (⟨1, ![n]⟩ : Shape).Idx,
      ∀ {α : Type} (x : (⟨1, ![n]⟩ : Shape).Idx → α) (e : (⟨1, ![n]⟩ : Shape).Idx),
        Host.gather dg x
          (broadcastInDim ⟨2, ![n, 1]⟩ ![0] hb1
            (select (cmpi .slt (Host.sort2 ⟨1, ![n]⟩ 0 cmp d (iotaInDim ⟨1, ![n]⟩ 32 0)).2
                (broadcastInDim ⟨1, ![n]⟩ ![] hb0 (constantI ⟨0, ![]⟩ 32 0#32)))
              (addi (Host.sort2 ⟨1, ![n]⟩ 0 cmp d (iotaInDim ⟨1, ![n]⟩ 32 0)).2
                (broadcastInDim ⟨1, ![n]⟩ ![] hb0 (constantI ⟨0, ![]⟩ 32 c)))
              (Host.sort2 ⟨1, ![n]⟩ 0 cmp d (iotaInDim ⟨1, ![n]⟩ 32 0)).2)) e
          = x (π e) := by
  obtain ⟨before, hbefore⟩ : ∃ before : Fin n → Fin n → Bool, before = fun k k' =>
      cmp (d (Shape.Idx.ofFin k), iotaInDim ⟨1, ![n]⟩ 32 0 (Shape.Idx.ofFin k))
        (d (Shape.Idx.ofFin k'), iotaInDim ⟨1, ![n]⟩ 32 0 (Shape.Idx.ofFin k')) == 1#1 := ⟨_, rfl⟩
  refine ⟨idxPerm (sortedFrom before) ⟨sortedFrom_injective before, sortedFrom_surjective before⟩, fun x e => ?_⟩
  show _ = x (Shape.Idx.ofFin (sortedFrom before (e 0)))
  refine gather_wrap hn0 hn dg hcoll hob hsim hivd hb0 hb1 c (sortedFrom before) _ (fun j => ?_) x e
  rw [sort2_snd_rank1, ← hbefore]
  rfl

theorem exists_perm (d : IVec S1600000 32) :
    ∃ π : Equiv.Perm S1600000.Idx,
      (∀ (x : IVec S1600000 32) (e : S1600000.Idx), Cert.KTerms.permI x (Cert.KTerms.order d) e = x (π e)) ∧
      (∀ (x : FVec Ideal S1600000 .f32) (e : S1600000.Idx), Cert.KTerms.permF (F := Ideal) x (Cert.KTerms.order d) e = x (π e)) := by
  obtain ⟨π, h⟩ := exists_perm_of_sort (n := 1600000) (by omega) (by omega) comparator_i32_i32_d0
    gather_S1600000_S1600000x1_S1600000_n_0_n_n_0_1_1 rfl rfl rfl rfl
    Facts₀.bcast_S_S1600000 Facts₀.bcast_S1600000_S1600000x1_0 1600000#32 d
  exact ⟨π, fun x e => h x e, fun x e => h x e⟩

end Cert.SortPerm

end
-- ==== Proof.AggBridge.lean ====
/-
  The neighbourhood sum does not depend on the order of the edges, and the kernel's fill-mode row gather is the plain row
  gather when every source index is a node number: the kernel's aggregation over the edges sorted by target equals the
  reference's aggregation over the edges as given.
-/
import proofs.«406287_j15865609192043_3_alg».proof.Proof.Gen.KernelIdeal
import proofs.«406287_j15865609192043_3_alg».proof.Proof.Gen.ReferenceIdeal
import proofs.«406287_j15865609192043_3_alg».proof.Proof.KTerms
import proofs.«406287_j15865609192043_3_alg».proof.Proof.Layers
import proofs.«406287_j15865609192043_3_alg».proof.Proof.SortPerm
import Idealize.ShloMosaic.PureOps.Ideal
import Idealize.ShloMosaic.PureOps.Ideal.Laws
import Idealize.ShloMosaic.Lib.StableHlo.Predicate
import Idealize.ShloMosaic.Lib.ValueIdx

noncomputable section

namespace Cert.AggBridge

open Idealize.ShloMosaic Cert.KernelIdeal
open Idealize.ShloMosaic.StableHlo.Predicate (ij ixP ij_eta bcast_rows bcast_col1)

/-- The exact scatter-add does not see the order of the updates: re-indexing the updates by a bijection that keeps
    each update's landing place and value leaves every sum as it was. -/
theorem hostScatterAdd_reindex {s si su : Shape} (d : ScatterDims s si su) {w : Nat} (x : s.Idx → EReal)
    (idx idx' : IVec si w) (upd upd' : su.Idx → EReal) (σ : su.Idx ≃ su.Idx)
    (hr : ∀ j, d.resultIdx? j idx' = d.resultIdx? (σ j) idx) (hu : ∀ j, upd' j = upd (σ j)) :
    Ideal.hostScatterAdd d x idx' upd' = Ideal.hostScatterAdd d x idx upd := by
  funext i
  unfold Ideal.hostScatterAdd
  refine congrArg (fun z => x i + z) ?_
  rw [Finset.sum_filter, Finset.sum_filter,
    ← Equiv.sum_comp σ (fun j => if d.resultIdx? j idx = some i then upd j else 0)]
  refine Finset.sum_congr rfl fun j _ => ?_
  rw [hr j, hu j]

/-- The landing place computed from the starts and the window coordinates (their sum on every axis, when it is inside the
    operand) is a function of those alone. -/
theorem landing_congr {s : Shape} (st st' : Fin s.rank → Int) (wn wn' : Fin s.rank → Nat) (h1 : st = st') (h2 : wn = wn')
    (dec : Decidable (∀ a, 0 ≤ st a + wn a ∧ st a + wn a < s.size a))
    (dec' : Decidable (∀ a, 0 ≤ st' a + wn' a ∧ st' a + wn' a < s.size a)) :
    (@dite (Option s.Idx) _ dec
        (fun h => some fun a => (⟨(st a + wn a).toNat, by have := h a; omega⟩ : Fin (s.size a))) (fun _ => none))
      = (@dite (Option s.Idx) _ dec'
        (fun h => some fun a => (⟨(st' a + wn' a).toNat, by have := h a; omega⟩ : Fin (s.size a))) (fun _ => none)) := by
  subst h1 h2
  have hd : dec = dec' := Subsingleton.elim _ _
  subst hd
  rfl

/-- Where an update lands depends only on its start and its window coordinate on each axis. -/
theorem resultIdx?_congr {s si u : Shape} (d : ScatterDims s si u) {w : Nat} (j j' : u.Idx) (idx idx' : IVec si w)
    (hst : ∀ a, d.start j idx a = d.start j' idx' a) (hw : ∀ a, d.window j a = d.window j' a) :
    d.resultIdx? j idx = d.resultIdx? j' idx' := by
  unfold ScatterDims.resultIdx?
  exact landing_congr _ _ _ _ (funext hst) (funext hw) _ _

/-- The table row a start index names: the index read signed and kept inside the table. -/
def rowOf (v : BitVec 32) : Fin 100000 := ⟨min v.toInt.toNat 99999, by omega⟩

/-! ### Signed compares of a node number -/

theorem toInt_zero32 : (0#32 : BitVec 32).toInt = 0 := by decide
theorem toInt_99999 : (99999#32 : BitVec 32).toInt = 99999 := by decide

theorem cmpi_slt_zero (v : BitVec 32) (h : 0 ≤ v.toInt) : IntOp.cmpi .slt v 0#32 = 0#1 := by
  show BitVec.ofBool (decide (v.toInt < (0#32 : BitVec 32).toInt)) = 0#1
  rw [toInt_zero32, decide_eq_false (by omega)]
  rfl

theorem cmpi_sge_zero (v : BitVec 32) (h : 0 ≤ v.toInt) : IntOp.cmpi .sge v 0#32 = 1#1 := by
  show BitVec.ofBool (decide ((0#32 : BitVec 32).toInt ≤ v.toInt)) = 1#1
  rw [toInt_zero32, decide_eq_true h]
  rfl

theorem cmpi_sle_last (v : BitVec 32) (h : v.toInt < 100000) : IntOp.cmpi .sle v 99999#32 = 1#1 := by
  show BitVec.ofBool (decide (v.toInt ≤ (99999#32 : BitVec 32).toInt)) = 1#1
  rw [toInt_99999, decide_eq_true (by omega)]
  rfl

/-- Every index of a column is row `p`, column 0. -/
theorem eq_ixP {n : Nat} (i : (⟨2, ![n, 1]⟩ : Shape).Idx) : i = ixP (i 0) := by
  funext a
  match a with
  | ⟨0, _⟩ => rfl
  | ⟨1, _⟩ =>
    apply Fin.ext
    have h : (i 1).val < 1 := (i 1).isLt
    show (i 1).val = 0
    omega

/-- The row number the kernel reads for edge `e`: the source itself when it is not negative. -/
theorem wrapN_apply (s : IVec S1600000 32) (e : Fin 1600000) (h0 : 0 ≤ (s (Shape.Idx.ofFin e)).toInt) :
    Cert.KTerms.wrapN s (ixP e) = s (Shape.Idx.ofFin e) := by
  unfold Cert.KTerms.wrapN
  rw [bcast_col1]
  show Scalar.select (IntOp.cmpi .slt (s (Shape.Idx.ofFin e)) 0#32) _ _ = _
  rw [cmpi_slt_zero _ h0]
  exact ValueIdx.select_zero _ _

/-- A left fold by `and` from 1 over words that are all 1 is 1. -/
theorem foldl_andi_one {ι : Type} (x : ι → BitVec 1) (hx : ∀ i, x i = 1#1) :
    ∀ l : List ι, l.foldl (fun r i => IntOp.andi r (x i)) 1#1 = 1#1
  | [] => rfl
  | a :: l => by
    rw [List.foldl_cons, hx a]
    exact foldl_andi_one x hx l

/-- When every source is a node number, every edge's row number is inside the table. -/
theorem inRange_one (s : IVec S1600000 32) (hs : ∀ e : S1600000.Idx, 0 ≤ (s e).toInt ∧ (s e).toInt < 100000) :
    Cert.KTerms.inRange (Cert.KTerms.wrapN s) = fun _ => 1#1 := by
  funext j
  unfold Cert.KTerms.inRange
  rw [Host.reduce_eq_foldl]
  refine foldl_andi_one _ (fun i => ?_) _
  rw [eq_ixP i]
  show IntOp.andi (IntOp.cmpi .sge (Cert.KTerms.wrapN s (ixP (i 0))) 0#32)
    (IntOp.cmpi .sle (Cert.KTerms.wrapN s (ixP (i 0))) 99999#32) = 1#1
  rw [wrapN_apply s (i 0) (hs _).1, cmpi_sge_zero _ (hs _).1, cmpi_sle_last _ (hs _).2]
  rfl

/-! ### The re-ordering of the updates -/

/-- A list position as a number. -/
def pos1 : S1600000.Idx ≃ Fin 1600000 where
  toFun i := i 0
  invFun := Shape.Idx.ofFin
  left_inv i := (Shape.Idx.eq_ofFin i).symm
  right_inv k := Shape.Idx.ofFin_zero k

/-- The re-ordering of the edges acting on the updates channel by channel: update (e, k) goes to update (π e, k). -/
def sigma (π : Equiv.Perm S1600000.Idx) (m : Nat) :
    (⟨2, ![1600000, m]⟩ : Shape).Idx ≃ (⟨2, ![1600000, m]⟩ : Shape).Idx where
  toFun j := ij (n := 1600000) (m := m) (pos1 (π (pos1.symm (j 0)))) (j 1)
  invFun j := ij (n := 1600000) (m := m) (pos1 (π.symm (pos1.symm (j 0)))) (j 1)
  left_inv j := by
    show ij (n := 1600000) (m := m) (pos1 (π.symm (pos1.symm (pos1 (π (pos1.symm (j 0))))))) (j 1) = j
    rw [Equiv.symm_apply_apply, Equiv.symm_apply_apply]
    exact (congrArg (fun a : Fin 1600000 => ij (n := 1600000) (m := m) a (j 1)) (pos1.apply_symm_apply (j 0))).trans (ij_eta j)
  right_inv j := by
    show ij (n := 1600000) (m := m) (pos1 (π (pos1.symm (pos1 (π.symm (pos1.symm (j 0))))))) (j 1) = j
    rw [Equiv.symm_apply_apply, Equiv.apply_symm_apply]
    exact (congrArg (fun a : Fin 1600000 => ij (n := 1600000) (m := m) a (j 1)) (pos1.apply_symm_apply (j 0))).trans (ij_eta j)

theorem sigma_ij (π : Equiv.Perm S1600000.Idx) (m : Nat) (e : Fin 1600000) (k : Fin m) :
    sigma π m (ij e k) = ij (pos1 (π (pos1.symm e))) k := rfl

theorem ofFin_pos1 (π : Equiv.Perm S1600000.Idx) (e : Fin 1600000) :
    Shape.Idx.ofFin (pos1 (π (pos1.symm e))) = π (Shape.Idx.ofFin e) := pos1.symm_apply_apply _

/-! ### Eight channels -/

abbrev D8 := scatter_S100000x8_S1600000x1_S1600000x8_1_0_0_1
abbrev G8 := gather_S100000x8_S1600000x1_S1600000x8_1_0_n_n_0_1_18

theorem siIdxS8 (e : Fin 1600000) (k : Fin 8) (c : Fin D8.scatterDimsToOperandDims.length) :
    D8.siIdx (ij e k) c = ixP e := by
  funext b
  match b with
  | ⟨0, _⟩ => rfl
  | ⟨1, _⟩ =>
    apply Fin.ext
    have h : c.val < 1 := c.isLt
    show c.val = 0
    omega

theorem start8_0 (e : Fin 1600000) (k : Fin 8) (idx : IVec S1600000x1 32) :
    D8.start (ij e k) idx 0 = (idx (ixP e)).toInt := by
  unfold ScatterDims.start
  rw [dif_pos (by decide)]
  rw [siIdxS8]

theorem start8_1 (e : Fin 1600000) (k : Fin 8) (idx : IVec S1600000x1 32) :
    D8.start (ij e k) idx 1 = 0 := by
  unfold ScatterDims.start
  rw [dif_neg (by decide)]

theorem window8_0 (e : Fin 1600000) (k : Fin 8) : D8.window (ij e k) 0 = 0 := by
  unfold ScatterDims.window
  rw [dif_neg (by decide)]

theorem window8_1 (e : Fin 1600000) (k : Fin 8) : D8.window (ij e k) 1 = k.val := by
  unfold ScatterDims.window
  rw [dif_pos (by decide)]
  rfl

/-- An update of edge `e`, channel `k` lands by the scatter index of edge `e` alone. -/
theorem resultIdx8_congr (e e' : Fin 1600000) (k : Fin 8) (idx idx' : IVec S1600000x1 32)
    (h : idx (ixP e) = idx' (ixP e')) : D8.resultIdx? (ij e k) idx = D8.resultIdx? (ij e' k) idx' := by
  refine resultIdx?_congr D8 _ _ _ _ (fun a => ?_) (fun a => ?_)
  · match a with
    | ⟨0, _⟩ => exact (start8_0 e k idx).trans ((congrArg BitVec.toInt h).trans (start8_0 e' k idx').symm)
    | ⟨1, _⟩ => exact (start8_1 e k idx).trans (start8_1 e' k idx').symm
  · match a with
    | ⟨0, _⟩ => exact (window8_0 e k).trans (window8_0 e' k).symm
    | ⟨1, _⟩ => exact (window8_1 e k).trans (window8_1 e' k).symm

theorem siIdxG8 (e : Fin 1600000) (k : Fin 8) (c : Fin G8.startIndexMap.length) :
    G8.siIdx (ij e k) c = ixP e := by
  funext b
  match b with
  | ⟨0, _⟩ => rfl
  | ⟨1, _⟩ =>
    apply Fin.ext
    have h : c.val < 1 := c.isLt
    show c.val = 0
    omega

/-- The row gather at edge `e`, channel `k`: the table's row named by the start index of `e` (read signed, kept inside the
    table), at channel `k`. -/
theorem gather8_apply {α : Type} (x : S100000x8.Idx → α) (idx : IVec S1600000x1 32) (e : Fin 1600000) (k : Fin 8) :
    Host.gather G8 x idx (ij e k) = x (ij (rowOf (idx (ixP e))) k) := by
  unfold Host.gather
  refine congrArg x (funext fun a => ?_)
  match a with
  | ⟨0, _⟩ =>
    apply Fin.ext
    show G8.start (ij e k) idx 0 + G8.batchCoord (ij e k) 0 + G8.offCoord (ij e k) 0 = min (idx (ixP e)).toInt.toNat 99999
    rw [GatherDims.batchCoord_eq_zero _ _ _ (by decide), GatherDims.offCoord_eq_zero _ _ _ (by decide)]
    unfold GatherDims.start
    rw [dif_pos (by decide), siIdxG8]
    rfl
  | ⟨1, _⟩ =>
    apply Fin.ext
    show G8.start (ij e k) idx 1 + G8.batchCoord (ij e k) 1 + G8.offCoord (ij e k) 1 = k.val
    rw [GatherDims.batchCoord_eq_zero _ _ _ (by decide)]
    unfold GatherDims.start GatherDims.offCoord
    rw [dif_neg (by decide), dif_pos (by decide)]
    show 0 + 0 + k.val = k.val
    omega

/-- When every source is a node number, the filling row gather is the plain row gather. -/
theorem take8_eq (h : FVec Ideal S100000x8 .f32) (s : IVec S1600000 32)
    (hs : ∀ e : S1600000.Idx, 0 ≤ (s e).toInt ∧ (s e).toInt < 100000) :
    Cert.KTerms.take8 (F := Ideal) h s = Host.gather G8 h (Cert.KTerms.wrapN s) := by
  unfold Cert.KTerms.take8
  rw [inRange_one s hs]
  funext j
  exact ValueIdx.select_one _ _

/-- The neighbourhood sum over the edges read through a bijection of their positions is the neighbourhood sum over the
    edges as given, when every source is a node number. -/
theorem agg8_perm (h : FVec Ideal S100000x8 .f32) (s d : IVec S1600000 32) (ew : FVec Ideal S1600000 .f32)
    (s' d' : IVec S1600000 32) (ew' : FVec Ideal S1600000 .f32) (π : Equiv.Perm S1600000.Idx)
    (hs' : ∀ e, s' e = s (π e)) (hd' : ∀ e, d' e = d (π e)) (hew' : ∀ e, ew' e = ew (π e))
    (hs : ∀ e : S1600000.Idx, 0 ≤ (s e).toInt ∧ (s e).toInt < 100000) :
    Cert.KTerms.kagg8 (F := Ideal) h s' d' ew' = Cert.Layers.agg8 (F := Ideal) h s d ew := by
  have hsr : ∀ e : S1600000.Idx, 0 ≤ (s' e).toInt ∧ (s' e).toInt < 100000 := fun e => by
    rw [hs' e]; exact hs (π e)
  unfold Cert.KTerms.kagg8 Cert.Layers.agg8
  rw [take8_eq h s' hsr]
  show Ideal.hostScatterAdd D8 _ _ _ = Ideal.hostScatterAdd D8 _ _ _
  refine hostScatterAdd_reindex D8 _ _ _ _ _ (sigma π 8) (fun j => ?_) (fun j => ?_)
  · obtain ⟨e, k, rfl⟩ : ∃ (e : Fin 1600000) (k : Fin 8), j = ij e k := ⟨j 0, j 1, (ij_eta j).symm⟩
    rw [sigma_ij]
    refine resultIdx8_congr e _ k _ _ ?_
    rw [bcast_col1, bcast_col1, ofFin_pos1]
    exact hd' _
  · obtain ⟨e, k, rfl⟩ : ∃ (e : Fin 1600000) (k : Fin 8), j = ij e k := ⟨j 0, j 1, (ij_eta j).symm⟩
    rw [sigma_ij]
    show Host.gather G8 h (Cert.KTerms.wrapN s') (ij e k) * _ = Host.gather G8 h (Cert.KTerms.wrapN s) (ij _ k) * _
    rw [gather8_apply, gather8_apply, bcast_rows, bcast_rows, wrapN_apply s' e (hsr _).1,
      wrapN_apply s _ (hs _).1, ofFin_pos1, hs', hew']

theorem agg8_eq (h : FVec Ideal S100000x8 .f32) (s d : IVec S1600000 32) (ew : FVec Ideal S1600000 .f32)
    (hs : ∀ e : S1600000.Idx, 0 ≤ (s e).toInt ∧ (s e).toInt < 100000) :
    Cert.KTerms.kagg8 (F := Ideal) h (Cert.KTerms.permI s (Cert.KTerms.order d)) (Cert.KTerms.permI d (Cert.KTerms.order d))
        (Cert.KTerms.permF ew (Cert.KTerms.order d))
      = Cert.Layers.agg8 (F := Ideal) h s d ew := by
  obtain ⟨π, hI, hF⟩ := Cert.SortPerm.exists_perm d
  exact agg8_perm h s d ew _ _ _ π (hI s) (hI d) (hF ew) hs

/-! ### Thirty-two channels -/

abbrev D32 := scatter_S100000x32_S1600000x1_S1600000x32_1_0_0_1
abbrev G32 := gather_S100000x32_S1600000x1_S1600000x32_1_0_n_n_0_1_132

theorem siIdxS32 (e : Fin 1600000) (k : Fin 32) (c : Fin D32.scatterDimsToOperandDims.length) :
    D32.siIdx (ij e k) c = ixP e := by
  funext b
  match b with
  | ⟨0, _⟩ => rfl
  | ⟨1, _⟩ =>
    apply Fin.ext
    have h : c.val < 1 := c.isLt
    show c.val = 0
    omega

theorem start32_0 (e : Fin 1600000) (k : Fin 32) (idx : IVec S1600000x1 32) :
    D32.start (ij e k) idx 0 = (idx (ixP e)).toInt := by
  unfold ScatterDims.start
  rw [dif_pos (by decide)]
  rw [siIdxS32]

theorem start32_1 (e : Fin 1600000) (k : Fin 32) (idx : IVec S1600000x1 32) :
    D32.start (ij e k) idx 1 = 0 := by
  unfold ScatterDims.start
  rw [dif_neg (by decide)]

theorem window32_0 (e : Fin 1600000) (k : Fin 32) : D32.window (ij e k) 0 = 0 := by
  unfold ScatterDims.window
  rw [dif_neg (by decide)]

theorem window32_1 (e : Fin 1600000) (k : Fin 32) : D32.window (ij e k) 1 = k.val := by
  unfold ScatterDims.window
  rw [dif_pos (by decide)]
  rfl

/-- An update of edge `e`, channel `k` lands by the scatter index of edge `e` alone. -/
theorem resultIdx32_congr (e e' : Fin 1600000) (k : Fin 32) (idx idx' : IVec S1600000x1 32)
    (h : idx (ixP e) = idx' (ixP e')) : D32.resultIdx? (ij e k) idx = D32.resultIdx? (ij e' k) idx' := by
  refine resultIdx?_congr D32 _ _ _ _ (fun a => ?_) (fun a => ?_)
  · match a with
    | ⟨0, _⟩ => exact (start32_0 e k idx).trans ((congrArg BitVec.toInt h).trans (start32_0 e' k idx').symm)
    | ⟨1, _⟩ => exact (start32_1 e k idx).trans (start32_1 e' k idx').symm
  · match a with
    | ⟨0, _⟩ => exact (window32_0 e k).trans (window32_0 e' k).symm
    | ⟨1, _⟩ => exact (window32_1 e k).trans (window32_1 e' k).symm

theorem siIdxG32 (e : Fin 1600000) (k : Fin 32) (c : Fin G32.startIndexMap.length) :
    G32.siIdx (ij e k) c = ixP e := by
  funext b
  match b with
  | ⟨0, _⟩ => rfl
  | ⟨1, _⟩ =>
    apply Fin.ext
    have h : c.val < 1 := c.isLt
    show c.val = 0
    omega

/-- The row gather at edge `e`, channel `k`: the table's row named by the start index of `e` (read signed, kept inside the
    table), at channel `k`. -/
theorem gather32_apply {α : Type} (x : S100000x32.Idx → α) (idx : IVec S1600000x1 32) (e : Fin 1600000) (k : Fin 32) :
    Host.gather G32 x idx (ij e k) = x (ij (rowOf (idx (ixP e))) k) := by
  unfold Host.gather
  refine congrArg x (funext fun a => ?_)
  match a with
  | ⟨0, _⟩ =>
    apply Fin.ext
    show G32.start (ij e k) idx 0 + G32.batchCoord (ij e k) 0 + G32.offCoord (ij e k) 0 = min (idx (ixP e)).toInt.toNat 99999
    rw [GatherDims.batchCoord_eq_zero _ _ _ (by decide), GatherDims.offCoord_eq_zero _ _ _ (by decide)]
    unfold GatherDims.start
    rw [dif_pos (by decide), siIdxG32]
    rfl
  | ⟨1, _⟩ =>
    apply Fin.ext
    show G32.start (ij e k) idx 1 + G32.batchCoord (ij e k) 1 + G32.offCoord (ij e k) 1 = k.val
    rw [GatherDims.batchCoord_eq_zero _ _ _ (by decide)]
    unfold GatherDims.start GatherDims.offCoord
    rw [dif_neg (by decide), dif_pos (by decide)]
    show 0 + 0 + k.val = k.val
    omega

/-- When every source is a node number, the filling row gather is the plain row gather. -/
theorem take32_eq (h : FVec Ideal S100000x32 .f32) (s : IVec S1600000 32)
    (hs : ∀ e : S1600000.Idx, 0 ≤ (s e).toInt ∧ (s e).toInt < 100000) :
    Cert.KTerms.take32 (F := Ideal) h s = Host.gather G32 h (Cert.KTerms.wrapN s) := by
  unfold Cert.KTerms.take32
  rw [inRange_one s hs]
  funext j
  exact ValueIdx.select_one _ _

/-- The neighbourhood sum over the edges read through a bijection of their positions is the neighbourhood sum over the
    edges as given, when every source is a node number. -/
theorem agg32_perm (h : FVec Ideal S100000x32 .f32) (s d : IVec S1600000 32) (ew : FVec Ideal S1600000 .f32)
    (s' d' : IVec S1600000 32) (ew' : FVec Ideal S1600000 .f32) (π : Equiv.Perm S1600000.Idx)
    (hs' : ∀ e, s' e = s (π e)) (hd' : ∀ e, d' e = d (π e)) (hew' : ∀ e, ew' e = ew (π e))
    (hs : ∀ e : S1600000.Idx, 0 ≤ (s e).toInt ∧ (s e).toInt < 100000) :
    Cert.KTerms.kagg32 (F := Ideal) h s' d' ew' = Cert.Layers.agg32 (F := Ideal) h s d ew := by
  have hsr : ∀ e : S1600000.Idx, 0 ≤ (s' e).toInt ∧ (s' e).toInt < 100000 := fun e => by
    rw [hs' e]; exact hs (π e)
  unfold Cert.KTerms.kagg32 Cert.Layers.agg32
  rw [take32_eq h s' hsr]
  show Ideal.hostScatterAdd D32 _ _ _ = Ideal.hostScatterAdd D32 _ _ _
  refine hostScatterAdd_reindex D32 _ _ _ _ _ (sigma π 32) (fun j => ?_) (fun j => ?_)
  · obtain ⟨e, k, rfl⟩ : ∃ (e : Fin 1600000) (k : Fin 32), j = ij e k := ⟨j 0, j 1, (ij_eta j).symm⟩
    rw [sigma_ij]
    refine resultIdx32_congr e _ k _ _ ?_
    rw [bcast_col1, bcast_col1, ofFin_pos1]
    exact hd' _
  · obtain ⟨e, k, rfl⟩ : ∃ (e : Fin 1600000) (k : Fin 32), j = ij e k := ⟨j 0, j 1, (ij_eta j).symm⟩
    rw [sigma_ij]
    show Host.gather G32 h (Cert.KTerms.wrapN s') (ij e k) * _ = Host.gather G32 h (Cert.KTerms.wrapN s) (ij _ k) * _
    rw [gather32_apply, gather32_apply, bcast_rows, bcast_rows, wrapN_apply s' e (hsr _).1,
      wrapN_apply s _ (hs _).1, ofFin_pos1, hs', hew']

theorem agg32_eq (h : FVec Ideal S100000x32 .f32) (s d : IVec S1600000 32) (ew : FVec Ideal S1600000 .f32)
    (hs : ∀ e : S1600000.Idx, 0 ≤ (s e).toInt ∧ (s e).toInt < 100000) :
    Cert.KTerms.kagg32 (F := Ideal) h (Cert.KTerms.permI s (Cert.KTerms.order d)) (Cert.KTerms.permI d (Cert.KTerms.order d))
        (Cert.KTerms.permF ew (Cert.KTerms.order d))
      = Cert.Layers.agg32 (F := Ideal) h s d ew := by
  obtain ⟨π, hI, hF⟩ := Cert.SortPerm.exists_perm d
  exact agg32_perm h s d ew _ _ _ π (hI s) (hI d) (hF ew) hs

end Cert.AggBridge

end
-- ==== Proof.Chain.lean ====
/-
  The kernel's result, read back through its run. @main is fifteen segments: stretches of host operations and the five
  pallas_calls. At each boundary the buffers hold a fold of the launch memory; this module reads that fold at the few
  buffers that matter. A buffer that a segment does not write keeps its contents; the three edge lists re-ordered by
  target (source, target, weight) are computed once, before the first call, and live to the last convolution; each
  call's output array is its layer of the arrays it was given; between two calls the host gathers the rows of the
  last layer at the sources, scales them, and scatter-adds them onto the targets. Under the hypothesis that every
  source index is a node number that aggregation over the sorted edges is the reference's over the edges as given, so
  the result is the reference network of the arguments.
-/
import proofs.«406287_j15865609192043_3_alg».proof.Proof.Gen.KernelIdeal.Frame
import proofs.«406287_j15865609192043_3_alg».proof.Proof.Gen.ReferenceIdeal
import proofs.«406287_j15865609192043_3_alg».proof.Proof.KTerms
import proofs.«406287_j15865609192043_3_alg».proof.Proof.Layers
import proofs.«406287_j15865609192043_3_alg».proof.Proof.Region0
import proofs.«406287_j15865609192043_3_alg».proof.Proof.Region1
import proofs.«406287_j15865609192043_3_alg».proof.Proof.Region2
import proofs.«406287_j15865609192043_3_alg».proof.Proof.Region3
import proofs.«406287_j15865609192043_3_alg».proof.Proof.Region4
import proofs.«406287_j15865609192043_3_alg».proof.Proof.AggBridge
import Idealize.ShloMosaic.PureOps.Ideal
import Idealize.ShloMosaic.Lib.StableHlo.Run

set_option maxRecDepth 16384

noncomputable section

namespace Cert.KernelIdeal.Chain

open Idealize.ShloMosaic Idealize.ShloMosaic.TcCoe Idealize.ShloMosaic.StableHlo Cert.KernelIdeal Cert.KernelIdeal.Gen

/-- Contents carried to a buffer's own type and back are the contents. -/
theorem ofBuf_toBuf {sig : RefSig} {Val : EltTy → Type} {T : BufTy} (x : StableHlo.TRef sig T) (v : T.Contents Val) :
    x.ofBuf (x.toBuf v) = v := by
  obtain ⟨r, rfl, _, _⟩ := x
  rfl

/-! ## Reading a valuation at a typed reference

The operations of an outlined function name their buffers with their types; read at the declared type, each operation's
result is its function of the operands' reads, with no change of type left in the term. -/

section Typed

variable {τ : Topo} {sig : RefSig} {Val : EltTy → Type} {T Ta Tb Tc Ty : BufTy}

/-- What a valuation holds at a typed reference, at the reference's declared type. -/
def rd (V : Valuation τ sig Val) (x : StableHlo.TRef sig T) : T.Contents Val := x.ofBuf (V (Proc.devRef .tc x.ref))

theorem rd_nullary_self (y : StableHlo.TRef sig Ty) (v : Ty.Contents Val) (V : Valuation τ sig Val) :
    rd ((StableHlo.TRef.nullary (τ := τ) y v).result V) y = v := by
  unfold rd StableHlo.TRef.nullary; rw [StableHlo.nullary_result]; exact ofBuf_toBuf y v
theorem rd_nullary_ne (y : StableHlo.TRef sig Ty) (v : Ty.Contents Val) (V : Valuation τ sig Val) (z : StableHlo.TRef sig T)
    (h : z.ref ≠ y.ref) : rd ((StableHlo.TRef.nullary (τ := τ) y v).result V) z = rd V z := by
  unfold rd StableHlo.TRef.nullary; rw [StableHlo.nullary_result_ne (h := h)]
theorem rd_unary_self (x : StableHlo.TRef sig Ta) (y : StableHlo.TRef sig Ty) (f : Ta.Contents Val → Ty.Contents Val) (V : Valuation τ sig Val) :
    rd ((StableHlo.TRef.unary (τ := τ) x y f).result V) y = f (rd V x) := by
  unfold rd StableHlo.TRef.unary; rw [StableHlo.unary_result]; exact ofBuf_toBuf y _
theorem rd_unary_ne (x : StableHlo.TRef sig Ta) (y : StableHlo.TRef sig Ty) (f : Ta.Contents Val → Ty.Contents Val) (V : Valuation τ sig Val)
    (z : StableHlo.TRef sig T) (h : z.ref ≠ y.ref) : rd ((StableHlo.TRef.unary (τ := τ) x y f).result V) z = rd V z := by
  unfold rd StableHlo.TRef.unary; rw [StableHlo.unary_result_ne (h := h)]
theorem rd_binary_self (a : StableHlo.TRef sig Ta) (b : StableHlo.TRef sig Tb) (y : StableHlo.TRef sig Ty)
    (f : Ta.Contents Val → Tb.Contents Val → Ty.Contents Val) (V : Valuation τ sig Val) :
    rd ((StableHlo.TRef.binary (τ := τ) a b y f).result V) y = f (rd V a) (rd V b) := by
  unfold rd StableHlo.TRef.binary; rw [StableHlo.binary_result]; exact ofBuf_toBuf y _
theorem rd_binary_ne (a : StableHlo.TRef sig Ta) (b : StableHlo.TRef sig Tb) (y : StableHlo.TRef sig Ty)
    (f : Ta.Contents Val → Tb.Contents Val → Ty.Contents Val) (V : Valuation τ sig Val) (z : StableHlo.TRef sig T) (h : z.ref ≠ y.ref) :
    rd ((StableHlo.TRef.binary (τ := τ) a b y f).result V) z = rd V z := by
  unfold rd StableHlo.TRef.binary; rw [StableHlo.binary_result_ne (h := h)]
theorem rd_ternary_self (c : StableHlo.TRef sig Tc) (a : StableHlo.TRef sig Ta) (b : StableHlo.TRef sig Tb) (y : StableHlo.TRef sig Ty)
    (f : Tc.Contents Val → Ta.Contents Val → Tb.Contents Val → Ty.Contents Val) (V : Valuation τ sig Val) :
    rd ((StableHlo.TRef.ternary (τ := τ) c a b y f).result V) y = f (rd V c) (rd V a) (rd V b) := by
  unfold rd StableHlo.TRef.ternary; rw [StableHlo.ternary_result]; exact ofBuf_toBuf y _
theorem rd_ternary_ne (c : StableHlo.TRef sig Tc) (a : StableHlo.TRef sig Ta) (b : StableHlo.TRef sig Tb) (y : StableHlo.TRef sig Ty)
    (f : Tc.Contents Val → Ta.Contents Val → Tb.Contents Val → Ty.Contents Val) (V : Valuation τ sig Val) (z : StableHlo.TRef sig T)
    (h : z.ref ≠ y.ref) : rd ((StableHlo.TRef.ternary (τ := τ) c a b y f).result V) z = rd V z := by
  unfold rd StableHlo.TRef.ternary; rw [StableHlo.ternary_result_ne (h := h)]

/-- At a reference taken at its own type the typed read is the plain read. -/
theorem rd_self (r : Ref sig .tc) (h1 : r.space ≠ .host) (h2 : r.isScoped = false) (V : Valuation τ sig Val) :
    rd V (⟨r, rfl, h1, h2⟩ : StableHlo.TRef sig r.ty) = V (Proc.devRef .tc r) := rfl

end Typed

/-- No operation of the stretch writes the buffer: each operation writes one buffer, another one. -/
local macro "nw " ops:ident : tactic =>
  `(tactic| exact List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- What a stretch of plain operations leaves in a buffer it computes, as the operations' composed term. -/
local macro "reads" : tactic => `(tactic| (after_results <;> rfl))

/-- The same for a stretch of an outlined function's operations, through the typed reads. -/
local macro "treads" : tactic =>
  `(tactic| (simp (disch := decide) only [StableHlo.after_cons, StableHlo.after_nil, rd_nullary_self, rd_unary_self, rd_binary_self,
      rd_ternary_self, rd_nullary_ne, rd_unary_ne, rd_binary_ne, rd_ternary_ne]; rfl))

variable {F : FTy → Type} [FloatOps F]
variable (m : (ℓ : Loc nD τ sig) → Buf (Elt F) ℓ) (ρ : Dev nD → PrngReg) (c : Dev nD)

/-! ## A buffer nothing writes, boundary by boundary -/

section Keep

variable (b : Ref sig .tc)
variable (h0 : ∀ op ∈ (hostOps0 : List (HloOp τ sig (Elt F))), Proc.devRef .tc b ∉ op.writes)
  (h01 : ∀ op ∈ (hostOps0_1 : List (HloOp τ sig (Elt F))), Proc.devRef .tc b ∉ op.writes)
  (h02 : ∀ op ∈ (hostOps0_2 : List (HloOp τ sig (Elt F))), Proc.devRef .tc b ∉ op.writes)
  (r0 : ∀ w, Pipeline.arrRef spec0 w ≠ b)
  (h1 : ∀ op ∈ (hostOps1 : List (HloOp τ sig (Elt F))), Proc.devRef .tc b ∉ op.writes)
  (h11 : ∀ op ∈ (hostOps1_1 : List (HloOp τ sig (Elt F))), Proc.devRef .tc b ∉ op.writes)
  (r1 : ∀ w, Pipeline.arrRef spec1 w ≠ b)
  (h2 : ∀ op ∈ (hostOps2 : List (HloOp τ sig (Elt F))), Proc.devRef .tc b ∉ op.writes)
  (h21 : ∀ op ∈ (hostOps2_1 : List (HloOp τ sig (Elt F))), Proc.devRef .tc b ∉ op.writes)
  (r2 : ∀ w, Pipeline.arrRef spec2 w ≠ b)
  (h3 : ∀ op ∈ (hostOps3 : List (HloOp τ sig (Elt F))), Proc.devRef .tc b ∉ op.writes)
  (h31 : ∀ op ∈ (hostOps3_1 : List (HloOp τ sig (Elt F))), Proc.devRef .tc b ∉ op.writes)
  (r3 : ∀ w, Pipeline.arrRef spec3 w ≠ b)
  (h4 : ∀ op ∈ (hostOps4 : List (HloOp τ sig (Elt F))), Proc.devRef .tc b ∉ op.writes)

include h0 h01 h02 in
/-- Before the first call: as launched. -/
theorem at3 : W3 m ρ c (Proc.devRef .tc b) = m ((c : Thread nD τ).loc b) :=
  (StableHlo.after_of_forall_not_mem _ _ h02).trans
    ((StableHlo.after_of_forall_not_mem _ _ h01).trans (StableHlo.after_of_forall_not_mem _ _ h0))

include r0 in
theorem keep3_4 : W4 m ρ c (Proc.devRef .tc b) = W3 m ρ c (Proc.devRef .tc b) := W4_of_ne m ρ c b r0

include h1 h11 in
theorem keep4_6 : W6 m ρ c (Proc.devRef .tc b) = W4 m ρ c (Proc.devRef .tc b) :=
  (StableHlo.after_of_forall_not_mem _ _ h11).trans (StableHlo.after_of_forall_not_mem _ _ h1)

include r1 in
theorem keep6_7 : W7 m ρ c (Proc.devRef .tc b) = W6 m ρ c (Proc.devRef .tc b) := W7_of_ne m ρ c b r1

include h2 h21 in
theorem keep7_9 : W9 m ρ c (Proc.devRef .tc b) = W7 m ρ c (Proc.devRef .tc b) :=
  (StableHlo.after_of_forall_not_mem _ _ h21).trans (StableHlo.after_of_forall_not_mem _ _ h2)

include r2 in
theorem keep9_10 : W10 m ρ c (Proc.devRef .tc b) = W9 m ρ c (Proc.devRef .tc b) := W10_of_ne m ρ c b r2

include h3 h31 in
theorem keep10_12 : W12 m ρ c (Proc.devRef .tc b) = W10 m ρ c (Proc.devRef .tc b) :=
  (StableHlo.after_of_forall_not_mem _ _ h31).trans (StableHlo.after_of_forall_not_mem _ _ h3)

include r3 in
theorem keep12_13 : W13 m ρ c (Proc.devRef .tc b) = W12 m ρ c (Proc.devRef .tc b) := W13_of_ne m ρ c b r3

include h4 in
theorem keep13_14 : W14 m ρ c (Proc.devRef .tc b) = W13 m ρ c (Proc.devRef .tc b) := StableHlo.after_of_forall_not_mem _ _ h4

include h0 h01 h02 r0 h1 h11 in
theorem at6 : W6 m ρ c (Proc.devRef .tc b) = m ((c : Thread nD τ).loc b) :=
  (keep4_6 m ρ c b h1 h11).trans ((keep3_4 m ρ c b r0).trans (at3 m ρ c b h0 h01 h02))

include h0 h01 h02 r0 h1 h11 r1 h2 h21 in
theorem at9 : W9 m ρ c (Proc.devRef .tc b) = m ((c : Thread nD τ).loc b) :=
  (keep7_9 m ρ c b h2 h21).trans ((keep6_7 m ρ c b r1).trans (at6 m ρ c b h0 h01 h02 r0 h1 h11))

include h0 h01 h02 r0 h1 h11 r1 h2 h21 r2 h3 h31 in
theorem at12 : W12 m ρ c (Proc.devRef .tc b) = m ((c : Thread nD τ).loc b) :=
  (keep10_12 m ρ c b h3 h31).trans ((keep9_10 m ρ c b r2).trans (at9 m ρ c b h0 h01 h02 r0 h1 h11 r1 h2 h21))

include h0 h01 h02 r0 h1 h11 r1 h2 h21 r2 h3 h31 r3 in
theorem at13 : W13 m ρ c (Proc.devRef .tc b) = m ((c : Thread nD τ).loc b) :=
  (keep12_13 m ρ c b r3).trans (at12 m ρ c b h0 h01 h02 r0 h1 h11 r1 h2 h21 r2 h3 h31)

include h0 h01 h02 r0 h1 h11 r1 h2 h21 r2 h3 h31 r3 h4 in
theorem at14 : W14 m ρ c (Proc.devRef .tc b) = m ((c : Thread nD τ).loc b) :=
  (keep13_14 m ρ c b h4).trans (at13 m ρ c b h0 h01 h02 r0 h1 h11 r1 h2 h21 r2 h3 h31 r3)

include r0 h1 h11 r1 in
/-- From the first call's entry to the second call's exit. -/
theorem keep3_7 : W7 m ρ c (Proc.devRef .tc b) = W3 m ρ c (Proc.devRef .tc b) :=
  (keep6_7 m ρ c b r1).trans ((keep4_6 m ρ c b h1 h11).trans (keep3_4 m ρ c b r0))

include r0 h1 h11 r1 h2 h21 r2 in
/-- From the first call's entry to the third call's exit. -/
theorem keep3_10 : W10 m ρ c (Proc.devRef .tc b) = W3 m ρ c (Proc.devRef .tc b) :=
  (keep9_10 m ρ c b r2).trans ((keep7_9 m ρ c b h2 h21).trans (keep3_7 m ρ c b r0 h1 h11 r1))

end Keep

/-! ## The arguments, where they are used

One statement per argument and boundary: the argument's buffer is written by no host operation and is no array of
an earlier call, so it holds what was launched. The side conditions are decided per stretch (`nw`) and per call
(`decide`: the buffer is none of the call's arrays). -/

set_option hygiene false in
/-- `arg_at3 name : b`: argument `b` is as launched when the first call is entered. -/
local macro "arg_at3 " n:ident " : " b:ident : command =>
  `(theorem $n : W3 m ρ c (Proc.devRef .tc $b) = m ((c : Thread nD τ).loc $b) :=
      at3 m ρ c $b (by nw hostOps0) (by nw hostOps0_1) (by nw hostOps0_2))

set_option hygiene false in
/-- … when the second call is entered. -/
local macro "arg_at6 " n:ident " : " b:ident : command =>
  `(theorem $n : W6 m ρ c (Proc.devRef .tc $b) = m ((c : Thread nD τ).loc $b) :=
      at6 m ρ c $b (by nw hostOps0) (by nw hostOps0_1) (by nw hostOps0_2) (by decide) (by nw hostOps1) (by nw hostOps1_1))

set_option hygiene false in
/-- … when the third call is entered. -/
local macro "arg_at9 " n:ident " : " b:ident : command =>
  `(theorem $n : W9 m ρ c (Proc.devRef .tc $b) = m ((c : Thread nD τ).loc $b) :=
      at9 m ρ c $b (by nw hostOps0) (by nw hostOps0_1) (by nw hostOps0_2) (by decide) (by nw hostOps1) (by nw hostOps1_1)
        (by decide) (by nw hostOps2) (by nw hostOps2_1))

set_option hygiene false in
/-- … when the fourth call is entered. -/
local macro "arg_at12 " n:ident " : " b:ident : command =>
  `(theorem $n : W12 m ρ c (Proc.devRef .tc $b) = m ((c : Thread nD τ).loc $b) :=
      at12 m ρ c $b (by nw hostOps0) (by nw hostOps0_1) (by nw hostOps0_2) (by decide) (by nw hostOps1) (by nw hostOps1_1)
        (by decide) (by nw hostOps2) (by nw hostOps2_1) (by decide) (by nw hostOps3) (by nw hostOps3_1))

set_option hygiene false in
/-- … when the fourth call is left. -/
local macro "arg_at13 " n:ident " : " b:ident : command =>
  `(theorem $n : W13 m ρ c (Proc.devRef .tc $b) = m ((c : Thread nD τ).loc $b) :=
      at13 m ρ c $b (by nw hostOps0) (by nw hostOps0_1) (by nw hostOps0_2) (by decide) (by nw hostOps1) (by nw hostOps1_1)
        (by decide) (by nw hostOps2) (by nw hostOps2_1) (by decide) (by nw hostOps3) (by nw hostOps3_1) (by decide))

set_option hygiene false in
/-- … when the last call is entered. -/
local macro "arg_at14 " n:ident " : " b:ident : command =>
  `(theorem $n : W14 m ρ c (Proc.devRef .tc $b) = m ((c : Thread nD τ).loc $b) :=
      at14 m ρ c $b (by nw hostOps0) (by nw hostOps0_1) (by nw hostOps0_2) (by decide) (by nw hostOps1) (by nw hostOps1_1)
        (by decide) (by nw hostOps2) (by nw hostOps2_1) (by decide) (by nw hostOps3) (by nw hostOps3_1) (by decide) (by nw hostOps4))

-- the input layer's arguments: the node features, its weight and bias
arg_at3 W3_arg0 : main_arg0
arg_at3 W3_arg4 : main_arg4
arg_at3 W3_arg5 : main_arg5
-- the three convolutions' weights and biases
arg_at6 W6_arg6 : main_arg6
arg_at6 W6_arg7 : main_arg7
arg_at6 W6_arg8 : main_arg8
arg_at9 W9_arg9 : main_arg9
arg_at9 W9_arg10 : main_arg10
arg_at9 W9_arg11 : main_arg11
arg_at12 W12_arg12 : main_arg12
arg_at12 W12_arg13 : main_arg13
arg_at12 W12_arg14 : main_arg14
-- the graph number of every node
arg_at13 W13_arg3 : main_arg3
-- the head's weights and biases
arg_at14 W14_arg15 : main_arg15
arg_at14 W14_arg16 : main_arg16
arg_at14 W14_arg17 : main_arg17
arg_at14 W14_arg18 : main_arg18

/-! ## The edge lists in target order: computed before the first call, kept to the last convolution -/

theorem W3_v11 : W3 m ρ c (Proc.devRef .tc main_v11)
    = Cert.KTerms.permI (Cert.KTerms.src (m ((c : Thread nD τ).loc main_arg1))) (Cert.KTerms.order (Cert.KTerms.dst (m ((c : Thread nD τ).loc main_arg1)))) := by reads
theorem W3_v18 : W3 m ρ c (Proc.devRef .tc main_v18)
    = Cert.KTerms.permI (Cert.KTerms.dst (m ((c : Thread nD τ).loc main_arg1))) (Cert.KTerms.order (Cert.KTerms.dst (m ((c : Thread nD τ).loc main_arg1)))) := by reads
theorem W3_v25 : W3 m ρ c (Proc.devRef .tc main_v25)
    = Cert.KTerms.permF (m ((c : Thread nD τ).loc main_arg2)) (Cert.KTerms.order (Cert.KTerms.dst (m ((c : Thread nD τ).loc main_arg1)))) := by reads

set_option hygiene false in
/-- `kept4 name : b`: the first call leaves buffer `b` alone. -/
local macro "kept4 " n:ident " : " b:ident : command =>
  `(theorem $n : W4 m ρ c (Proc.devRef .tc $b) = W3 m ρ c (Proc.devRef .tc $b) := keep3_4 m ρ c $b (by decide))

set_option hygiene false in
/-- … and so do the next stretch and the second call. -/
local macro "kept7 " n:ident " : " b:ident : command =>
  `(theorem $n : W7 m ρ c (Proc.devRef .tc $b) = W3 m ρ c (Proc.devRef .tc $b) :=
      keep3_7 m ρ c $b (by decide) (by nw hostOps1) (by nw hostOps1_1) (by decide))

set_option hygiene false in
/-- … and the stretch after it and the third call. -/
local macro "kept10 " n:ident " : " b:ident : command =>
  `(theorem $n : W10 m ρ c (Proc.devRef .tc $b) = W3 m ρ c (Proc.devRef .tc $b) :=
      keep3_10 m ρ c $b (by decide) (by nw hostOps1) (by nw hostOps1_1) (by decide) (by nw hostOps2) (by nw hostOps2_1) (by decide))

-- sources, targets and weights in target order
kept4 W4_v11 : main_v11
kept4 W4_v18 : main_v18
kept4 W4_v25 : main_v25
kept7 W7_v11 : main_v11
kept7 W7_v18 : main_v18
kept7 W7_v25 : main_v25
kept10 W10_v11 : main_v11
kept10 W10_v18 : main_v18
kept10 W10_v25 : main_v25

/-! ## Between two calls: the rows of the last layer gathered at the sources -/

/-- The outlined row gather over ANY contents: its result is `take8` of the table and the index list it reads. -/
theorem take1 (V : Valuation τ sig (Elt F)) :
    rd (StableHlo.after hostOps1 V) (StableHlo.TRef.of main_v27 : StableHlo.TRef sig ⟨S1600000x8, .f32⟩)
      = Cert.KTerms.take8 (rd V (StableHlo.TRef.of main_v26 : StableHlo.TRef sig ⟨S100000x8, .f32⟩)) (rd V (StableHlo.TRef.of main_v11 : StableHlo.TRef sig ⟨S1600000, .i32⟩)) := by treads
theorem take2 (V : Valuation τ sig (Elt F)) :
    rd (StableHlo.after hostOps2 V) (StableHlo.TRef.of main_v35 : StableHlo.TRef sig ⟨S1600000x32, .f32⟩)
      = Cert.KTerms.take32 (rd V (StableHlo.TRef.of main_v34 : StableHlo.TRef sig ⟨S100000x32, .f32⟩)) (rd V (StableHlo.TRef.of main_v11 : StableHlo.TRef sig ⟨S1600000, .i32⟩)) := by treads
theorem take3 (V : Valuation τ sig (Elt F)) :
    rd (StableHlo.after hostOps3 V) (StableHlo.TRef.of main_v43 : StableHlo.TRef sig ⟨S1600000x32, .f32⟩)
      = Cert.KTerms.take32 (rd V (StableHlo.TRef.of main_v42 : StableHlo.TRef sig ⟨S100000x32, .f32⟩)) (rd V (StableHlo.TRef.of main_v11 : StableHlo.TRef sig ⟨S1600000, .i32⟩)) := by treads

theorem W5_v27 : W5 m ρ c (Proc.devRef .tc main_v27) = Cert.KTerms.take8 (W4 m ρ c (Proc.devRef .tc main_v26)) (W4 m ρ c (Proc.devRef .tc main_v11)) :=
  take1 (W4 m ρ c)
theorem W8_v35 : W8 m ρ c (Proc.devRef .tc main_v35) = Cert.KTerms.take32 (W7 m ρ c (Proc.devRef .tc main_v34)) (W7 m ρ c (Proc.devRef .tc main_v11)) :=
  take2 (W7 m ρ c)
theorem W11_v43 : W11 m ρ c (Proc.devRef .tc main_v43) = Cert.KTerms.take32 (W10 m ρ c (Proc.devRef .tc main_v42)) (W10 m ρ c (Proc.devRef .tc main_v11)) :=
  take3 (W10 m ρ c)

/-! ## … scaled by the edge weights and scatter-added onto the targets -/

/-- The seven operations after the row gather, over ANY contents. -/
theorem scat1 (V : Valuation τ sig (Elt F)) : StableHlo.after hostOps1_1 V (Proc.devRef .tc main_v33)
    = Host.scatterAdd scatter_S100000x8_S1600000x1_S1600000x8_1_0_0_1
        (broadcastInDim S100000x8 ![] Facts₀.bcast_S_S100000x8 (constant S_ .f32 0x00000000#32))
        (broadcastInDim S1600000x1 ![0] Facts₀.bcast_S1600000_S1600000x1_0 (V (Proc.devRef .tc main_v18)))
        (mulf (V (Proc.devRef .tc main_v27))
          (broadcastInDim S1600000x8 ![0, 1] Facts₀.bcast_S1600000x1_S1600000x8_0_1
            (broadcastInDim S1600000x1 ![0] Facts₀.bcast_S1600000_S1600000x1_0 (V (Proc.devRef .tc main_v25))))) := by reads
theorem scat2 (V : Valuation τ sig (Elt F)) : StableHlo.after hostOps2_1 V (Proc.devRef .tc main_v41)
    = Host.scatterAdd scatter_S100000x32_S1600000x1_S1600000x32_1_0_0_1
        (broadcastInDim S100000x32 ![] Facts₀.bcast_S_S100000x32 (constant S_ .f32 0x00000000#32))
        (broadcastInDim S1600000x1 ![0] Facts₀.bcast_S1600000_S1600000x1_0 (V (Proc.devRef .tc main_v18)))
        (mulf (V (Proc.devRef .tc main_v35))
          (broadcastInDim S1600000x32 ![0, 1] Facts₀.bcast_S1600000x1_S1600000x32_0_1
            (broadcastInDim S1600000x1 ![0] Facts₀.bcast_S1600000_S1600000x1_0 (V (Proc.devRef .tc main_v25))))) := by reads
theorem scat3 (V : Valuation τ sig (Elt F)) : StableHlo.after hostOps3_1 V (Proc.devRef .tc main_v49)
    = Host.scatterAdd scatter_S100000x32_S1600000x1_S1600000x32_1_0_0_1
        (broadcastInDim S100000x32 ![] Facts₀.bcast_S_S100000x32 (constant S_ .f32 0x00000000#32))
        (broadcastInDim S1600000x1 ![0] Facts₀.bcast_S1600000_S1600000x1_0 (V (Proc.devRef .tc main_v18)))
        (mulf (V (Proc.devRef .tc main_v43))
          (broadcastInDim S1600000x32 ![0, 1] Facts₀.bcast_S1600000x1_S1600000x32_0_1
            (broadcastInDim S1600000x1 ![0] Facts₀.bcast_S1600000_S1600000x1_0 (V (Proc.devRef .tc main_v25))))) := by reads

theorem W6_v33 : W6 m ρ c (Proc.devRef .tc main_v33)
    = Cert.KTerms.kagg8 (W4 m ρ c (Proc.devRef .tc main_v26)) (W4 m ρ c (Proc.devRef .tc main_v11)) (W4 m ρ c (Proc.devRef .tc main_v18)) (W4 m ρ c (Proc.devRef .tc main_v25)) := by
  refine (scat1 (W5 m ρ c)).trans ?_
  rw [W5_v27, show W5 m ρ c (Proc.devRef .tc main_v18) = W4 m ρ c (Proc.devRef .tc main_v18) from StableHlo.after_of_forall_not_mem _ _ (by nw hostOps1),
    show W5 m ρ c (Proc.devRef .tc main_v25) = W4 m ρ c (Proc.devRef .tc main_v25) from StableHlo.after_of_forall_not_mem _ _ (by nw hostOps1)]
  rfl
theorem W9_v41 : W9 m ρ c (Proc.devRef .tc main_v41)
    = Cert.KTerms.kagg32 (W7 m ρ c (Proc.devRef .tc main_v34)) (W7 m ρ c (Proc.devRef .tc main_v11)) (W7 m ρ c (Proc.devRef .tc main_v18)) (W7 m ρ c (Proc.devRef .tc main_v25)) := by
  refine (scat2 (W8 m ρ c)).trans ?_
  rw [W8_v35, show W8 m ρ c (Proc.devRef .tc main_v18) = W7 m ρ c (Proc.devRef .tc main_v18) from StableHlo.after_of_forall_not_mem _ _ (by nw hostOps2),
    show W8 m ρ c (Proc.devRef .tc main_v25) = W7 m ρ c (Proc.devRef .tc main_v25) from StableHlo.after_of_forall_not_mem _ _ (by nw hostOps2)]
  rfl
theorem W12_v49 : W12 m ρ c (Proc.devRef .tc main_v49)
    = Cert.KTerms.kagg32 (W10 m ρ c (Proc.devRef .tc main_v42)) (W10 m ρ c (Proc.devRef .tc main_v11)) (W10 m ρ c (Proc.devRef .tc main_v18)) (W10 m ρ c (Proc.devRef .tc main_v25)) := by
  refine (scat3 (W11 m ρ c)).trans ?_
  rw [W11_v43, show W11 m ρ c (Proc.devRef .tc main_v18) = W10 m ρ c (Proc.devRef .tc main_v18) from StableHlo.after_of_forall_not_mem _ _ (by nw hostOps3),
    show W11 m ρ c (Proc.devRef .tc main_v25) = W10 m ρ c (Proc.devRef .tc main_v25) from StableHlo.after_of_forall_not_mem _ _ (by nw hostOps3)]
  rfl

/-- Each layer's rows are still there when the next call reads them beside their aggregate. -/
theorem W6_v26 : W6 m ρ c (Proc.devRef .tc main_v26) = W4 m ρ c (Proc.devRef .tc main_v26) := keep4_6 m ρ c main_v26 (by nw hostOps1) (by nw hostOps1_1)
theorem W9_v34 : W9 m ρ c (Proc.devRef .tc main_v34) = W7 m ρ c (Proc.devRef .tc main_v34) := keep7_9 m ρ c main_v34 (by nw hostOps2) (by nw hostOps2_1)
theorem W12_v42 : W12 m ρ c (Proc.devRef .tc main_v42) = W10 m ρ c (Proc.devRef .tc main_v42) := keep10_12 m ρ c main_v42 (by nw hostOps3) (by nw hostOps3_1)

/-- After the last convolution: the mean over each graph. -/
theorem W14_v62 : W14 m ρ c (Proc.devRef .tc main_v62) = Cert.KTerms.kpool (W13 m ρ c (Proc.devRef .tc main_v50)) (W13 m ρ c (Proc.devRef .tc main_arg3)) := by
  show StableHlo.after hostOps4 (W13 m ρ c) _ = _
  generalize W13 m ρ c = V
  reads

/-! ## The five calls: each output array is its layer of the arrays the call was given -/

section Ideal

variable (m : (ℓ : Loc nD τ sig) → Buf (Elt Ideal) ℓ) (ρ : Dev nD → PrngReg) (c : Dev nD)

theorem W4_v26 : W4 m ρ c (Proc.devRef .tc main_v26)
    = Cert.Layers.lin1 (F := Ideal) (W3 m ρ c (Proc.devRef .tc main_arg0)) (W3 m ρ c (Proc.devRef .tc main_arg4)) (W3 m ρ c (Proc.devRef .tc main_arg5)) :=
  (W4_arr m ρ c 3).trans (Cert.Region0.final (V3 m ρ) c)
theorem W7_v34 : W7 m ρ c (Proc.devRef .tc main_v34)
    = Cert.Layers.conv1 (F := Ideal) (W6 m ρ c (Proc.devRef .tc main_v33)) (W6 m ρ c (Proc.devRef .tc main_v26)) (W6 m ρ c (Proc.devRef .tc main_arg6))
        (W6 m ρ c (Proc.devRef .tc main_arg7)) (W6 m ρ c (Proc.devRef .tc main_arg8)) :=
  (W7_arr m ρ c 5).trans (Cert.Region1.final (V6 m ρ) c)
theorem W10_v42 : W10 m ρ c (Proc.devRef .tc main_v42)
    = Cert.Layers.conv2 (F := Ideal) (W9 m ρ c (Proc.devRef .tc main_v41)) (W9 m ρ c (Proc.devRef .tc main_v34)) (W9 m ρ c (Proc.devRef .tc main_arg9))
        (W9 m ρ c (Proc.devRef .tc main_arg10)) (W9 m ρ c (Proc.devRef .tc main_arg11)) :=
  (W10_arr m ρ c 5).trans (Cert.Region2.final (V9 m ρ) c)
theorem W13_v50 : W13 m ρ c (Proc.devRef .tc main_v50)
    = Cert.Layers.conv3 (F := Ideal) (W12 m ρ c (Proc.devRef .tc main_v49)) (W12 m ρ c (Proc.devRef .tc main_v42)) (W12 m ρ c (Proc.devRef .tc main_arg12))
        (W12 m ρ c (Proc.devRef .tc main_arg13)) (W12 m ρ c (Proc.devRef .tc main_arg14)) :=
  (W13_arr m ρ c 5).trans (Cert.Region3.final (V12 m ρ) c)
theorem W15_v63 : W15 m ρ c (Proc.devRef .tc main_v63)
    = Cert.Layers.lin2 (F := Ideal) (W14 m ρ c (Proc.devRef .tc main_v62)) (W14 m ρ c (Proc.devRef .tc main_arg15)) (W14 m ρ c (Proc.devRef .tc main_arg16))
        (W14 m ρ c (Proc.devRef .tc main_arg17)) (W14 m ρ c (Proc.devRef .tc main_arg18)) :=
  (W15_arr m ρ c 5).trans (Cert.Region4.final (V14 m ρ) c)

/-! ## The result -/

/-- The two programs spell the edge lists and the mean over a graph alike. -/
theorem src_eq (ei : IVec S2x1600000 32) : Cert.KTerms.src ei = Cert.Layers.src ei := rfl
theorem dst_eq (ei : IVec S2x1600000 32) : Cert.KTerms.dst ei = Cert.Layers.dst ei := rfl
theorem pool_eq (h : FVec Ideal S100000x32 .f32) (b : IVec S100000 32) : Cert.KTerms.kpool (F := Ideal) h b = Cert.Layers.pool (F := Ideal) h b := rfl

/-- When every source index is a node number, the result array after the last call is the reference network of the
    arguments as launched: layer by layer, each aggregation over the edges in target order being the aggregation over
    the edges as given. -/
theorem result_eq
    (hs : ∀ e : S1600000.Idx, 0 ≤ (Cert.KTerms.src (m ((c : Thread nD τ).loc main_arg1)) e).toInt ∧ (Cert.KTerms.src (m ((c : Thread nD τ).loc main_arg1)) e).toInt < 100000) :
    W15 m ρ c (Proc.devRef .tc main_v63)
      = Cert.Layers.net (F := Ideal)
        (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18)) := by
  -- the input layer
  have h1 : W4 m ρ c (Proc.devRef .tc main_v26) = Cert.Layers.lin1 (F := Ideal) (m ((c : Thread nD τ).loc main_arg0)) (m ((c : Thread nD τ).loc main_arg4)) (m ((c : Thread nD τ).loc main_arg5)) := by
    rw [W4_v26, W3_arg0, W3_arg4, W3_arg5]
  -- first aggregation and convolution
  have a1 : W6 m ρ c (Proc.devRef .tc main_v33) = Cert.Layers.agg8 (F := Ideal) (Cert.Layers.lin1 (F := Ideal) (m ((c : Thread nD τ).loc main_arg0)) (m ((c : Thread nD τ).loc main_arg4)) (m ((c : Thread nD τ).loc main_arg5)))
      (Cert.Layers.src (m ((c : Thread nD τ).loc main_arg1))) (Cert.Layers.dst (m ((c : Thread nD τ).loc main_arg1))) (m ((c : Thread nD τ).loc main_arg2)) := by
    rw [W6_v33, h1, W4_v11, W4_v18, W4_v25, W3_v11, W3_v18, W3_v25, ← src_eq, ← dst_eq]
    exact Cert.AggBridge.agg8_eq _ _ _ _ hs
  have h2 : W7 m ρ c (Proc.devRef .tc main_v34) = Cert.Layers.conv1 (F := Ideal) (W6 m ρ c (Proc.devRef .tc main_v33)) (W4 m ρ c (Proc.devRef .tc main_v26))
      (m ((c : Thread nD τ).loc main_arg6)) (m ((c : Thread nD τ).loc main_arg7)) (m ((c : Thread nD τ).loc main_arg8)) := by
    rw [W7_v34, W6_v26, W6_arg6, W6_arg7, W6_arg8]
  -- second
  have a2 : W9 m ρ c (Proc.devRef .tc main_v41) = Cert.Layers.agg32 (F := Ideal) (W7 m ρ c (Proc.devRef .tc main_v34))
      (Cert.Layers.src (m ((c : Thread nD τ).loc main_arg1))) (Cert.Layers.dst (m ((c : Thread nD τ).loc main_arg1))) (m ((c : Thread nD τ).loc main_arg2)) := by
    rw [W9_v41, W7_v11, W7_v18, W7_v25, W3_v11, W3_v18, W3_v25, ← src_eq, ← dst_eq]
    exact Cert.AggBridge.agg32_eq _ _ _ _ hs
  have h3 : W10 m ρ c (Proc.devRef .tc main_v42) = Cert.Layers.conv2 (F := Ideal) (W9 m ρ c (Proc.devRef .tc main_v41)) (W7 m ρ c (Proc.devRef .tc main_v34))
      (m ((c : Thread nD τ).loc main_arg9)) (m ((c : Thread nD τ).loc main_arg10)) (m ((c : Thread nD τ).loc main_arg11)) := by
    rw [W10_v42, W9_v34, W9_arg9, W9_arg10, W9_arg11]
  -- third
  have a3 : W12 m ρ c (Proc.devRef .tc main_v49) = Cert.Layers.agg32 (F := Ideal) (W10 m ρ c (Proc.devRef .tc main_v42))
      (Cert.Layers.src (m ((c : Thread nD τ).loc main_arg1))) (Cert.Layers.dst (m ((c : Thread nD τ).loc main_arg1))) (m ((c : Thread nD τ).loc main_arg2)) := by
    rw [W12_v49, W10_v11, W10_v18, W10_v25, W3_v11, W3_v18, W3_v25, ← src_eq, ← dst_eq]
    exact Cert.AggBridge.agg32_eq _ _ _ _ hs
  have h4 : W13 m ρ c (Proc.devRef .tc main_v50) = Cert.Layers.conv3 (F := Ideal) (W12 m ρ c (Proc.devRef .tc main_v49)) (W10 m ρ c (Proc.devRef .tc main_v42))
      (m ((c : Thread nD τ).loc main_arg12)) (m ((c : Thread nD τ).loc main_arg13)) (m ((c : Thread nD τ).loc main_arg14)) := by
    rw [W13_v50, W12_v42, W12_arg12, W12_arg13, W12_arg14]
  -- the mean over each graph and the head
  rw [W15_v63, W14_v62, W14_arg15, W14_arg16, W14_arg17, W14_arg18, pool_eq, W13_arg3, h4, a3, h3, a2, h2, a1, h1]
  rfl

end Ideal

end Cert.KernelIdeal.Chain

end
-- ==== Proof.RefNet.lean ====
/-
  The reference's result is the network of its arguments: the composed term of the reference's run, read layer by layer.
-/
import proofs.«406287_j15865609192043_3_alg».proof.Proof.Gen.ReferenceIdeal.Run
import proofs.«406287_j15865609192043_3_alg».proof.Proof.Layers

noncomputable section

namespace Cert.RefNet

open Idealize.ShloMosaic Idealize.ShloMosaic.TcCoe Cert.ReferenceIdeal Cert.ReferenceIdeal.Gen

variable {F : FTy → Type} [FloatOps F]

set_option maxRecDepth 16384 in
set_option maxHeartbeats 4000000 in
/-- The run's term for the result is `Layers.net` applied to the nineteen arguments as launched. -/
theorem res_eq (m : (ℓ : Loc nD τ sig) → Buf (Elt F) ℓ) (c : Dev nD) :
    Cert.ReferenceIdeal.Value.res_main_v97 m c
      = Cert.Layers.net (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16)) (m ((c.tc : Thread nD τ).loc main_arg17))
          (m ((c.tc : Thread nD τ).loc main_arg18)) := by
  unfold Cert.ReferenceIdeal.Value.res_main_v97 Cert.Layers.net Cert.Layers.lin2 Cert.Layers.pool Cert.Layers.conv2 Cert.Layers.conv3
    Cert.Layers.conv1 Cert.Layers.agg32 Cert.Layers.agg8 Cert.Layers.lin1 Cert.Layers.wrap Cert.Layers.src Cert.Layers.dst
  rfl

end Cert.RefNet

end
-- ==== Proof.PreDecode.lean ====
/-
  What the precondition says about the edge list: every source index is a node number, `0 ≤ src e < 100000`.
-/
import proofs.«406287_j15865609192043_3_alg».proof.Pre_finite_inputs
import proofs.«406287_j15865609192043_3_alg».proof.Proof.Gen.Pre_finite_inputs
import proofs.«406287_j15865609192043_3_alg».proof.Proof.Gen.KernelIdeal
import proofs.«406287_j15865609192043_3_alg».proof.Proof.KTerms
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic Cert.KernelIdeal

/-- The source row as the precondition's program spells it. -/
def psrc (ei : IVec Cert.Pre_finite_inputs.S2x1600000 32) : IVec Cert.Pre_finite_inputs.S1600000 32 :=
  shapeCast Cert.Pre_finite_inputs.S1600000
    (extractStridedSlice Cert.Pre_finite_inputs.S1x1600000 ![0, 0] ei Cert.Pre_finite_inputs.Facts.slices_S2x1600000_S1x1600000_0_0)
    Cert.Pre_finite_inputs.Facts.shapeCasts_S1x1600000_S1600000

/-- The precondition is the conjunction of a bit about the float inputs and of the test that every source index lies in `[0, 100000)`. -/
theorem fn_last (a0 : FVec Ideal S100000x128 .f32) (a1 : IVec S2x1600000 32) (a2 : FVec Ideal S1600000 .f32) (a3 : IVec S100000 32)
    (a4 : FVec Ideal S8x128 .f32) (a5 : FVec Ideal S8 .f32) (a6 : FVec Ideal S32x8 .f32) (a7 : FVec Ideal S32 .f32) (a8 : FVec Ideal S32x8 .f32)
    (a9 : FVec Ideal S32x32 .f32) (a10 : FVec Ideal S32 .f32) (a11 : FVec Ideal S32x32 .f32) (a12 : FVec Ideal S32x32 .f32) (a13 : FVec Ideal S32 .f32)
    (a14 : FVec Ideal S32x32 .f32) (a15 : FVec Ideal S16x32 .f32) (a16 : FVec Ideal S16 .f32) (a17 : FVec Ideal S10x16 .f32) (a18 : FVec Ideal S10 .f32) :
    ∃ X : IVec Cert.Pre_finite_inputs.S_ 1,
      Cert.Pre_finite_inputs.fn (F := Ideal) a0 a1 a2 a3 a4 a5 a6 a7 a8 a9 a10 a11 a12 a13 a14 a15 a16 a17 a18
        = andi X (Host.reduce IntOp.andi
            (andi (cmpi .sge (psrc a1) (broadcastInDim Cert.Pre_finite_inputs.S1600000 ![] Cert.Pre_finite_inputs.Facts.bcast_S_S1600000 (constantI Cert.Pre_finite_inputs.S_ 32 0#32)))
                  (cmpi .slt (psrc a1) (broadcastInDim Cert.Pre_finite_inputs.S1600000 ![] Cert.Pre_finite_inputs.Facts.bcast_S_S1600000 (constantI Cert.Pre_finite_inputs.S_ 32 100000#32))))
            (constantI Cert.Pre_finite_inputs.S_ 1 1#1)
            Cert.Pre_finite_inputs.Facts.reducesTo_S1600000_S_d0 Cert.Pre_finite_inputs.Facts.h_S_) :=
  ⟨_, rfl⟩

theorem src_range (a0 : FVec Ideal S100000x128 .f32) (a1 : IVec S2x1600000 32) (a2 : FVec Ideal S1600000 .f32) (a3 : IVec S100000 32)
    (a4 : FVec Ideal S8x128 .f32) (a5 : FVec Ideal S8 .f32) (a6 : FVec Ideal S32x8 .f32) (a7 : FVec Ideal S32 .f32) (a8 : FVec Ideal S32x8 .f32)
    (a9 : FVec Ideal S32x32 .f32) (a10 : FVec Ideal S32 .f32) (a11 : FVec Ideal S32x32 .f32) (a12 : FVec Ideal S32x32 .f32) (a13 : FVec Ideal S32 .f32)
    (a14 : FVec Ideal S32x32 .f32) (a15 : FVec Ideal S16x32 .f32) (a16 : FVec Ideal S16 .f32) (a17 : FVec Ideal S10x16 .f32) (a18 : FVec Ideal S10 .f32)
    (h : Cert.Pre_finite_inputs.fn (F := Ideal) a0 a1 a2 a3 a4 a5 a6 a7 a8 a9 a10 a11 a12 a13 a14 a15 a16 a17 a18 = (fun _ => 1#1)) :
    ∀ e : S1600000.Idx, 0 ≤ (Cert.KTerms.src a1 e).toInt ∧ (Cert.KTerms.src a1 e).toInt < 100000 := by
  intro e
  obtain ⟨X, hX⟩ := fn_last a0 a1 a2 a3 a4 a5 a6 a7 a8 a9 a10 a11 a12 a13 a14 a15 a16 a17 a18
  rw [hX] at h
  have h0 := congrFun h ValueIdx.ix0
  simp only [andi] at h0
  -- the scalar shape has one index
  haveI : Subsingleton Cert.Pre_finite_inputs.S_.Idx := ⟨fun _ _ => funext fun d => d.elim0⟩
  -- a conjunction over all edges that is 1 is 1 at the edge `e`
  have hall := Host.reduce_andi_all _ _ _ _ _ (IntOp.andi_eq_one.1 h0).2 e
  simp only [andi, cmpi] at hall
  obtain ⟨hge, hlt⟩ := IntOp.andi_eq_one.1 hall
  rw [IntOp.cmpi_sge] at hge
  rw [IntOp.cmpi_slt] at hlt
  have e0 : (0#32 : BitVec 32).toInt = 0 := by decide
  have e1 : (100000#32 : BitVec 32).toInt = 100000 := by decide
  -- both programs slice the same row out of the same list
  have hs : Cert.KTerms.src a1 e = psrc a1 e := rfl
  rw [hs]
  exact ⟨e0 ▸ hge, e1 ▸ hlt⟩

end Cert.PreDecode

end
-- ==== Proof.lean ====
/-
  A graph-convolution network on 100000 nodes and 1600000 weighted edges: an input layer, three graph convolutions
  (each: for every node the weighted sum of its in-neighbours' rows, a linear map of that sum plus a bias plus a linear
  map of the node's own row, a relu after the first two), the mean of the node rows over each graph of the batch, and a
  two-layer head. The kernel runs the five dense layers as pallas_calls over row blocks of 10000 nodes and does the
  neighbourhood sums on the host over the edges SORTED BY TARGET, gathering source rows with a fill for indices outside
  the table; the reference does everything on the host over the edges as given, with a clamping gather.
  Over the extended reals the two agree wherever every source index is a node number (the precondition's last
  conjunct): the dense layers are the same sums block by block (Region0 … Region4), a sum over the edges does not
  depend on their order and the stable argsort is a permutation of the edge positions (SortPerm, AggBridge), and with
  the indices in range the fill never shows. The kernel's result is read back through its run segment by segment
  (KernelRun, Chain); the reference's run gives the same network of the arguments (RefNet). No finiteness is used.
  The three frames are the generated ones (the reference's is its generated run with the result dropped), and the
  idealization rewrote nothing, so `preserves` is trivial.
-/
import proofs.«406287_j15865609192043_3_alg».proof.Defs
import proofs.«406287_j15865609192043_3_alg».proof.Proof.Gen.Kernel
import proofs.«406287_j15865609192043_3_alg».proof.Proof.Gen.Kernel.Skeleton
import proofs.«406287_j15865609192043_3_alg».proof.Proof.Gen.Kernel.Launch
import proofs.«406287_j15865609192043_3_alg».proof.Proof.Gen.Kernel.Points
import proofs.«406287_j15865609192043_3_alg».proof.Proof.Gen.Kernel.Frame
import proofs.«406287_j15865609192043_3_alg».proof.Proof.Gen.KernelIdeal
import proofs.«406287_j15865609192043_3_alg».proof.Proof.Gen.KernelIdeal.Skeleton
import proofs.«406287_j15865609192043_3_alg».proof.Proof.Gen.KernelIdeal.Launch
import proofs.«406287_j15865609192043_3_alg».proof.Proof.Gen.KernelIdeal.Points
import proofs.«406287_j15865609192043_3_alg».proof.Proof.Gen.KernelIdeal.Frame
import proofs.«406287_j15865609192043_3_alg».proof.Proof.Gen.ReferenceIdeal
import proofs.«406287_j15865609192043_3_alg».proof.Proof.Gen.Pre_finite_inputs
import proofs.«406287_j15865609192043_3_alg».proof.Proof.Gen.ReferenceIdeal.Run
import proofs.«406287_j15865609192043_3_alg».proof.Proof.Gen.ReferenceIdeal.Read
import proofs.«406287_j15865609192043_3_alg».proof.Proof.KernelRun
import proofs.«406287_j15865609192043_3_alg».proof.Proof.Chain
import proofs.«406287_j15865609192043_3_alg».proof.Proof.RefNet
import proofs.«406287_j15865609192043_3_alg».proof.Proof.PreDecode
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the (agreeing) arguments in their result arrays. -/
theorem algebraic : Cert.algebraic_KernelIdeal_ReferenceIdeal := by
  intro m ρ m' ρ' hpre hagree
  have hs := fun c : Dev Cert.KernelIdeal.nD =>
    Cert.PreDecode.src_range _ _ _ _ _ _ _ _ _ _ _ _ _ _ _ _ _ _ _ (hpre c)
  refine ⟨fun c => Cert.Layers.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      (m ((c.tc : Thread Cert.KernelIdeal.nD Cert.KernelIdeal.τ).loc Cert.KernelIdeal.main_arg16)) (m ((c.tc : Thread Cert.KernelIdeal.nD Cert.KernelIdeal.τ).loc Cert.KernelIdeal.main_arg17))
      (m ((c.tc : Thread Cert.KernelIdeal.nD Cert.KernelIdeal.τ).loc Cert.KernelIdeal.main_arg18)), ?_, ?_⟩
  · exact (θ_run Cert.KernelIdeal.defs _ _).mono
      (fun _ h c => ⟨(h c).1.trans (Cert.KernelIdeal.Chain.result_eq m ρ c (hs c)), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18⟩ := hagree c
    rw [Cert.RefNet.res_eq, e0, e1, e2, e3, e4, e5, e6, e7, e8, e9, e10, e11, e12, e13, e14, e15, e16, e17, e18]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
